-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S32768x1088 : Shape := ⟨2, ![32768, 1088]⟩
abbrev S32768x64 : Shape := ⟨2, ![32768, 64]⟩
abbrev S1536x64 : Shape := ⟨2, ![1536, 64]⟩
abbrev S1536 : Shape := ⟨1, ![1536]⟩
abbrev S1536x512 : Shape := ⟨2, ![1536, 512]⟩
abbrev S768x384 : Shape := ⟨2, ![768, 384]⟩
abbrev S768 : Shape := ⟨1, ![768]⟩
abbrev S768x256 : Shape := ⟨2, ![768, 256]⟩
abbrev S128x512 : Shape := ⟨2, ![128, 512]⟩
abbrev S128x256 : Shape := ⟨2, ![128, 256]⟩
abbrev S128 : Shape := ⟨1, ![128]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S32768x1088 : S_.BroadcastsInDim S32768x1088 (![] : Fin 0 → Fin S32768x1088.rank)
  reducesTo_S32768x1088_S_d0_1 : S32768x1088.ReducesTo [0, 1] S_
  bcast_S_S32768x64 : S_.BroadcastsInDim S32768x64 (![] : Fin 0 → Fin S32768x64.rank)
  reducesTo_S32768x64_S_d0_1 : S32768x64.ReducesTo [0, 1] S_
  bcast_S_S1536x64 : S_.BroadcastsInDim S1536x64 (![] : Fin 0 → Fin S1536x64.rank)
  reducesTo_S1536x64_S_d0_1 : S1536x64.ReducesTo [0, 1] S_
  bcast_S_S1536 : S_.BroadcastsInDim S1536 (![] : Fin 0 → Fin S1536.rank)
  reducesTo_S1536_S_d0 : S1536.ReducesTo [0] S_
  bcast_S_S1536x512 : S_.BroadcastsInDim S1536x512 (![] : Fin 0 → Fin S1536x512.rank)
  reducesTo_S1536x512_S_d0_1 : S1536x512.ReducesTo [0, 1] S_
  bcast_S_S768x384 : S_.BroadcastsInDim S768x384 (![] : Fin 0 → Fin S768x384.rank)
  reducesTo_S768x384_S_d0_1 : S768x384.ReducesTo [0, 1] S_
  bcast_S_S768 : S_.BroadcastsInDim S768 (![] : Fin 0 → Fin S768.rank)
  reducesTo_S768_S_d0 : S768.ReducesTo [0] S_
  bcast_S_S768x256 : S_.BroadcastsInDim S768x256 (![] : Fin 0 → Fin S768x256.rank)
  reducesTo_S768x256_S_d0_1 : S768x256.ReducesTo [0, 1] S_
  bcast_S_S128x512 : S_.BroadcastsInDim S128x512 (![] : Fin 0 → Fin S128x512.rank)
  reducesTo_S128x512_S_d0_1 : S128x512.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128x512 .f32) (main_arg12 : FVec F S128x256 .f32) (main_arg13 : FVec F S128 .f32) (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  let main_v54 : FVec F S128x512 .f32 := Host.absf main_arg11
  let main_cst_20 : FVec F S_ .f32 := constant S_ .f32 0x7F800000#32
  let main_v55 : FVec F S128x512 .f32 := broadcastInDim S128x512 ![] bcast_S_S128x512 main_cst_20
  let main_v56 : IVec S128x512 1 := cmpf .olt main_v54 main_v55
  let main_c_21 : IVec S_ 1 := constantI S_ 1 1#1
  let main_v57 : IVec S_ 1 := (fun x v => Host.reduce IntOp.andi x v reducesTo_S128x512_S_d0_1 h_S_) main_v56 main_c_21
  let main_v58 : IVec S_ 1 := andi main_v53 main_v57
  let main_v59 : FVec F S128x256 .f32 := Host.absf main_arg12
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S768x384 .f32) (main_arg8 : FVec F S768 .f32) (main_arg9 : FVec F S768x256 .f32) (main_arg10 : FVec F S768 .f32) (main_arg11 : FVec F S128x512 .f32) (main_arg12 : FVec F S128x256 .f32) (main_arg13 : FVec F S128 .f32) (main_v33 : IVec S_ 1) : IVec S_ 1 :=
  let main_v34 : FVec F S768x384 .f32 := Host.absf main_arg7
  let main_cst_12 : FVec F S_ .f32 := constant S_ .f32 0x7F800000#32
  let main_v35 : FVec F S768x384 .f32 := broadcastInDim S768x384 ![] bcast_S_S768x384 main_cst_12
  let main_v36 : IVec S768x384 1 := cmpf .olt main_v34 main_v35
  let main_c_13 : IVec S_ 1 := constantI S_ 1 1#1
  let main_v37 : IVec S_ 1 := (fun x v => Host.reduce IntOp.andi x v reducesTo_S768x384_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768x256 .f32 := Host.absf main_arg9
  let main_cst_16 : FVec F S_ .f32 := constant S_ .f32 0x7F800000#32
  let main_v45 : FVec F S768x256 .f32 := broadcastInDim S768x256 ![] bcast_S_S768x256 main_cst_16
  let main_v46 : IVec S768x256 1 := cmpf .olt main_v44 main_v45
  let main_c_17 : IVec S_ 1 := constantI S_ 1 1#1
  let main_v47 : IVec S_ 1 := (fun x v => Host.reduce IntOp.andi x v reducesTo_S768x256_S_d0_1 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_arg11 main_arg12 main_arg13 main_v48 main_v49 main_v50

def fn_part1 {F : FTy → Type} [FloatOps F] (main_arg4 : FVec F S1536 .f32) (main_arg5 : FVec F S1536x512 .f32) (main_arg6 : FVec F S1536 .f32) (main_arg7 : FVec F S768x384 .f32) (main_arg8 : FVec F S768 .f32) (main_arg9 : FVec F S768x256 .f32) (main_arg10 : FVec F S768 .f32) (main_arg11 : FVec F S128x512 .f32) (main_arg12 : FVec F S128x256 .f32) (main_arg13 : FVec F S128 .f32) (main_v13 : IVec S_ 1) (main_v16 : IVec S1536x64 1) : IVec S_ 1 :=
  let main_c_5 : IVec S_ 1 := constantI S_ 1 1#1
  let main_v17 : IVec S_ 1 := (fun x v => Host.reduce IntOp.andi x v reducesTo_S1536x64_S_d0_1 h_S_) main_v16 main_c_5
  let main_v18 : IVec S_ 1 := andi main_v13 main_v17
  let main_v19 : FVec F S1536 .f32 := Host.absf main_arg4
  let main_cst_6 : FVec F S_ .f32 := constant S_ .f32 0x7F800000#32
  let main_v20 : FVec F S1536 .f32 := broadcastInDim S1536 ![] bcast_S_S1536 main_cst_6
  let main_v21 : IVec S1536 1 := cmpf .olt main_v19 main_v20
  let main_c_7 : IVec S_ 1 := constantI S_ 1 1#1
  let main_v22 : IVec S_ 1 := (fun x v => Host.reduce IntOp.andi x v reducesTo_S1536_S_d0 h_S_) main_v21 main_c_7
  let main_v23 : IVec S_ 1 := andi main_v18 main_v22
  let main_v24 : FVec F S1536x512 .f32 := Host.absf main_arg5
  let main_cst_8 : FVec F S_ .f32 := constant S_ .f32 0x7F800000#32
  let main_v25 : FVec F S1536x512 .f32 := broadcastInDim S1536x512 ![] bcast_S_S1536x512 main_cst_8
  let main_v26 : IVec S1536x512 1 := cmpf .olt main_v24 main_v25
  let main_c_9 : IVec S_ 1 := constantI S_ 1 1#1
  let main_v27 : IVec S_ 1 := (fun x v => Host.reduce IntOp.andi x v reducesTo_S1536x512_S_d0_1 h_S_) main_v26 main_c_9
  let main_v28 : IVec S_ 1 := andi main_v23 main_v27
  let main_v29 : FVec F S1536 .f32 := Host.absf main_arg6
  let main_cst_10 : FVec F S_ .f32 := constant S_ .f32 0x7F800000#32
  let main_v30 : FVec F S1536 .f32 := broadcastInDim S1536 ![] bcast_S_S1536 main_cst_10
  let main_v31 : IVec S1536 1 := cmpf .olt main_v29 main_v30
  let main_c_11 : IVec S_ 1 := constantI S_ 1 1#1
  let main_v32 : IVec S_ 1 := (fun x v => Host.reduce IntOp.andi x v reducesTo_S1536_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S32768x256 .f32) (main_arg1 : FVec F S32768x1088 .f32) (main_arg2 : FVec F S32768x64 .f32) (main_arg3 : FVec F S1536x64 .f32) (main_arg4 : FVec F S1536 .f32) (main_arg5 : FVec F S1536x512 .f32) (main_arg6 : FVec F S1536 .f32) (main_arg7 : FVec F S768x384 .f32) (main_arg8 : FVec F S768 .f32) (main_arg9 : FVec F S768x256 .f32) (main_arg10 : FVec F S768 .f32) (main_arg11 : FVec F S128x512 .f32) (main_arg12 : FVec F S128x256 .f32) (main_arg13 : FVec F S128 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x1088 .f32 := Host.absf main_arg1
  let main_cst_0 : FVec F S_ .f32 := constant S_ .f32 0x7F800000#32
  let main_v5 : FVec F S32768x1088 .f32 := broadcastInDim S32768x1088 ![] bcast_S_S32768x1088 main_cst_0
  let main_v6 : IVec S32768x1088 1 := cmpf .olt main_v4 main_v5
  let main_c_1 : IVec S_ 1 := constantI S_ 1 1#1
  let main_v7 : IVec S_ 1 := (fun x v => Host.reduce IntOp.andi x v reducesTo_S32768x1088_S_d0_1 h_S_) main_v6 main_c_1
  let main_v8 : IVec S_ 1 := andi main_v3 main_v7
  let main_v9 : FVec F S32768x64 .f32 := Host.absf main_arg2
  let main_cst_2 : FVec F S_ .f32 := constant S_ .f32 0x7F800000#32
  let main_v10 : FVec F S32768x64 .f32 := broadcastInDim S32768x64 ![] bcast_S_S32768x64 main_cst_2
  let main_v11 : IVec S32768x64 1 := cmpf .olt main_v9 main_v10
  let main_c_3 : IVec S_ 1 := constantI S_ 1 1#1
  let main_v12 : IVec S_ 1 := (fun x v => Host.reduce IntOp.andi x v reducesTo_S32768x64_S_d0_1 h_S_) main_v11 main_c_3
  let main_v13 : IVec S_ 1 := andi main_v8 main_v12
  let main_v14 : FVec F S1536x64 .f32 := Host.absf main_arg3
  let main_cst_4 : FVec F S_ .f32 := constant S_ .f32 0x7F800000#32
  let main_v15 : FVec F S1536x64 .f32 := broadcastInDim S1536x64 ![] bcast_S_S1536x64 main_cst_4
  let main_v16 : IVec S1536x64 1 := cmpf .olt main_v14 main_v15
  fn_part1 (F := F) main_arg4 main_arg5 main_arg6 main_arg7 main_arg8 main_arg9 main_arg10 main_arg11 main_arg12 main_arg13 main_v13 main_v16
-- ==== Kernel.lean ====
abbrev S32768x256 : Shape := ⟨2, ![32768, 256]⟩
abbrev S32768x1088 : Shape := ⟨2, ![32768, 1088]⟩
abbrev S32768x64 : Shape := ⟨2, ![32768, 64]⟩
abbrev S1536x64 : Shape := ⟨2, ![1536, 64]⟩
abbrev S1536 : Shape := ⟨1, ![1536]⟩
abbrev S1536x512 : Shape := ⟨2, ![1536, 512]⟩
abbrev S768x384 : Shape := ⟨2, ![768, 384]⟩
abbrev S768 : Shape := ⟨1, ![768]⟩
abbrev S768x256 : Shape := ⟨2, ![768, 256]⟩
abbrev S128x512 : Shape := ⟨2, ![128, 512]⟩
abbrev S128x256 : Shape := ⟨2, ![128, 256]⟩
abbrev S128 : Shape := ⟨1, ![128]⟩
abbrev S1x1536 : Shape := ⟨2, ![1, 1536]⟩
abbrev S1x768 : Shape := ⟨2, ![1, 768]⟩
abbrev S1x128 : Shape := ⟨2, ![1, 128]⟩
abbrev S1024x256 : Shape := ⟨2, ![1024, 256]⟩
abbrev S1024x1088 : Shape := ⟨2, ![1024, 1088]⟩
abbrev S1024x64 : Shape := ⟨2, ![1024, 64]⟩
abbrev S1024x512 : Shape := ⟨2, ![1024, 512]⟩
abbrev S1024x128 : Shape := ⟨2, ![1024, 128]⟩
abbrev S1024x384 : Shape := ⟨2, ![1024, 384]⟩
abbrev S384x768 : Shape := ⟨2, ![384, 768]⟩
abbrev S1024x768 : Shape := ⟨2, ![1024, 768]⟩
abbrev S512x256 : Shape := ⟨2, ![512, 256]⟩
abbrev S256x512 : Shape := ⟨2, ![256, 512]⟩
abbrev S1x512 : Shape := ⟨2, ![1, 512]⟩
abbrev S256x256 : Shape := ⟨2, ![256, 256]⟩
abbrev S1x256 : Shape := ⟨2, ![1, 256]⟩
abbrev S256x128 : Shape := ⟨2, ![256, 128]⟩
abbrev S64x1536 : Shape := ⟨2, ![64, 1536]⟩
abbrev S1024x1536 : Shape := ⟨2, ![1024, 1536]⟩
abbrev S512x1024 : Shape := ⟨2, ![512, 1024]⟩
abbrev S1024x1024 : Shape := ⟨2, ![1024, 1024]⟩
abbrev S1x1024 : Shape := ⟨2, ![1, 1024]⟩
abbrev S512x512 : Shape := ⟨2, ![512, 512]⟩
abbrev S128x1 : Shape := ⟨2, ![128, 1]⟩
abbrev S512x128 : Shape := ⟨2, ![512, 128]⟩

abbrev nBuf : Space → Nat
  | .hbm => 20
  | .vmem => 19
  | .smem => 0
  | _ => 0

abbrev bufTy : (tb : Table) → Fin (tcTables nBuf tb) → BufTy
  | .hbm, ⟨0, _⟩ => ⟨S32768x256, .f32⟩
  | .hbm, ⟨1, _⟩ => ⟨S32768x1088, .f32⟩
  | .hbm, ⟨2, _⟩ => ⟨S32768x64, .f32⟩
  | .hbm, ⟨3, _⟩ => ⟨S1536x64, .f32⟩
  | .hbm, ⟨4, _⟩ => ⟨S1536, .f32⟩
  | .hbm, ⟨5, _⟩ => ⟨S1536x512, .f32⟩
  | .hbm, ⟨6, _⟩ => ⟨S1536, .f32⟩
  | .hbm, ⟨7, _⟩ => ⟨S768x384, .f32⟩
  | .hbm, ⟨8, _⟩ => ⟨S768, .f32⟩
  | .hbm, ⟨9, _⟩ => ⟨S768x256, .f32⟩
  | .hbm, ⟨10, _⟩ => ⟨S768, .f32⟩
  | .hbm, ⟨11, _⟩ => ⟨S128x512, .f32⟩
  | .hbm, ⟨12, _⟩ => ⟨S128x256, .f32⟩
  | .hbm, ⟨13, _⟩ => ⟨S128, .f32⟩
  | .hbm, ⟨14, _⟩ => ⟨S1x1536, .f32⟩
  | .hbm, ⟨15, _⟩ => ⟨S1x1536, .f32⟩
  | .hbm, ⟨16, _⟩ => ⟨S1x768, .f32⟩
  | .hbm, ⟨17, _⟩ => ⟨S1x768, .f32⟩
  | .hbm, ⟨18, _⟩ => ⟨S1x128, .f32⟩
  | .hbm, ⟨19, _⟩ => ⟨S32768x1088, .f32⟩
  | .local _ .vmem, ⟨0, _⟩ => ⟨S1024x256, .f32⟩
  | .local _ .vmem, ⟨1, _⟩ => ⟨S1024x256, .f32⟩
  | .local _ .vmem, ⟨2, _⟩ => ⟨S1024x1088, .f32⟩
  | .local _ .vmem, ⟨3, _⟩ => ⟨S1024x1088, .f32⟩
  | .local _ .vmem, ⟨4, _⟩ => ⟨S1024x64, .f32⟩
  | .local _ .vmem, ⟨5, _⟩ => ⟨S1024x64, .f32⟩
  | .local _ .vmem, ⟨6, _⟩ => ⟨S1536x64, .f32⟩
  | .local _ .vmem, ⟨7, _⟩ => ⟨S1x1536, .f32⟩
  | .local _ .vmem, ⟨8, _⟩ => ⟨S1536x512, .f32⟩
  | .local _ .vmem, ⟨9, _⟩ => ⟨S1x1536, .f32⟩
  | .local _ .vmem, ⟨10, _⟩ => ⟨S768x384, .f32⟩
  | .local _ .vmem, ⟨11, _⟩ => ⟨S1x768, .f32⟩
  | .local _ .vmem, ⟨12, _⟩ => ⟨S768x256, .f32⟩
  | .local _ .vmem, ⟨13, _⟩ => ⟨S1x768, .f32⟩
  | .local _ .vmem, ⟨14, _⟩ => ⟨S128x512, .f32⟩
  | .local _ .vmem, ⟨15, _⟩ => ⟨S128x256, .f32⟩
  | .local _ .vmem, ⟨16, _⟩ => ⟨S1x128, .f32⟩
  | .local _ .vmem, ⟨17, _⟩ => ⟨S1024x1088, .f32⟩
  | .local _ .vmem, ⟨18, _⟩ => ⟨S1024x1088, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1088 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S1536_S1x1536 : S1536.ShapeCasts S1x1536
  shapeCasts_S768_S1x768 : S768.ShapeCasts S1x768
  shapeCasts_S128_S1x128 : S128.ShapeCasts S1x128
  inb_S1024x256_S1024x256_0_0 : ∀ a, (![0, 0] : Fin 2 → Nat) a + S1024x256.size a ≤ S1024x256.size a
  h_S1024x256 : 0 < S1024x256.numel
  inb_S1024x1088_S1024x1088_0_0 : ∀ a, (![0, 0] : Fin 2 → Nat) a + S1024x1088.size a ≤ S1024x1088.size a
  h_S1024x1088 : 0 < S1024x1088.numel
  inb_S1024x64_S1024x64_0_0 : ∀ a, (![0, 0] : Fin 2 → Nat) a + S1024x64.size a ≤ S1024x64.size a
  h_S1024x64 : 0 < S1024x64.numel
  slices_S1024x1088_o0_0_S1024x512 : S1024x1088.Slices ![0, 0] S1024x512
  slices_S1024x1088_o0_512_S1024x256 : S1024x1088.Slices ![0, 512] S1024x256
  slices_S1024x1088_o0_960_S1024x128 : S1024x1088.Slices ![0, 960] S1024x128
  concatenates_S1024x256_S1024x128_S1024x384_d1 : Shape.Concatenates [S1024x256, S1024x128] S1024x384 1
  inb_S768x384_S768x384_0_0 : ∀ a, (![0, 0] : Fin 2 → Nat) a + S768x384.size a ≤ S768x384.size a
  h_S768x384 : 0 < S768x384.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S768x256_S768x256_0_0 : ∀ a, (![0, 0] : Fin 2 → Nat) a + S768x256.size a ≤ S768x256.size a
  h_S768x256 : 0 < S768x256.numel
  transposes_S768x384_p1_0_S384x768 : S768x384.Transposes [1, 0] S384x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  slices_S768x256_o0_0_S512x256 : S768x256.Slices ![0, 0] S512x256
  transposes_S512x256_p1_0_S256x512 : S512x256.Transposes [1, 0] S256x512
  slices_S1x768_o0_0_S1x512 : S1x768.Slices ![0, 0] S1x512
  broadcasts_S1x512_S1024x512 : S1x512.Broadcasts S1024x512
  slices_S1024x512_o0_0_S1024x256 : S1024x512.Slices ![0, 0] S1024x256
  slices_S1024x512_o0_256_S1024x256 : S1024x512.Slices ![0, 256] S1024x256
  slices_S768x256_o512_0_S256x256 : S768x256.Slices ![512, 0] S256x256
  transposes_S256x256_p1_0_S256x256 : S256x256.Transposes [1, 0] S256x256
  slices_S1x768_o0_512_S1x256 : S1x768.Slices ![0, 512] S1x256
  broadcasts_S1x256_S1024x256 : S1x256.Broadcasts S1024x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S1024x128_o0_0_S1024x64 : S1024x128.Slices ![0, 0] S1024x64
  slices_S1024x128_o0_64_S1024x64 : S1024x128.Slices ![0, 64] S1024x64
  inb_S1536x64_S1536x64_0_0 : ∀ a, (![0, 0] : Fin 2 → Nat) a + S1536x64.size a ≤ S1536x64.size a
  h_S1536x64 : 0 < S1536x64.numel
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  inb_S1536x512_S1536x512_0_0 : ∀ a, (![0, 0] : Fin 2 → Nat) a + S1536x512.size a ≤ S1536x512.size a
  h_S1536x512 : 0 < S1536x512.numel
  transposes_S1536x64_p1_0_S64x1536 : S1536x64.Transposes [1, 0] S64x1536
  broadcasts_S1x1536_S1024x1536 : S1x1536.Broadcasts S1024x1536
  slices_S1024x1536_o0_0_S1024x512 : S1024x1536.Slices ![0, 0] S1024x512
  slices_S1024x1536_o0_512_S1024x512 : S1024x1536.Slices ![0, 512] S1024x512
  slices_S1024x1536_o0_1024_S1024x512 : S1024x1536.Slices ![0, 1024] S1024x512
  slices_S1536x512_o0_0_S1024x512 : S1536x512.Slices ![0, 0] S1024x512
  transposes_S1024x512_p1_0_S512x1024 : S1024x512.Transposes [1, 0] S512x1024
  slices_S1x1536_o0_0_S1x1024 : S1x1536.Slices ![0, 0] S1x1024
  broadcasts_S1x1024_S1024x1024 : S1x1024.Broadcasts S1024x1024
  slices_S1024x1024_o0_0_S1024x512 : S1024x1024.Slices ![0, 0] S1024x512
  slices_S1024x1024_o0_512_S1024x512 : S1024x1024.Slices ![0, 512] S1024x512
  slices_S1536x512_o1024_0_S512x512 : S1536x512.Slices ![1024, 0] S512x512
  transposes_S512x512_p1_0_S512x512 : S512x512.Transposes [1, 0] S512x512
  slices_S1x1536_o0_1024_S1x512 : S1x1536.Slices ![0, 1024] S1x512
  inb_S128x512_S128x512_0_0 : ∀ a, (![0, 0] : Fin 2 → Nat) a + S128x512.size a ≤ S128x512.size a
  h_S128x512 : 0 < S128x512.numel
  reduces_S128x512_S128 : S128x512.Reduces [1] S128
  shapeCasts_S128_S128x1 : S128.ShapeCasts S128x1
  broadcasts_S128x1_S128x512 : S128x1.Broadcasts S128x512
  transposes_S128x512_p1_0_S512x128 : S128x512.Transposes [1, 0] S512x128
  inb_S1024x1088_S1024x512_0_0 : ∀ a, (![0, 0] : Fin 2 → Nat) a + S1024x512.size a ≤ S1024x1088.size a
  h_S1024x512 : 0 < S1024x512.numel
  inb_S1024x1088_S1024x256_0_512 : ∀ a, (![0, 512] : Fin 2 → Nat) a + S1024x256.size a ≤ S1024x1088.size a
  inb_S1024x1088_S1024x64_0_768 : ∀ a, (![0, 768] : Fin 2 → Nat) a + S1024x64.size a ≤ S1024x1088.size a
  inb_S1024x1088_S1024x64_0_832 : ∀ a, (![0, 832] : Fin 2 → Nat) a + S1024x64.size a ≤ S1024x1088.size a
  inb_S1024x1088_S1024x64_0_896 : ∀ a, (![0, 896] : Fin 2 → Nat) a + S1024x64.size a ≤ S1024x1088.size a
  inb_S1024x1088_S1024x128_0_960 : ∀ a, (![0, 960] : Fin 2 → Nat) a + S1024x128.size a ≤ S1024x1088.size a
  h_S1024x128 : 0 < S1024x128.numel
  dot_S1024x384_S384x768_S1024x768_1_0_0_1_n_n_wf : DotDims.WF S1024x384 S384x768 S1024x768 [1] [0] [0] [1] [] []
  dot_S1024x256_S256x512_S1024x512_1_0_0_1_n_n_wf : DotDims.WF S1024x256 S256x512 S1024x512 [1] [0] [0] [1] [] []
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  dot_S1024x64_S64x1536_S1024x1536_1_0_0_1_n_n_wf : DotDims.WF S1024x64 S64x1536 S1024x1536 [1] [0] [0] [1] [] []
  dot_S1024x512_S512x1024_S1024x1024_1_0_0_1_n_n_wf : DotDims.WF S1024x512 S512x1024 S1024x1024 [1] [0] [0] [1] [] []
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S32768x256.size a
  hwx0_0 : ∀ i : grid0.Coords, EltTy.bits .f32 = 32 ∨ (Rect.block (s := S32768x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1088.size a ≤ S32768x1088.size a
  hwx0_1 : ∀ i : grid0.Coords, EltTy.bits .f32 = 32 ∨ (Rect.block (s := S32768x1088) S1024x1088.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S32768x64.size a
  hwx0_2 : ∀ i : grid0.Coords, EltTy.bits .f32 = 32 ∨ (Rect.block (s := S32768x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1536x64.size a ≤ S1536x64.size a
  hwx0_3 : ∀ i : grid0.Coords, EltTy.bits .f32 = 32 ∨ (Rect.block (s := S1536x64) S1536x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1536.size a ≤ S1x1536.size a
  hwx0_4 : ∀ i : grid0.Coords, EltTy.bits .f32 = 32 ∨ (Rect.block (s := S1x1536) S1x1536.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1536x512.size a ≤ S1536x512.size a
  hwx0_5 : ∀ i : grid0.Coords, EltTy.bits .f32 = 32 ∨ (Rect.block (s := S1536x512) S1536x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1536.size a ≤ S1x1536.size a
  hwx0_6 : ∀ i : grid0.Coords, EltTy.bits .f32 = 32 ∨ (Rect.block (s := S1x1536) S1x1536.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x384.size a ≤ S768x384.size a
  hwx0_7 : ∀ i : grid0.Coords, EltTy.bits .f32 = 32 ∨ (Rect.block (s := S768x384) S768x384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S768x256.size a ≤ S768x256.size a
  hwx0_9 : ∀ i : grid0.Coords, EltTy.bits .f32 = 32 ∨ (Rect.block (s := S768x256) S768x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x768.size a ≤ S1x768.size a
  hwx0_10 : ∀ i : grid0.Coords, EltTy.bits .f32 = 32 ∨ (Rect.block (s := S1x768) S1x768.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x512.size a ≤ S128x512.size a
  hwx0_11 : ∀ i : grid0.Coords, EltTy.bits .f32 = 32 ∨ (Rect.block (s := S128x512) S128x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x256.size a ≤ S128x256.size a
  hwx0_12 : ∀ i : grid0.Coords, EltTy.bits .f32 = 32 ∨ (Rect.block (s := S128x256) S128x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x1088.size a ≤ S32768x1088.size a
  hwx0_14 : ∀ i : grid0.Coords, EltTy.bits .f32 = 32 ∨ (Rect.block (s := S32768x1088) S1024x1088.size (cc0_transform_14 i) (hinb0_14 i)).WholeWords (EltTy.packing .f32)

variable [Facts₀]

def dot_S1024x384_S384x768_S1024x768_1_0_0_1_n_n : DotDims S1024x384 S384x768 S1024x768 where
  lhsContracting := [1]
  rhsContracting := [0]
  lhsNonContracting := [0]
  rhsNonContracting := [1]
  lhsBatch := []
  rhsBatch := []
  wf := dot_S1024x384_S384x768_S1024x768_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x64_S64x1536_S1024x1536_1_0_0_1_n_n : DotDims S1024x64 S64x1536 S1024x1536 where
  lhsContracting := [1]
  rhsContracting := [0]
  lhsNonContracting := [0]
  rhsNonContracting := [1]
  lhsBatch := []
  rhsBatch := []
  wf := dot_S1024x64_S64x1536_S1024x1536_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1088.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1536x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1536x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S768x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S768x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v4) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v5) S1024x1088.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S32768x256 : Shape := ⟨2, ![32768, 256]⟩
abbrev S32768x1088 : Shape := ⟨2, ![32768, 1088]⟩
abbrev S32768x64 : Shape := ⟨2, ![32768, 64]⟩
abbrev S1536x64 : Shape := ⟨2, ![1536, 64]⟩
abbrev S1536 : Shape := ⟨1, ![1536]⟩
abbrev S1536x512 : Shape := ⟨2, ![1536, 512]⟩
abbrev S768x384 : Shape := ⟨2, ![768, 384]⟩
abbrev S768 : Shape := ⟨1, ![768]⟩
abbrev S768x256 : Shape := ⟨2, ![768, 256]⟩
abbrev S128x512 : Shape := ⟨2, ![128, 512]⟩
abbrev S128x256 : Shape := ⟨2, ![128, 256]⟩
abbrev S128 : Shape := ⟨1, ![128]⟩
abbrev S32768x512 : Shape := ⟨2, ![32768, 512]⟩
abbrev S32768x128 : Shape := ⟨2, ![32768, 128]⟩
abbrev S32768x384 : Shape := ⟨2, ![32768, 384]⟩
abbrev S384x768 : Shape := ⟨2, ![384, 768]⟩
abbrev S32768x768 : Shape := ⟨2, ![32768, 768]⟩
abbrev S1x768 : Shape := ⟨2, ![1, 768]⟩
abbrev S512x256 : Shape := ⟨2, ![512, 256]⟩
abbrev S256x512 : Shape := ⟨2, ![256, 512]⟩
abbrev S512 : Shape := ⟨1, ![512]⟩
abbrev S1x512 : Shape := ⟨2, ![1, 512]⟩
abbrev S_ : Shape := ⟨0, ![]⟩
abbrev S256x256 : Shape := ⟨2, ![256, 256]⟩
abbrev S256 : Shape := ⟨1, ![256]⟩
abbrev S1x256 : Shape := ⟨2, ![1, 256]⟩
abbrev S256x128 : Shape := ⟨2, ![256, 128]⟩
abbrev S1x128 : Shape := ⟨2, ![1, 128]⟩
abbrev S64x1536 : Shape := ⟨2, ![64, 1536]⟩
abbrev S32768x1536 : Shape := ⟨2, ![32768, 1536]⟩
abbrev S1x1536 : Shape := ⟨2, ![1, 1536]⟩
abbrev S1024x512 : Shape := ⟨2, ![1024, 512]⟩
abbrev S512x1024 : Shape := ⟨2, ![512, 1024]⟩
abbrev S32768x1024 : Shape := ⟨2, ![32768, 1024]⟩
abbrev S1024 : Shape := ⟨1, ![1024]⟩
abbrev S1x1024 : Shape := ⟨2, ![1, 1024]⟩
abbrev S512x512 : Shape := ⟨2, ![512, 512]⟩
abbrev S128x1 : Shape := ⟨2, ![128, 1]⟩
abbrev S512x128 : Shape := ⟨2, ![512, 128]⟩

abbrev nBuf : Space → Nat
  | .hbm => 165
  | .vmem => 0
  | .smem => 0
  | _ => 0

abbrev hbmTy0_0 (i : Nat) : BufTy := match i % 128 with
  | 0 => ⟨S32768x256, .f32⟩
  | 1 => ⟨S32768x1088, .f32⟩
  | 2 => ⟨S32768x64, .f32⟩
  | 3 => ⟨S1536x64, .f32⟩
  | 4 => ⟨S1536, .f32⟩
  | 5 => ⟨S1536x512, .f32⟩
  | 6 => ⟨S1536, .f32⟩
  | 7 => ⟨S768x384, .f32⟩
  | 8 => ⟨S768, .f32⟩
  | 9 => ⟨S768x256, .f32⟩
  | 10 => ⟨S768, .f32⟩
  | 11 => ⟨S128x512, .f32⟩
  | 12 => ⟨S128x256, .f32⟩
  | 13 => ⟨S128, .f32⟩
  | 14 => ⟨S32768x512, .f32⟩
  | 15 => ⟨S32768x256, .f32⟩
  | 16 => ⟨S32768x64, .f32⟩
  | 17 => ⟨S32768x64, .f32⟩
  | 18 => ⟨S32768x64, .f32⟩
  | 19 => ⟨S32768x128, .f32⟩
  | 20 => ⟨S32768x384, .f32⟩
  | 21 => ⟨S384x768, .f32⟩
  | 22 => ⟨S32768x768, .f32⟩
  | 23 => ⟨S1x768, .f32⟩
  | 24 => ⟨S32768x768, .f32⟩
  | 25 => ⟨S32768x768, .f32⟩
  | 26 => ⟨S32768x256, .f32⟩
  | 27 => ⟨S32768x256, .f32⟩
  | 28 => ⟨S32768x256, .f32⟩
  | 29 => ⟨S512x256, .f32⟩
  | 30 => ⟨S256x512, .f32⟩
  | 31 => ⟨S32768x512, .f32⟩
  | 32 => ⟨S512, .f32⟩
  | 33 => ⟨S1x512, .f32⟩
  | 34 => ⟨S32768x512, .f32⟩
  | 35 => ⟨S32768x512, .f32⟩
  | 36 => ⟨S32768x256, .f32⟩
  | 37 => ⟨S32768x256, .f32⟩
  | 38 => ⟨S32768x256, .f32⟩
  | 39 => ⟨S32768x256, .f32⟩
  | 40 => ⟨S32768x256, .f32⟩
  | 41 => ⟨S_, .f32⟩
  | 42 => ⟨S32768x256, .f32⟩
  | 43 => ⟨S32768x256, .f32⟩
  | 44 => ⟨S_, .f32⟩
  | 45 => ⟨S32768x256, .f32⟩
  | 46 => ⟨S32768x256, .f32⟩
  | 47 => ⟨S32768x256, .f32⟩
  | 48 => ⟨S32768x256, .f32⟩
  | 49 => ⟨S32768x256, .f32⟩
  | 50 => ⟨S_, .f32⟩
  | 51 => ⟨S32768x256, .f32⟩
  | 52 => ⟨S32768x256, .f32⟩
  | 53 => ⟨S_, .f32⟩
  | 54 => ⟨S32768x256, .f32⟩
  | 55 => ⟨S32768x256, .f32⟩
  | 56 => ⟨S32768x256, .f32⟩
  | 57 => ⟨S256x256, .f32⟩
  | 58 => ⟨S256x256, .f32⟩
  | 59 => ⟨S32768x256, .f32⟩
  | 60 => ⟨S256, .f32⟩
  | 61 => ⟨S1x256, .f32⟩
  | 62 => ⟨S32768x256, .f32⟩
  | 63 => ⟨S32768x256, .f32⟩
  | 64 => ⟨S32768x256, .f32⟩
  | 65 => ⟨S32768x256, .f32⟩
  | 66 => ⟨S32768x256, .f32⟩
  | 67 => ⟨S_, .f32⟩
  | 68 => ⟨S32768x256, .f32⟩
  | 69 => ⟨S32768x256, .f32⟩
  | 70 => ⟨S32768x256, .f32⟩
  | 71 => ⟨S32768x256, .f32⟩
  | 72 => ⟨S_, .f32⟩
  | 73 => ⟨S_, .f32⟩
  | 74 => ⟨S_, .f32⟩
  | 75 => ⟨S32768x256, .f32⟩
  | 76 => ⟨S32768x256, .f32⟩
  | 77 => ⟨S_, .f32⟩
  | 78 => ⟨S32768x256, .f32⟩
  | 79 => ⟨S32768x256, .f32⟩
  | 80 => ⟨S256x128, .f32⟩
  | 81 => ⟨S32768x128, .f32⟩
  | 82 => ⟨S1x128, .f32⟩
  | 83 => ⟨S32768x128, .f32⟩
  | 84 => ⟨S32768x128, .f32⟩
  | 85 => ⟨S32768x64, .f32⟩
  | 86 => ⟨S32768x64, .f32⟩
  | 87 => ⟨S_, .f32⟩
  | 88 => ⟨S32768x64, .f32⟩
  | 89 => ⟨S32768x64, .f32⟩
  | 90 => ⟨S32768x64, .f32⟩
  | 91 => ⟨S32768x64, .f32⟩
  | 92 => ⟨S32768x64, .f32⟩
  | 93 => ⟨S64x1536, .f32⟩
  | 94 => ⟨S32768x1536, .f32⟩
  | 95 => ⟨S1x1536, .f32⟩
  | 96 => ⟨S32768x1536, .f32⟩
  | 97 => ⟨S32768x1536, .f32⟩
  | 98 => ⟨S32768x512, .f32⟩
  | 99 => ⟨S32768x512, .f32⟩
  | 100 => ⟨S32768x512, .f32⟩
  | 101 => ⟨S1024x512, .f32⟩
  | 102 => ⟨S512x1024, .f32⟩
  | 103 => ⟨S32768x1024, .f32⟩
  | 104 => ⟨S1024, .f32⟩
  | 105 => ⟨S1x1024, .f32⟩
  | 106 => ⟨S32768x1024, .f32⟩
  | 107 => ⟨S32768x1024, .f32⟩
  | 108 => ⟨S32768x512, .f32⟩
  | 109 => ⟨S32768x512, .f32⟩
  | 110 => ⟨S32768x512, .f32⟩
  | 111 => ⟨S32768x512, .f32⟩
  | 112 => ⟨S32768x512, .f32⟩
  | 113 => ⟨S_, .f32⟩
  | 114 => ⟨S32768x512, .f32⟩
  | 115 => ⟨S32768x512, .f32⟩
  | 116 => ⟨S_, .f32⟩
  | 117 => ⟨S32768x512, .f32⟩
  | 118 => ⟨S32768x512, .f32⟩
  | 119 => ⟨S32768x512, .f32⟩
  | 120 => ⟨S32768x512, .f32⟩
  | 121 => ⟨S32768x512, .f32⟩
  | 122 => ⟨S_, .f32⟩
  | 123 => ⟨S32768x512, .f32⟩
  | 124 => ⟨S32768x512, .f32⟩
  | 125 => ⟨S_, .f32⟩
  | 126 => ⟨S32768x512, .f32⟩
  | 127 => ⟨S32768x512, .f32⟩
  | _ => ⟨S32768x256, .f32⟩

abbrev hbmTy0_1 (i : Nat) : BufTy := match i % 128 with
  | 0 => ⟨S32768x512, .f32⟩
  | 1 => ⟨S512x512, .f32⟩
  | 2 => ⟨S512x512, .f32⟩
  | 3 => ⟨S32768x512, .f32⟩
  | 4 => ⟨S512, .f32⟩
  | 5 => ⟨S1x512, .f32⟩
  | 6 => ⟨S32768x512, .f32⟩
  | 7 => ⟨S32768x512, .f32⟩
  | 8 => ⟨S32768x512, .f32⟩
  | 9 => ⟨S32768x512, .f32⟩
  | 10 => ⟨S32768x512, .f32⟩
  | 11 => ⟨S_, .f32⟩
  | 12 => ⟨S32768x512, .f32⟩
  | 13 => ⟨S32768x512, .f32⟩
  | 14 => ⟨S32768x512, .f32⟩
  | 15 => ⟨S32768x512, .f32⟩
  | 16 => ⟨S_, .f32⟩
  | 17 => ⟨S_, .f32⟩
  | 18 => ⟨S_, .f32⟩
  | 19 => ⟨S32768x512, .f32⟩
  | 20 => ⟨S32768x512, .f32⟩
  | 21 => ⟨S_, .f32⟩
  | 22 => ⟨S32768x512, .f32⟩
  | 23 => ⟨S32768x512, .f32⟩
  | 24 => ⟨S128x512, .f32⟩
  | 25 => ⟨S_, .f32⟩
  | 26 => ⟨S128, .f32⟩
  | 27 => ⟨S128x1, .f32⟩
  | 28 => ⟨S128x1, .f32⟩
  | 29 => ⟨S_, .f32⟩
  | 30 => ⟨S128x1, .f32⟩
  | 31 => ⟨S128x1, .f32⟩
  | 32 => ⟨S128x512, .f32⟩
  | 33 => ⟨S128x512, .f32⟩
  | 34 => ⟨S512x128, .f32⟩
  | 35 => ⟨S32768x128, .f32⟩
  | 36 => ⟨S32768x1088, .f32⟩
  | _ => ⟨S32768x256, .f32⟩

abbrev hbmTy (i : Nat) : BufTy := match i / 128 with
  | 0 => hbmTy0_0 i
  | 1 => hbmTy0_1 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_cst_0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_1 : Ref sig .tc := ⟨.hbm, 50, rfl⟩
abbrev main_v34 : Ref sig .tc := ⟨.hbm, 51, rfl⟩
abbrev main_v35 : Ref sig .tc := ⟨.hbm, 52, rfl⟩
abbrev main_cst_2 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_3 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_4 : Ref sig .tc := ⟨.hbm, 72, rfl⟩
abbrev main_cst_5 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_6 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_7 : Ref sig .tc := ⟨.hbm, 113, rfl⟩
abbrev main_v86 : Ref sig .tc := ⟨.hbm, 114, rfl⟩
abbrev main_v87 : Ref sig .tc := ⟨.hbm, 115, rfl⟩
abbrev main_cst_8 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_9 : Ref sig .tc := ⟨.hbm, 122, rfl⟩
abbrev main_v93 : Ref sig .tc := ⟨.hbm, 123, rfl⟩
abbrev main_v94 : Ref sig .tc := ⟨.hbm, 124, rfl⟩
abbrev main_cst_10 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_11 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_12 : Ref sig .tc := ⟨.hbm, 144, rfl⟩
abbrev main_cst_13 : Ref sig .tc := ⟨.hbm, 145, rfl⟩
abbrev main_call1_v0 : Ref sig .tc := ⟨.hbm, 146, rfl⟩
abbrev main_call1_v1 : Ref sig .tc := ⟨.hbm, 147, rfl⟩
abbrev main_call1_v2 : Ref sig .tc := ⟨.hbm, 148, rfl⟩
abbrev main_call1_v3 : Ref sig .tc := ⟨.hbm, 149, rfl⟩
abbrev main_call1_v4 : Ref sig .tc := ⟨.hbm, 150, rfl⟩
abbrev main_v112 : Ref sig .tc := ⟨.hbm, 151, rfl⟩
abbrev main_v113 : Ref sig .tc := ⟨.hbm, 152, rfl⟩
abbrev main_cst_14 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_15 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩

abbrev nD : Nat := 1
abbrev τ : Topo := Topo.v7x

variable {F : FTy → Type} [FloatOps F]

class Facts₀ : Prop where
  slices_S32768x1088_S32768x512_0_0 : S32768x1088.Slices ![0, 0] S32768x512
  slices_S32768x1088_S32768x256_0_512 : S32768x1088.Slices ![0, 512] S32768x256
  slices_S32768x1088_S32768x64_0_768 : S32768x1088.Slices ![0, 768] S32768x64
  slices_S32768x1088_S32768x64_0_832 : S32768x1088.Slices ![0, 832] S32768x64
  slices_S32768x1088_S32768x64_0_896 : S32768x1088.Slices ![0, 896] S32768x64
  slices_S32768x1088_S32768x128_0_960 : S32768x1088.Slices ![0, 960] S32768x128
  concatenates_S32768x256_S32768x128_S32768x384_d1 : Shape.Concatenates [S32768x256, S32768x128] S32768x384 1
  transposes_S768x384_S384x768_1_0 : S768x384.Transposes [1, 0] S384x768
  bcast_S768_S1x768_1 : S768.BroadcastsInDim S1x768 (![1] : Fin 1 → Fin S1x768.rank)
  bcast_S1x768_S32768x768_0_1 : S1x768.BroadcastsInDim S32768x768 (![0, 1] : Fin 2 → Fin S32768x768.rank)
  slices_S32768x768_S32768x256_0_0 : S32768x768.Slices ![0, 0] S32768x256
  slices_S32768x768_S32768x256_0_256 : S32768x768.Slices ![0, 256] S32768x256
  slices_S32768x768_S32768x256_0_512 : S32768x768.Slices ![0, 512] S32768x256
  slices_S768x256_S512x256_0_0 : S768x256.Slices ![0, 0] S512x256
  transposes_S512x256_S256x512_1_0 : S512x256.Transposes [1, 0] S256x512
  slices_S768_S512_0 : S768.Slices ![0] S512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  slices_S32768x512_S32768x256_0_0 : S32768x512.Slices ![0, 0] S32768x256
  slices_S32768x512_S32768x256_0_256 : S32768x512.Slices ![0, 256] S32768x256
  bcast_S_S32768x256 : S_.BroadcastsInDim S32768x256 (![] : Fin 0 → Fin S32768x256.rank)
  slices_S768x256_S256x256_512_0 : S768x256.Slices ![512, 0] S256x256
  transposes_S256x256_S256x256_1_0 : S256x256.Transposes [1, 0] S256x256
  slices_S768_S256_512 : S768.Slices ![512] S256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  transposes_S128x256_S256x128_1_0 : S128x256.Transposes [1, 0] S256x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  slices_S32768x128_S32768x64_0_0 : S32768x128.Slices ![0, 0] S32768x64
  slices_S32768x128_S32768x64_0_64 : S32768x128.Slices ![0, 64] S32768x64
  bcast_S_S32768x64 : S_.BroadcastsInDim S32768x64 (![] : Fin 0 → Fin S32768x64.rank)
  transposes_S1536x64_S64x1536_1_0 : S1536x64.Transposes [1, 0] S64x1536
  bcast_S1536_S1x1536_1 : S1536.BroadcastsInDim S1x1536 (![1] : Fin 1 → Fin S1x1536.rank)
  bcast_S1x1536_S32768x1536_0_1 : S1x1536.BroadcastsInDim S32768x1536 (![0, 1] : Fin 2 → Fin S32768x1536.rank)
  slices_S32768x1536_S32768x512_0_0 : S32768x1536.Slices ![0, 0] S32768x512
  slices_S32768x1536_S32768x512_0_512 : S32768x1536.Slices ![0, 512] S32768x512
  slices_S32768x1536_S32768x512_0_1024 : S32768x1536.Slices ![0, 1024] S32768x512
  slices_S1536x512_S1024x512_0_0 : S1536x512.Slices ![0, 0] S1024x512
  transposes_S1024x512_S512x1024_1_0 : S1024x512.Transposes [1, 0] S512x1024
  slices_S1536_S1024_0 : S1536.Slices ![0] S1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  slices_S32768x1024_S32768x512_0_0 : S32768x1024.Slices ![0, 0] S32768x512
  slices_S32768x1024_S32768x512_0_512 : S32768x1024.Slices ![0, 512] S32768x512
  bcast_S_S32768x512 : S_.BroadcastsInDim S32768x512 (![] : Fin 0 → Fin S32768x512.rank)
  slices_S1536x512_S512x512_1024_0 : S1536x512.Slices ![1024, 0] S512x512
  transposes_S512x512_S512x512_1_0 : S512x512.Transposes [1, 0] S512x512
  slices_S1536_S512_1024 : S1536.Slices ![1024] S512
  reducesTo_S128x512_S128_d1 : S128x512.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x512_0_1 : S128x1.BroadcastsInDim S128x512 (![0, 1] : Fin 2 → Fin S128x512.rank)
  transposes_S128x512_S512x128_1_0 : S128x512.Transposes [1, 0] S512x128
  concatenates_S32768x512_S32768x256_S32768x64_S32768x64_S32768x64_S32768x128_S32768x1088_d1 : Shape.Concatenates [S32768x512, S32768x256, S32768x64, S32768x64, S32768x64, S32768x128] S32768x1088 1
  dot_S32768x384_S384x768_S32768x768_1_0_0_1_n_n_wf : DotDims.WF S32768x384 S384x768 S32768x768 [1] [0] [0] [1] [] []
  dot_S32768x256_S256x512_S32768x512_1_0_0_1_n_n_wf : DotDims.WF S32768x256 S256x512 S32768x512 [1] [0] [0] [1] [] []
  dot_S32768x256_S256x256_S32768x256_1_0_0_1_n_n_wf : DotDims.WF S32768x256 S256x256 S32768x256 [1] [0] [0] [1] [] []
  dot_S32768x256_S256x128_S32768x128_1_0_0_1_n_n_wf : DotDims.WF S32768x256 S256x128 S32768x128 [1] [0] [0] [1] [] []
  dot_S32768x64_S64x1536_S32768x1536_1_0_0_1_n_n_wf : DotDims.WF S32768x64 S64x1536 S32768x1536 [1] [0] [0] [1] [] []
  dot_S32768x512_S512x1024_S32768x1024_1_0_0_1_n_n_wf : DotDims.WF S32768x512 S512x1024 S32768x1024 [1] [0] [0] [1] [] []
  dot_S32768x512_S512x512_S32768x512_1_0_0_1_n_n_wf : DotDims.WF S32768x512 S512x512 S32768x512 [1] [0] [0] [1] [] []
  dot_S32768x512_S512x128_S32768x128_1_0_0_1_n_n_wf : DotDims.WF S32768x512 S512x128 S32768x128 [1] [0] [0] [1] [] []

variable [Facts₀]

def dot_S32768x384_S384x768_S32768x768_1_0_0_1_n_n : DotDims S32768x384 S384x768 S32768x768 where
  lhsContracting := [1]
  rhsContracting := [0]
  lhsNonContracting := [0]
  rhsNonContracting := [1]
  lhsBatch := []
  rhsBatch := []
  wf := dot_S32768x384_S384x768_S32768x768_1_0_0_1_n_n_wf
def dot_S32768x256_S256x512_S32768x512_1_0_0_1_n_n : DotDims S32768x256 S256x512 S32768x512 where
  lhsContracting := [1]
  rhsContracting := [0]
  lhsNonContracting := [0]
  rhsNonContracting := [1]
  lhsBatch := []
  rhsBatch := []
  wf := dot_S32768x256_S256x512_S32768x512_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S32768x256_S256x128_S32768x128_1_0_0_1_n_n : DotDims S32768x256 S256x128 S32768x128 where
  lhsContracting := [1]
  rhsContracting := [0]
  lhsNonContracting := [0]
  rhsNonContracting := [1]
  lhsBatch := []
  rhsBatch := []
  wf := dot_S32768x256_S256x128_S32768x128_1_0_0_1_n_n_wf
def dot_S32768x64_S64x1536_S32768x1536_1_0_0_1_n_n : DotDims S32768x64 S64x1536 S32768x1536 where
  lhsContracting := [1]
  rhsContracting := [0]
  lhsNonContracting := [0]
  rhsNonContracting := [1]
  lhsBatch := []
  rhsBatch := []
  wf := dot_S32768x64_S64x1536_S32768x1536_1_0_0_1_n_n_wf
def dot_S32768x512_S512x1024_S32768x1024_1_0_0_1_n_n : DotDims S32768x512 S512x1024 S32768x1024 where
  lhsContracting := [1]
  rhsContracting := [0]
  lhsNonContracting := [0]
  rhsNonContracting := [1]
  lhsBatch := []
  rhsBatch := []
  wf := dot_S32768x512_S512x1024_S32768x1024_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x128_S32768x128_1_0_0_1_n_n : DotDims S32768x512 S512x128 S32768x128 where
  lhsContracting := [1]
  rhsContracting := [0]
  lhsNonContracting := [0]
  rhsNonContracting := [1]
  lhsBatch := []
  rhsBatch := []
  wf := dot_S32768x512_S512x128_S32768x128_1_0_0_1_n_n_wf

class Facts : Prop extends Facts₀ where

variable [Facts]
-- ==== Proof.RowSpec.lean ====
/-
  One decoder step on a single batch row, over the extended reals.

  The step is row-wise: row `b` of the result depends on row `b` of the three batch inputs (the observation `x`,
  the carried state `h`, the noise `e`) and on the weights, and on nothing else. The state row is six bands,
  [generator state (512) | controller state (256) | mean (64) | deviation (64) | sample (64) | factors (128)],
  and the result row has the same six bands.

  controller : a GRU step on the controller band, its input the observation joined with the factor band;
  posterior  : a linear layer on the new controller state gives a mean and a log-variance; the deviation is
               `exp (logvar / 2)` and the sample is `mean + deviation * e`;
  generator  : a GRU step on the generator band, its input the sample;
  factors    : the new generator state times the factor matrix with every row scaled to unit length (the
               length floored at a small constant).

  A GRU step with stacked weights `[z | r | n]`:
      z = σ (x·Wiᶻ + bᶻ + h·Whᶻ + cᶻ),   r = σ (x·Wiʳ + bʳ + h·Whʳ + cʳ),
      n = tanh (x·Wiⁿ + bⁿ + (r ⊙ h)·Whⁿ + cⁿ),   h' = clip (z ⊙ h + (1 − z) ⊙ n) to [−5, 5].
  Every product `v·W` is `∑ k, v k * W j k`: the weights are stored output-major, so the transposed matrix is
  what multiplies the row.
-/
import Idealize.ShloMosaic.PureOps.Ideal
import Idealize.ShloMosaic.Lib.ValueIdx

noncomputable section

namespace Cert.Decoder

open Idealize.ShloMosaic

/-- The clip bounds −5 and 5, the constants 1 and 1/2 and the floor of a factor row's length: each the value
    of its single-precision word. The same words appear on both sides, so they are never evaluated. -/
abbrev cLo : EReal := Ideal.ofBits .f32 0xC0A00000#32
abbrev cHi : EReal := Ideal.ofBits .f32 0x40A00000#32
abbrev cOne : EReal := Ideal.ofBits .f32 0x3F800000#32
abbrev cHalf : EReal := Ideal.ofBits .f32 0x3F000000#32
abbrev cFloor : EReal := Ideal.ofBits .f32 0x2B8CBCCC#32

/-- The weights, each as a function of its row (output) and column (input) number. -/
structure Weights where
  conWih : Fin 768 → Fin 384 → EReal
  conbih : Fin 768 → EReal
  conWhh : Fin 768 → Fin 256 → EReal
  conbhh : Fin 768 → EReal
  coW : Fin 128 → Fin 256 → EReal
  cob : Fin 128 → EReal
  genWih : Fin 1536 → Fin 64 → EReal
  genbih : Fin 1536 → EReal
  genWhh : Fin 1536 → Fin 512 → EReal
  genbhh : Fin 1536 → EReal
  facW : Fin 128 → Fin 512 → EReal

variable (w : Weights) (x : Fin 256 → EReal) (h : Fin 1088 → EReal) (e : Fin 64 → EReal)

/-! ## The bands of the state row that the step reads -/

/-- The generator band: columns 0 … 511. -/
def hGen (k : Fin 512) : EReal := h ⟨k.val, by omega⟩
/-- The controller band: columns 512 … 767. -/
def hCon (k : Fin 256) : EReal := h ⟨512 + k.val, by omega⟩
/-- The factor band: columns 960 … 1087. -/
def hFac (k : Fin 128) : EReal := h ⟨960 + k.val, by omega⟩

/-- The controller's input: the observation, then the factor band. -/
def conIn (k : Fin 384) : EReal :=
  if hk : k.val < 256 then x ⟨k.val, hk⟩ else hFac h ⟨k.val - 256, by omega⟩

/-! ## The controller's GRU step -/

/-- `conIn · conWihᵀ + conbih`: the input's part of the three gates, stacked. -/
def xaC (j : Fin 768) : EReal := (∑ k : Fin 384, conIn x h k * w.conWih j k) + w.conbih j
/-- `hCon · conWhh[0:512]ᵀ + conbhh[0:512]`: the state's part of the update and reset gates. -/
def haC (j : Fin 512) : EReal :=
  (∑ k : Fin 256, hCon h k * w.conWhh ⟨j.val, by omega⟩ k) + w.conbhh ⟨j.val, by omega⟩
/-- The update gate. -/
def zC (j : Fin 256) : EReal := Ideal.logistic (xaC w x h ⟨j.val, by omega⟩ + haC w h ⟨j.val, by omega⟩)
/-- The reset gate. -/
def rC (j : Fin 256) : EReal := Ideal.logistic (xaC w x h ⟨256 + j.val, by omega⟩ + haC w h ⟨256 + j.val, by omega⟩)
/-- `(r ⊙ hCon) · conWhh[512:768]ᵀ + conbhh[512:768]`: the state's part of the candidate. -/
def hnC (j : Fin 256) : EReal :=
  (∑ k : Fin 256, (rC w x h k * hCon h k) * w.conWhh ⟨512 + j.val, by omega⟩ k) + w.conbhh ⟨512 + j.val, by omega⟩
/-- The candidate. -/
def nC (j : Fin 256) : EReal := Ideal.tanh (xaC w x h ⟨512 + j.val, by omega⟩ + hnC w x h j)
/-- The new controller state, clipped. -/
def conNew (j : Fin 256) : EReal :=
  min cHi (max cLo (zC w x h j * hCon h j + (cOne - zC w x h j) * nC w x h j))

/-! ## The posterior's parameters and the sample -/

/-- `conNew · coWᵀ + cob`: the mean (columns 0 … 63) and the log-variance (columns 64 … 127). -/
def coP (j : Fin 128) : EReal := (∑ k : Fin 256, conNew w x h k * w.coW j k) + w.cob j
def coMean (j : Fin 64) : EReal := coP w x h ⟨j.val, by omega⟩
/-- The deviation `exp (logvar / 2)`. -/
def coStd (j : Fin 64) : EReal := Ideal.exp (cHalf * coP w x h ⟨64 + j.val, by omega⟩)
/-- The sample `mean + deviation * e`. -/
def genIn (j : Fin 64) : EReal := coMean w x h j + coStd w x h j * e j

/-! ## The generator's GRU step -/

def xaG (j : Fin 1536) : EReal := (∑ k : Fin 64, genIn w x h e k * w.genWih j k) + w.genbih j
def haG (j : Fin 1024) : EReal :=
  (∑ k : Fin 512, hGen h k * w.genWhh ⟨j.val, by omega⟩ k) + w.genbhh ⟨j.val, by omega⟩
def zG (j : Fin 512) : EReal := Ideal.logistic (xaG w x h e ⟨j.val, by omega⟩ + haG w h ⟨j.val, by omega⟩)
def rG (j : Fin 512) : EReal := Ideal.logistic (xaG w x h e ⟨512 + j.val, by omega⟩ + haG w h ⟨512 + j.val, by omega⟩)
def hnG (j : Fin 512) : EReal :=
  (∑ k : Fin 512, (rG w x h e k * hGen h k) * w.genWhh ⟨1024 + j.val, by omega⟩ k) + w.genbhh ⟨1024 + j.val, by omega⟩
def nG (j : Fin 512) : EReal := Ideal.tanh (xaG w x h e ⟨1024 + j.val, by omega⟩ + hnG w x h e j)
/-- The new generator state, clipped. -/
def genNew (j : Fin 512) : EReal :=
  min cHi (max cLo (zG w x h e j * hGen h j + (cOne - zG w x h e j) * nG w x h e j))

/-! ## The factors -/

/-- The length of row `j` of the factor matrix, floored. (It depends on the weights alone.) -/
def facLen (j : Fin 128) : EReal := max (Ideal.sqrt (∑ k : Fin 512, w.facW j k * w.facW j k)) cFloor
/-- Row `j` of the factor matrix scaled to unit length. -/
def facUnit (j : Fin 128) (k : Fin 512) : EReal := Ideal.div (w.facW j k) (facLen w j)
def facNew (j : Fin 128) : EReal := ∑ k : Fin 512, genNew w x h e k * facUnit w j k

/-! ## The result row -/

/-- The six bands of the result row, in the state row's order. -/
def rowOut (c : Fin 1088) : EReal :=
  if h0 : c.val < 512 then genNew w x h e ⟨c.val, h0⟩
  else if h1 : c.val < 768 then conNew w x h ⟨c.val - 512, by omega⟩
  else if h2 : c.val < 832 then coMean w x h ⟨c.val - 768, by omega⟩
  else if h3 : c.val < 896 then coStd w x h ⟨c.val - 832, by omega⟩
  else if h4 : c.val < 960 then genIn w x h e ⟨c.val - 896, by omega⟩
  else facNew w x h e ⟨c.val - 960, by omega⟩

end Cert.Decoder

end
-- ==== Proof.ArraySpec.lean ====
/-
  The decoder step on whole arrays: row `b` of the result array is `Decoder.rowOut` of row `b` of the three
  batch arrays and of the weights (Proof/RowSpec.lean). The weights reach the two programs in two layouts: the
  biases as vectors `[n]` (the reference) or as one-row matrices `[1, n]` (the kernel, which is handed their
  reshapes); both give the same `Weights`.
-/
import proofs.«136152_j3272765080211_1_alg».proof.Proof.RowSpec

noncomputable section

namespace Cert.Decoder

open Idealize.ShloMosaic Idealize.ShloMosaic.ValueIdx

/-- Row `b` of a matrix. -/
def row {R C : ℕ} (a : (⟨2, ![R, C]⟩ : Shape).Idx → EReal) (b : Fin R) : Fin C → EReal := fun k => a (ix2 b k)
/-- A matrix by row and column. -/
def mat {R C : ℕ} (a : (⟨2, ![R, C]⟩ : Shape).Idx → EReal) : Fin R → Fin C → EReal := fun j k => a (ix2 j k)
/-- A vector by position. -/
def vec {C : ℕ} (a : (⟨1, ![C]⟩ : Shape).Idx → EReal) : Fin C → EReal := fun k => a (ix1 k)

@[simp] theorem row_apply {R C : ℕ} (a : (⟨2, ![R, C]⟩ : Shape).Idx → EReal) (b : Fin R) (k : Fin C) : row a b k = a (ix2 b k) := rfl
@[simp] theorem mat_apply {R C : ℕ} (a : (⟨2, ![R, C]⟩ : Shape).Idx → EReal) (j : Fin R) (k : Fin C) : mat a j k = a (ix2 j k) := rfl
@[simp] theorem vec_apply {C : ℕ} (a : (⟨1, ![C]⟩ : Shape).Idx → EReal) (k : Fin C) : vec a k = a (ix1 k) := rfl

/-- The weights from the eleven weight arrays as the reference receives them (argument numbers 3 … 13). -/
def wOfArrays
    (a3 : (⟨2, ![1536, 64]⟩ : Shape).Idx → EReal) (a4 : (⟨1, ![1536]⟩ : Shape).Idx → EReal)
    (a5 : (⟨2, ![1536, 512]⟩ : Shape).Idx → EReal) (a6 : (⟨1, ![1536]⟩ : Shape).Idx → EReal)
    (a7 : (⟨2, ![768, 384]⟩ : Shape).Idx → EReal) (a8 : (⟨1, ![768]⟩ : Shape).Idx → EReal)
    (a9 : (⟨2, ![768, 256]⟩ : Shape).Idx → EReal) (a10 : (⟨1, ![768]⟩ : Shape).Idx → EReal)
    (a11 : (⟨2, ![128, 512]⟩ : Shape).Idx → EReal) (a12 : (⟨2, ![128, 256]⟩ : Shape).Idx → EReal)
    (a13 : (⟨1, ![128]⟩ : Shape).Idx → EReal) : Weights where
  conWih := mat a7
  conbih := vec a8
  conWhh := mat a9
  conbhh := vec a10
  coW := mat a12
  cob := vec a13
  genWih := mat a3
  genbih := vec a4
  genWhh := mat a5
  genbhh := vec a6
  facW := mat a11

/-- The weights from the eleven blocks the kernel's body loads (windows 3 … 13): each bias is a one-row matrix. -/
def wOfBlocks
    (x3 : (⟨2, ![1536, 64]⟩ : Shape).Idx → EReal) (x4 : (⟨2, ![1, 1536]⟩ : Shape).Idx → EReal)
    (x5 : (⟨2, ![1536, 512]⟩ : Shape).Idx → EReal) (x6 : (⟨2, ![1, 1536]⟩ : Shape).Idx → EReal)
    (x7 : (⟨2, ![768, 384]⟩ : Shape).Idx → EReal) (x8 : (⟨2, ![1, 768]⟩ : Shape).Idx → EReal)
    (x9 : (⟨2, ![768, 256]⟩ : Shape).Idx → EReal) (x10 : (⟨2, ![1, 768]⟩ : Shape).Idx → EReal)
    (x11 : (⟨2, ![128, 512]⟩ : Shape).Idx → EReal) (x12 : (⟨2, ![128, 256]⟩ : Shape).Idx → EReal)
    (x13 : (⟨2, ![1, 128]⟩ : Shape).Idx → EReal) : Weights where
  conWih := mat x7
  conbih := row x8 0
  conWhh := mat x9
  conbhh := row x10 0
  coW := mat x12
  cob := row x13 0
  genWih := mat x3
  genbih := row x4 0
  genWhh := mat x5
  genbhh := row x6 0
  facW := mat x11

/-- The whole result array: row `b`, column `c` is `rowOut` of row `b` of the batch arrays at column `c`. -/
def outArr
    (a0 : (⟨2, ![32768, 256]⟩ : Shape).Idx → EReal) (a1 : (⟨2, ![32768, 1088]⟩ : Shape).Idx → EReal)
    (a2 : (⟨2, ![32768, 64]⟩ : Shape).Idx → EReal)
    (a3 : (⟨2, ![1536, 64]⟩ : Shape).Idx → EReal) (a4 : (⟨1, ![1536]⟩ : Shape).Idx → EReal)
    (a5 : (⟨2, ![1536, 512]⟩ : Shape).Idx → EReal) (a6 : (⟨1, ![1536]⟩ : Shape).Idx → EReal)
    (a7 : (⟨2, ![768, 384]⟩ : Shape).Idx → EReal) (a8 : (⟨1, ![768]⟩ : Shape).Idx → EReal)
    (a9 : (⟨2, ![768, 256]⟩ : Shape).Idx → EReal) (a10 : (⟨1, ![768]⟩ : Shape).Idx → EReal)
    (a11 : (⟨2, ![128, 512]⟩ : Shape).Idx → EReal) (a12 : (⟨2, ![128, 256]⟩ : Shape).Idx → EReal)
    (a13 : (⟨1, ![128]⟩ : Shape).Idx → EReal) : (⟨2, ![32768, 1088]⟩ : Shape).Idx → EReal :=
  fun i => rowOut (wOfArrays a3 a4 a5 a6 a7 a8 a9 a10 a11 a12 a13)
    (row a0 ⟨(i 0).val, (i 0).isLt⟩) (row a1 ⟨(i 0).val, (i 0).isLt⟩) (row a2 ⟨(i 0).val, (i 0).isLt⟩) ⟨(i 1).val, (i 1).isLt⟩

theorem outArr_apply
    (a0 : (⟨2, ![32768, 256]⟩ : Shape).Idx → EReal) (a1 : (⟨2, ![32768, 1088]⟩ : Shape).Idx → EReal)
    (a2 : (⟨2, ![32768, 64]⟩ : Shape).Idx → EReal)
    (a3 : (⟨2, ![1536, 64]⟩ : Shape).Idx → EReal) (a4 : (⟨1, ![1536]⟩ : Shape).Idx → EReal)
    (a5 : (⟨2, ![1536, 512]⟩ : Shape).Idx → EReal) (a6 : (⟨1, ![1536]⟩ : Shape).Idx → EReal)
    (a7 : (⟨2, ![768, 384]⟩ : Shape).Idx → EReal) (a8 : (⟨1, ![768]⟩ : Shape).Idx → EReal)
    (a9 : (⟨2, ![768, 256]⟩ : Shape).Idx → EReal) (a10 : (⟨1, ![768]⟩ : Shape).Idx → EReal)
    (a11 : (⟨2, ![128, 512]⟩ : Shape).Idx → EReal) (a12 : (⟨2, ![128, 256]⟩ : Shape).Idx → EReal)
    (a13 : (⟨1, ![128]⟩ : Shape).Idx → EReal) (b : Fin 32768) (c : Fin 1088) :
    outArr a0 a1 a2 a3 a4 a5 a6 a7 a8 a9 a10 a11 a12 a13 (ix2 b c)
      = rowOut (wOfArrays a3 a4 a5 a6 a7 a8 a9 a10 a11 a12 a13) (row a0 b) (row a1 b) (row a2 b) c := rfl

end Cert.Decoder

end
-- ==== Proof.KDefs.lean ====
/-
  The kernel body's named values as functions of the fourteen blocks it loads (block `w` is window `w`'s:
  0 the observations, 1 the state, 2 the noise, 3 … 13 the weights in the program's argument order), each one
  the body's own pure term: the gates of the two GRU steps, the clipped states, the posterior's mean, deviation
  and sample, and the factors.
-/
import proofs.«136152_j3272765080211_1_alg».proof.Proof.Gen.KernelIdeal.Skeleton
import proofs.«136152_j3272765080211_1_alg».proof.Proof.ArraySpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KValue

open Cert.KernelIdeal Cert.KernelIdeal.Gen Idealize.ShloMosaic Idealize.ShloMosaic.ValueIdx Cert.Decoder

variable (x0 : FVec Ideal S1024x256 .f32) (x1 : FVec Ideal S1024x1088 .f32) (x2 : FVec Ideal S1024x64 .f32)
  (x3 : FVec Ideal S1536x64 .f32) (x4 : FVec Ideal S1x1536 .f32) (x5 : FVec Ideal S1536x512 .f32) (x6 : FVec Ideal S1x1536 .f32)
  (x7 : FVec Ideal S768x384 .f32) (x8 : FVec Ideal S1x768 .f32) (x9 : FVec Ideal S768x256 .f32) (x10 : FVec Ideal S1x768 .f32)
  (x11 : FVec Ideal S128x512 .f32) (x12 : FVec Ideal S128x256 .f32) (x13 : FVec Ideal S1x128 .f32)

/-- The controller's update gate `z`, its candidate `n` and the product `z ⊙ h`. -/
abbrev kZ : FVec Ideal S1024x256 .f32 := k0_pay6 (F := Ideal) x0 x1 x7 x8 x9 x10
abbrev kN : FVec Ideal S1024x256 .f32 := k0_pay7 (F := Ideal) x0 x1 x7 x8 x9 x10
abbrev kZH : FVec Ideal S1024x256 .f32 := k0_pay8 (F := Ideal) x0 x1 x7 x8 x9 x10
/-- The new controller state. -/
abbrev kCon : FVec Ideal S1024x256 .f32 := k0_pay9 (F := Ideal) (kZ x0 x1 x7 x8 x9 x10) (kN x0 x1 x7 x8 x9 x10) (kZH x0 x1 x7 x8 x9 x10)
/-- The posterior's mean, deviation and sample. -/
abbrev kMean : FVec Ideal S1024x64 .f32 := k0_pay11 (F := Ideal) (kZ x0 x1 x7 x8 x9 x10) (kN x0 x1 x7 x8 x9 x10) (kZH x0 x1 x7 x8 x9 x10) x12 x13
abbrev kStd : FVec Ideal S1024x64 .f32 := k0_pay12 (F := Ideal) (kZ x0 x1 x7 x8 x9 x10) (kN x0 x1 x7 x8 x9 x10) (kZH x0 x1 x7 x8 x9 x10) x12 x13
abbrev kIn : FVec Ideal S1024x64 .f32 := k0_pay13 (F := Ideal) x2 (kZ x0 x1 x7 x8 x9 x10) (kN x0 x1 x7 x8 x9 x10) (kZH x0 x1 x7 x8 x9 x10) x12 x13
/-- The generator band of the state block, and the generator's state-side bias row. -/
abbrev kHg : FVec Ideal S1024x512 .f32 := k0_pay1 (F := Ideal) x1
abbrev kBh : FVec Ideal S1x1536 .f32 := k0_pay14 (F := Ideal) x6
/-- The input's part of the generator's three gates, and the state's part of its update and reset gates. -/
abbrev kXz : FVec Ideal S1024x512 .f32 := k0_pay16 (F := Ideal) x2 (kZ x0 x1 x7 x8 x9 x10) (kN x0 x1 x7 x8 x9 x10) (kZH x0 x1 x7 x8 x9 x10) x12 x13 x3 x4
abbrev kXr : FVec Ideal S1024x512 .f32 := k0_pay17 (F := Ideal) x2 (kZ x0 x1 x7 x8 x9 x10) (kN x0 x1 x7 x8 x9 x10) (kZH x0 x1 x7 x8 x9 x10) x12 x13 x3 x4
abbrev kXn : FVec Ideal S1024x512 .f32 := k0_pay18 (F := Ideal) x2 (kZ x0 x1 x7 x8 x9 x10) (kN x0 x1 x7 x8 x9 x10) (kZH x0 x1 x7 x8 x9 x10) x12 x13 x3 x4
abbrev kHa : FVec Ideal S1024x1024 .f32 := k0_pay19 (F := Ideal) (kHg x1) x5 x6
/-- The new generator state and the factors. -/
abbrev kGen : FVec Ideal S1024x512 .f32 := k0_pay20 (F := Ideal) (kHg x1) x5 (kBh x6) (kXz x0 x1 x2 x3 x4 x7 x8 x9 x10 x12 x13) (kXr x0 x1 x2 x3 x4 x7 x8 x9 x10 x12 x13) (kXn x0 x1 x2 x3 x4 x7 x8 x9 x10 x12 x13) (kHa x1 x5 x6)
abbrev kFac : FVec Ideal S1024x128 .f32 := k0_pay21 (F := Ideal) (kHg x1) x5 (kBh x6) (kXz x0 x1 x2 x3 x4 x7 x8 x9 x10 x12 x13) (kXr x0 x1 x2 x3 x4 x7 x8 x9 x10 x12 x13) (kXn x0 x1 x2 x3 x4 x7 x8 x9 x10 x12 x13) (kHa x1 x5 x6) x11

end Cert.KernelIdeal.KValue

end
-- ==== Proof.KCon.lean ====
/-
  The kernel's controller step, read at a row: entry (p, j) of the body's new controller state is the row
  formula `Decoder.conNew` of row p of the observation block and of the state block.
-/
import proofs.«136152_j3272765080211_1_alg».proof.Proof.KDefs
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KValue

open Cert.KernelIdeal Cert.KernelIdeal.Gen Idealize.ShloMosaic Idealize.ShloMosaic.ValueIdx Cert.Decoder

variable (x0 : FVec Ideal S1024x256 .f32) (x1 : FVec Ideal S1024x1088 .f32) (x2 : FVec Ideal S1024x64 .f32)
  (x3 : FVec Ideal S1536x64 .f32) (x4 : FVec Ideal S1x1536 .f32) (x5 : FVec Ideal S1536x512 .f32) (x6 : FVec Ideal S1x1536 .f32)
  (x7 : FVec Ideal S768x384 .f32) (x8 : FVec Ideal S1x768 .f32) (x9 : FVec Ideal S768x256 .f32) (x10 : FVec Ideal S1x768 .f32)
  (x11 : FVec Ideal S128x512 .f32) (x12 : FVec Ideal S128x256 .f32) (x13 : FVec Ideal S1x128 .f32)

/-! # The controller step's lemmas: general facts first, then the step payload by payload -/
namespace Con

/-! ## General facts: a matrix product into the zero accumulator as a sum, and a two-piece join along the columns -/

/-- A product of an [M, K] matrix with a [K, N] matrix into the zero accumulator, read at (p, j), is the sum over
    k of the left factor at (p, k) times the right factor at (k, j): given that the dimension numbers contract one
    axis of extent K (hr, hs) and that the operand indices read the coordinates as a plain product does (l0 … r1). -/
theorem matmul_zero_ix2 {M K N : ℕ} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (prec : Option ContractPrecision) (lhs : FVec Ideal ⟨2, ![M, K]⟩ .f32) (rhs : FVec Ideal ⟨2, ![K, N]⟩ .f32)
    (p : Fin M) (j : Fin N) :
    FloatOps.matmul D prec lhs rhs (constant (F := Ideal) ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact l0 _ _
    | ⟨1, _⟩ => exact (l1 _ _).trans hk)
  have er : D.rhsIdx (ix2 p j) ((contrEquiv1 D K hr hs).symm k) = ix2 k j := funext fun a => Fin.ext (by
    match a with
    | ⟨0, _⟩ => exact (r0 _ _).trans hk
    | ⟨1, _⟩ => exact r1 _ _)
  rw [el, er]

/-- Two matrices joined along the columns, read at a column of the first. -/
theorem concat2_cols_left {α : Type} {R C₁ C₂ C : ℕ} (x₁ : (⟨2, ![R, C₁]⟩ : Shape).Idx → α) (x₂ : (⟨2, ![R, C₂]⟩ : Shape).Idx → α)
    (h : Shape.Concatenates [(⟨2, ![R, C₁]⟩ : Shape), ⟨2, ![R, C₂]⟩] ⟨2, ![R, C]⟩ 1) (p : Fin R) (k : Fin C) (k' : Fin C₁)
    (hk : k'.val = k.val) :
    concatenate ⟨2, ![R, C]⟩ 1 [⟨⟨2, ![R, C₁]⟩, x₁⟩, ⟨⟨2, ![R, C₂]⟩, x₂⟩] h (ix2 p k) = x₁ (ix2 p k') :=
  concatenate_pair_apply_left 1 x₁ x₂ h (ix2 p k) rfl (ix2 p k') (fun b => by
    match b with
    | ⟨0, _⟩ => rfl
    | ⟨1, _⟩ => exact hk)

/-- Two matrices joined along the columns, read at a column of the second. -/
theorem concat2_cols_right {α : Type} {R C₁ C₂ C : ℕ} (x₁ : (⟨2, ![R, C₁]⟩ : Shape).Idx → α) (x₂ : (⟨2, ![R, C₂]⟩ : Shape).Idx → α)
    (h : Shape.Concatenates [(⟨2, ![R, C₁]⟩ : Shape), ⟨2, ![R, C₂]⟩] ⟨2, ![R, C]⟩ 1) (p : Fin R) (k : Fin C) (k' : Fin C₂)
    (hk : k'.val + C₁ = k.val) :
    concatenate ⟨2, ![R, C]⟩ 1 [⟨⟨2, ![R, C₁]⟩, x₁⟩, ⟨⟨2, ![R, C₂]⟩, x₂⟩] h (ix2 p k) = x₂ (ix2 p k') :=
  concatenate_pair_apply_right 1 x₁ x₂ h (ix2 p k) rfl rfl (ix2 p k') (fun b hb => by
    match b with
    | ⟨0, _⟩ => rfl
    | ⟨1, _⟩ => exact absurd rfl hb) hk

/-! ## The three products of the controller step: which coordinate each operand index reads -/

theorem dotXa_l0 (i : S1024x768.Idx) (q : dot_S1024x384_S384x768_S1024x768_1_0_0_1_n_n.contr.Idx) :
    (dot_S1024x384_S384x768_S1024x768_1_0_0_1_n_n.lhsIdx i q 0).val = (i 0).val := by
  unfold DotDims.lhsIdx
  rw [dif_neg (show ¬(0 : Fin S1024x384.rank) ∈ dot_S1024x384_S384x768_S1024x768_1_0_0_1_n_n.lhsBatch by decide), dif_pos (show (0 : Fin S1024x384.rank) ∈ dot_S1024x384_S384x768_S1024x768_1_0_0_1_n_n.lhsNonContracting by decide)]
  rfl
theorem dotXa_l1 (i : S1024x768.Idx) (q : dot_S1024x384_S384x768_S1024x768_1_0_0_1_n_n.contr.Idx) :
    (dot_S1024x384_S384x768_S1024x768_1_0_0_1_n_n.lhsIdx i q 1).val = (q ⟨0, by decide⟩).val :=
  dot_S1024x384_S384x768_S1024x768_1_0_0_1_n_n.lhsIdx_val_of_single rfl i q
theorem dotXa_r0 (i : S1024x768.Idx) (q : dot_S1024x384_S384x768_S1024x768_1_0_0_1_n_n.contr.Idx) :
    (dot_S1024x384_S384x768_S1024x768_1_0_0_1_n_n.rhsIdx i q 0).val = (q ⟨0, by decide⟩).val :=
  dot_S1024x384_S384x768_S1024x768_1_0_0_1_n_n.rhsIdx_val_of_single rfl i q
theorem dotXa_r1 (i : S1024x768.Idx) (q : dot_S1024x384_S384x768_S1024x768_1_0_0_1_n_n.contr.Idx) :
    (dot_S1024x384_S384x768_S1024x768_1_0_0_1_n_n.rhsIdx i q 1).val = (i 1).val := by
  unfold DotDims.rhsIdx
  rw [dif_neg (show ¬(1 : Fin S384x768.rank) ∈ dot_S1024x384_S384x768_S1024x768_1_0_0_1_n_n.rhsBatch by decide), dif_pos (show (1 : Fin S384x768.rank) ∈ dot_S1024x384_S384x768_S1024x768_1_0_0_1_n_n.rhsNonContracting by decide)]
  rfl

theorem dotHa_l0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem dotHa_l1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem dotHa_r0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem dotHa_r1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

theorem dotHn_l0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem dotHn_l1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem dotHn_r0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem dotHn_r1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-! ## The controller step, payload by payload -/

/-- The controller band of the state block at (p, k) is column 512 + k of row p. -/
theorem pay2_apply (p : Fin 1024) (k : Fin 256) :
    k0_pay2 (F := Ideal) x1 (ix2 p k) = hCon (row x1 p) k := by
  unfold k0_pay2
  exact slice2_axis1_apply 512 x1 _ p k ⟨512 + k.val, by omega⟩ rfl

/-- The state-side bias row is the block itself. -/
theorem pay3_eq : k0_pay3 (F := Ideal) x10 = x10 := by
  unfold k0_pay3
  exact shapeCast_self x10 _

/-- The joined input at (p, k) is the controller's input at k. -/
theorem conIn_k (p : Fin 1024) (k : Fin 384) :
    concatenate S1024x384 1 [⟨S1024x256, x0⟩, ⟨S1024x128, extractStridedSlice S1024x128 ![0, 960] x1 slices_S1024x1088_o0_960_S1024x128⟩]
      concatenates_S1024x256_S1024x128_S1024x384_d1 (ix2 p k) = conIn (row x0 p) (row x1 p) k := by
  unfold conIn
  by_cases hk : k.val < 256
  · rw [dif_pos hk]
    exact concat2_cols_left x0 _ _ p k ⟨k.val, hk⟩ rfl
  · rw [dif_neg hk]
    refine (concat2_cols_right x0 _ _ p k ⟨k.val - 256, by omega⟩ (by show k.val - 256 + 256 = k.val; omega)).trans ?_
    exact slice2_axis1_apply 960 x1 _ p _ ⟨960 + (k.val - 256), by omega⟩ rfl

/-- The input's part of the three gates at (p, j). -/
theorem pay4_apply (p : Fin 1024) (j : Fin 768) :
    k0_pay4 (F := Ideal) x0 x1 x7 x8 (ix2 p j)
      = xaC (wOfBlocks x3 x4 x5 x6 x7 x8 x9 x10 x11 x12 x13) (row x0 p) (row x1 p) j := by
  unfold k0_pay4 xaC
  refine congrArg₂ (· + ·) ?_ ?_
  · refine (matmul_zero_ix2 dot_S1024x384_S384x768_S1024x768_1_0_0_1_n_n rfl rfl dotXa_l0 dotXa_l1 dotXa_r0 dotXa_r1
      none _ _ p j).trans ?_
    refine Finset.sum_congr rfl fun k _ => ?_
    refine congrArg₂ (· * ·) (conIn_k x0 x1 p k) ?_
    exact transpose_ix2_apply x7 _ k j
  · rw [shapeCast_self]
    exact broadcastTo_1b_ab_apply x8 _ p j

/-- The state's part of the update and reset gates at (p, j). -/
theorem pay5_apply (p : Fin 1024) (j : Fin 512) :
    k0_pay5 (F := Ideal) x1 x9 x10 (ix2 p j) = haC (wOfBlocks x3 x4 x5 x6 x7 x8 x9 x10 x11 x12 x13) (row x1 p) j := by
  unfold k0_pay5 haC
  refine congrArg₂ (· + ·) ?_ ?_
  · refine (matmul_zero_ix2 dot_S1024x256_S256x512_S1024x512_1_0_0_1_n_n rfl rfl dotHa_l0 dotHa_l1 dotHa_r0 dotHa_r1
      none _ _ p j).trans ?_
    refine Finset.sum_congr rfl fun k _ => ?_
    refine congrArg₂ (· * ·) (pay2_apply x1 p k) ?_
    refine (transpose_ix2_apply _ _ k j).trans ?_
    exact slice2_axis0_apply 0 x9 _ j k ⟨j.val, by omega⟩ (Nat.zero_add _).symm
  · refine (broadcastTo_1b_ab_apply _ _ p j).trans ?_
    rw [pay3_eq]
    exact slice2_axis1_apply 0 x10 _ 0 j ⟨j.val, by omega⟩ (Nat.zero_add _).symm

/-- The update gate at (p, j). -/
theorem pay6_apply (p : Fin 1024) (j : Fin 256) :
    k0_pay6 (F := Ideal) x0 x1 x7 x8 x9 x10 (ix2 p j) = zC (wOfBlocks x3 x4 x5 x6 x7 x8 x9 x10 x11 x12 x13) (row x0 p) (row x1 p) j := by
  unfold k0_pay6 zC
  refine congrArg Ideal.logistic (congrArg₂ (· + ·) ?_ ?_)
  · refine (slice2_axis1_apply 0 _ _ p j (⟨j.val, by omega⟩ : Fin 768) (Nat.zero_add _).symm).trans ?_
    exact pay4_apply x0 x1 x3 x4 x5 x6 x7 x8 x9 x10 x11 x12 x13 p _
  · refine (slice2_axis1_apply 0 _ _ p j (⟨j.val, by omega⟩ : Fin 512) (Nat.zero_add _).symm).trans ?_
    exact pay5_apply x1 x3 x4 x5 x6 x7 x8 x9 x10 x11 x12 x13 p _

/-- The candidate at (p, j): the reset gate sits inside the product's left factor. -/
theorem pay7_apply (p : Fin 1024) (j : Fin 256) :
    k0_pay7 (F := Ideal) x0 x1 x7 x8 x9 x10 (ix2 p j) = nC (wOfBlocks x3 x4 x5 x6 x7 x8 x9 x10 x11 x12 x13) (row x0 p) (row x1 p) j := by
  unfold k0_pay7 nC
  refine congrArg Ideal.tanh (congrArg₂ (· + ·) ?_ ?_)
  · refine (slice2_axis1_apply 512 _ _ p j ⟨512 + j.val, by omega⟩ rfl).trans ?_
    exact pay4_apply x0 x1 x3 x4 x5 x6 x7 x8 x9 x10 x11 x12 x13 p _
  · unfold hnC
    refine congrArg₂ (· + ·) ?_ ?_
    · refine (matmul_zero_ix2 dot_S1024x256_S256x256_S1024x256_1_0_0_1_n_n rfl rfl dotHn_l0 dotHn_l1 dotHn_r0 dotHn_r1
        none _ _ p j).trans ?_
      refine Finset.sum_congr rfl fun k _ => ?_
      refine congrArg₂ (· * ·) (congrArg₂ (· * ·) ?_ (pay2_apply x1 p k)) ?_
      · unfold rC
        refine congrArg Ideal.logistic (congrArg₂ (· + ·) ?_ ?_)
        · refine (slice2_axis1_apply 256 _ _ p k ⟨256 + k.val, by omega⟩ rfl).trans ?_
          exact pay4_apply x0 x1 x3 x4 x5 x6 x7 x8 x9 x10 x11 x12 x13 p _
        · refine (slice2_axis1_apply 256 _ _ p k ⟨256 + k.val, by omega⟩ rfl).trans ?_
          exact pay5_apply x1 x3 x4 x5 x6 x7 x8 x9 x10 x11 x12 x13 p _
      · refine (transpose_ix2_apply _ _ k j).trans ?_
        exact slice2_axis0_apply 512 x9 _ j k ⟨512 + j.val, by omega⟩ rfl
    · refine (broadcastTo_1b_ab_apply _ _ p j).trans ?_
      rw [pay3_eq]
      exact slice2_axis1_apply 512 x10 _ 0 j ⟨512 + j.val, by omega⟩ rfl

/-- The product of the update gate and the state at (p, j). -/
theorem pay8_apply (p : Fin 1024) (j : Fin 256) :
    k0_pay8 (F := Ideal) x0 x1 x7 x8 x9 x10 (ix2 p j)
      = zC (wOfBlocks x3 x4 x5 x6 x7 x8 x9 x10 x11 x12 x13) (row x0 p) (row x1 p) j * hCon (row x1 p) j := by
  unfold k0_pay8
  exact congrArg₂ (· * ·) (pay6_apply x0 x1 x3 x4 x5 x6 x7 x8 x9 x10 x11 x12 x13 p j) (pay2_apply x1 p j)

end Con

/-- Entry (p, j) of the body's new controller state. -/
theorem conNew_k (p : Fin 1024) (j : Fin 256) :
    kCon x0 x1 x7 x8 x9 x10 (ix2 p j) = conNew (wOfBlocks x3 x4 x5 x6 x7 x8 x9 x10 x11 x12 x13) (row x0 p) (row x1 p) j := by
  unfold conNew
  exact congrArg₂ min rfl (congrArg₂ max rfl (congrArg₂ (· + ·) (Con.pay8_apply x0 x1 x3 x4 x5 x6 x7 x8 x9 x10 x11 x12 x13 p j)
    (congrArg₂ (· * ·) (congrArg₂ (· - ·) rfl (Con.pay6_apply x0 x1 x3 x4 x5 x6 x7 x8 x9 x10 x11 x12 x13 p j)) (Con.pay7_apply x0 x1 x3 x4 x5 x6 x7 x8 x9 x10 x11 x12 x13 p j))))

end Cert.KernelIdeal.KValue

end
-- ==== Proof.KPost.lean ====
/-
  The kernel's posterior parameters and sample, read at a row.
-/
import proofs.«136152_j3272765080211_1_alg».proof.Proof.KCon
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KValue

open Cert.KernelIdeal Cert.KernelIdeal.Gen Idealize.ShloMosaic Idealize.ShloMosaic.ValueIdx Cert.Decoder

variable (x0 : FVec Ideal S1024x256 .f32) (x1 : FVec Ideal S1024x1088 .f32) (x2 : FVec Ideal S1024x64 .f32)
  (x3 : FVec Ideal S1536x64 .f32) (x4 : FVec Ideal S1x1536 .f32) (x5 : FVec Ideal S1536x512 .f32) (x6 : FVec Ideal S1x1536 .f32)
  (x7 : FVec Ideal S768x384 .f32) (x8 : FVec Ideal S1x768 .f32) (x9 : FVec Ideal S768x256 .f32) (x10 : FVec Ideal S1x768 .f32)
  (x11 : FVec Ideal S128x512 .f32) (x12 : FVec Ideal S128x256 .f32) (x13 : FVec Ideal S1x128 .f32)

/-! ## The product with the transposed posterior matrix, as a sum over the controller state's columns -/

namespace Post

/-- The left operand's row coordinate is the result's row coordinate. -/
theorem lhs_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
/-- The left operand's column coordinate is the contraction coordinate. -/
theorem lhs_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
/-- The right operand's row coordinate is the contraction coordinate. -/
theorem rhs_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
/-- The right operand's column coordinate is the result's column coordinate. -/
theorem rhs_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- A [1024, 256] × [256, 128] product into the zero block, at (p, j): the sum over k of a (p, k) * b (k, j). -/
theorem mm_apply (a : FVec Ideal S1024x256 .f32) (b : FVec Ideal S256x128 .f32) (p : Fin 1024) (j : Fin 128) :
    matmul dot_S1024x256_S256x128_S1024x128_1_0_0_1_n_n none a b (constant (F := Ideal) S1024x128 .f32 0x00000000#32) (ix2 p j)
      = ∑ k : Fin 256, a (ix2 p k) * b (ix2 k j) := by
  refine (Ideal.matmul_constant_zero_apply dot_S1024x256_S256x128_S1024x128_1_0_0_1_n_n none a b (ix2 p j)).trans ?_
  rw [← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx (ix2 p j) ((ValueIdx.contrEquiv1 dot_S1024x256_S256x128_S1024x128_1_0_0_1_n_n 256 rfl rfl).symm k) = ix2 p k := funext fun a => Fin.ext (by
    match a with
    | ⟨0, _⟩ => exact lhs_0 _ _
    | ⟨1, _⟩ => exact (lhs_1 _ _).trans hk)
  have er : dot_S1024x256_S256x128_S1024x128_1_0_0_1_n_n.rhsIdx (ix2 p j) ((ValueIdx.contrEquiv1 dot_S1024x256_S256x128_S1024x128_1_0_0_1_n_n 256 rfl rfl).symm k) = ix2 k j := funext fun a => Fin.ext (by
    match a with
    | ⟨0, _⟩ => exact (rhs_0 _ _).trans hk
    | ⟨1, _⟩ => exact rhs_1 _ _)
  rw [el, er]

/-- The bias row, cast to its own shape and repeated down the rows, at (p, j): the row's entry j. -/
theorem bias_apply (b : FVec Ideal S1x128 .f32) (p : Fin 1024) (j : Fin 128) :
    broadcastTo S1024x128 (shapeCast S1x128 b shapeCasts_S1x128_S1x128) broadcasts_S1x128_S1024x128 (ix2 p j) = b (ix2 (0 : Fin 1) j) := by
  refine (broadcastTo_1b_ab_apply _ broadcasts_S1x128_S1024x128 p j).trans ?_
  rw [shapeCast_self]

end Post

/-- Entry (p, j) of the body's posterior parameters: the new controller state's row p against row j of the
    posterior matrix, plus the bias. -/
theorem coP_k (p : Fin 1024) (j : Fin 128) :
    k0_pay10 (F := Ideal) (kZ x0 x1 x7 x8 x9 x10) (kN x0 x1 x7 x8 x9 x10) (kZH x0 x1 x7 x8 x9 x10) x12 x13 (ix2 p j)
      = coP (wOfBlocks x3 x4 x5 x6 x7 x8 x9 x10 x11 x12 x13) (row x0 p) (row x1 p) j := by
  unfold k0_pay10
  refine (congrArg₂ (· + ·) (Post.mm_apply _ _ p j) (Post.bias_apply x13 p j)).trans ?_
  unfold coP
  refine congrArg (· + x13 (ix2 (0 : Fin 1) j)) (Finset.sum_congr rfl fun k _ => ?_)
  refine congrArg₂ (· * ·) (conNew_k x0 x1 x3 x4 x5 x6 x7 x8 x9 x10 x11 x12 x13 p k) ?_
  exact transpose_ix2_apply x12 transposes_S128x256_p1_0_S256x128 k j

/-- Entry (p, j) of the body's posterior mean. -/
theorem coMean_k (p : Fin 1024) (j : Fin 64) :
    kMean x0 x1 x7 x8 x9 x10 x12 x13 (ix2 p j) = coMean (wOfBlocks x3 x4 x5 x6 x7 x8 x9 x10 x11 x12 x13) (row x0 p) (row x1 p) j := by
  unfold kMean k0_pay11
  refine (slice2_axis1_apply 0 _ slices_S1024x128_o0_0_S1024x64 p j ⟨j.val, by omega⟩ (Nat.zero_add _).symm).trans ?_
  exact coP_k x0 x1 x3 x4 x5 x6 x7 x8 x9 x10 x11 x12 x13 p ⟨j.val, by omega⟩

/-- Entry (p, j) of the body's posterior deviation. -/
theorem coStd_k (p : Fin 1024) (j : Fin 64) :
    kStd x0 x1 x7 x8 x9 x10 x12 x13 (ix2 p j) = coStd (wOfBlocks x3 x4 x5 x6 x7 x8 x9 x10 x11 x12 x13) (row x0 p) (row x1 p) j := by
  unfold kStd k0_pay12
  refine congrArg (fun t => Ideal.exp (cHalf * t)) ?_
  refine (slice2_axis1_apply 64 _ slices_S1024x128_o0_64_S1024x64 p j ⟨64 + j.val, by omega⟩ rfl).trans ?_
  exact coP_k x0 x1 x3 x4 x5 x6 x7 x8 x9 x10 x11 x12 x13 p ⟨64 + j.val, by omega⟩

/-- Entry (p, j) of the body's sample. -/
theorem genIn_k (p : Fin 1024) (j : Fin 64) :
    kIn x0 x1 x2 x7 x8 x9 x10 x12 x13 (ix2 p j) = genIn (wOfBlocks x3 x4 x5 x6 x7 x8 x9 x10 x11 x12 x13) (row x0 p) (row x1 p) (row x2 p) j := by
  unfold kIn k0_pay13
  refine congrArg₂ (· + ·) (coMean_k x0 x1 x3 x4 x5 x6 x7 x8 x9 x10 x11 x12 x13 p j) ?_
  exact congrArg (· * x2 (ix2 p j)) (coStd_k x0 x1 x3 x4 x5 x6 x7 x8 x9 x10 x11 x12 x13 p j)

end Cert.KernelIdeal.KValue

end
-- ==== Proof.KGen.lean ====
/-
  The kernel's generator step, read at a row.

  Entry (p, j) of each value of the body's generator step is the row formula of Proof/RowSpec.lean at row p of the
  three batch blocks. The input's part is the sample row times the transposed input weights plus the input bias,
  cut into three column bands; the state's part of the update and reset gates is the generator band of the state
  row times the transposed first 1024 rows of the state weights plus the first 1024 bias columns; the candidate's
  state part is the reset state times the transposed last 512 rows plus the last 512 bias columns. Each product is
  read at an entry as the sum over its contracted axis, each slice, transpose and broadcast at the source index
  it reads, and the gates, the candidate and the clip are pointwise.
-/
import proofs.«136152_j3272765080211_1_alg».proof.Proof.KPost
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KValue

open Cert.KernelIdeal Cert.KernelIdeal.Gen Idealize.ShloMosaic Idealize.ShloMosaic.ValueIdx Cert.Decoder

variable (x0 : FVec Ideal S1024x256 .f32) (x1 : FVec Ideal S1024x1088 .f32) (x2 : FVec Ideal S1024x64 .f32)
  (x3 : FVec Ideal S1536x64 .f32) (x4 : FVec Ideal S1x1536 .f32) (x5 : FVec Ideal S1536x512 .f32) (x6 : FVec Ideal S1x1536 .f32)
  (x7 : FVec Ideal S768x384 .f32) (x8 : FVec Ideal S1x768 .f32) (x9 : FVec Ideal S768x256 .f32) (x10 : FVec Ideal S1x768 .f32)
  (x11 : FVec Ideal S128x512 .f32) (x12 : FVec Ideal S128x256 .f32) (x13 : FVec Ideal S1x128 .f32)

/-! The step's lemmas live in a namespace of their own; the entry theorem at the end is stated outside it. -/
namespace GenStep

/-- The generator band of the state block at (p, k) is column k of row p. -/
theorem hg_k (p : Fin 1024) (k : Fin 512) : kHg x1 (ix2 p k) = hGen (row x1 p) k := by
  show k0_pay1 (F := Ideal) x1 (ix2 p k) = _
  unfold k0_pay1
  refine (extractStridedSlice_apply ![0, 0] x1 slices_S1024x1088_o0_0_S1024x512 (ix2 p k) (ix2 p ⟨k.val, by omega⟩) (fun a => match a with
    | ⟨0, _⟩ => by show p.val = 0 + p.val; omega
    | ⟨1, _⟩ => by show k.val = 0 + k.val; omega)).trans ?_
  rfl

/-- The state-side bias row is the loaded block itself (a cast of a shape to itself). -/
theorem bh_k : kBh x6 = x6 := by
  show k0_pay14 (F := Ideal) x6 = _
  unfold k0_pay14
  exact shapeCast_self x6 shapeCasts_S1x1536_S1x1536

/-! ## The three products of the generator's step, each read at an entry as a sum over the contracted axis -/

theorem lhs_mmX_0 (i : S1024x1536.Idx) (q : dot_S1024x64_S64x1536_S1024x1536_1_0_0_1_n_n.contr.Idx) :
    (dot_S1024x64_S64x1536_S1024x1536_1_0_0_1_n_n.lhsIdx i q 0).val = (i 0).val := by
  unfold DotDims.lhsIdx
  rw [dif_neg (show ¬(0 : Fin S1024x64.rank) ∈ dot_S1024x64_S64x1536_S1024x1536_1_0_0_1_n_n.lhsBatch by decide), dif_pos (show (0 : Fin S1024x64.rank) ∈ dot_S1024x64_S64x1536_S1024x1536_1_0_0_1_n_n.lhsNonContracting by decide)]
  rfl
theorem lhs_mmX_1 (i : S1024x1536.Idx) (q : dot_S1024x64_S64x1536_S1024x1536_1_0_0_1_n_n.contr.Idx) :
    (dot_S1024x64_S64x1536_S1024x1536_1_0_0_1_n_n.lhsIdx i q 1).val = (q ⟨0, by decide⟩).val :=
  dot_S1024x64_S64x1536_S1024x1536_1_0_0_1_n_n.lhsIdx_val_of_single rfl i q
theorem rhs_mmX_0 (i : S1024x1536.Idx) (q : dot_S1024x64_S64x1536_S1024x1536_1_0_0_1_n_n.contr.Idx) :
    (dot_S1024x64_S64x1536_S1024x1536_1_0_0_1_n_n.rhsIdx i q 0).val = (q ⟨0, by decide⟩).val :=
  dot_S1024x64_S64x1536_S1024x1536_1_0_0_1_n_n.rhsIdx_val_of_single rfl i q
theorem rhs_mmX_1 (i : S1024x1536.Idx) (q : dot_S1024x64_S64x1536_S1024x1536_1_0_0_1_n_n.contr.Idx) :
    (dot_S1024x64_S64x1536_S1024x1536_1_0_0_1_n_n.rhsIdx i q 1).val = (i 1).val := by
  unfold DotDims.rhsIdx
  rw [dif_neg (show ¬(1 : Fin S64x1536.rank) ∈ dot_S1024x64_S64x1536_S1024x1536_1_0_0_1_n_n.rhsBatch by decide), dif_pos (show (1 : Fin S64x1536.rank) ∈ dot_S1024x64_S64x1536_S1024x1536_1_0_0_1_n_n.rhsNonContracting by decide)]
  rfl

/-- The input-side product: entry (p, c) is the sum over the 64 sample columns. -/
theorem mmX_apply (a : FVec Ideal S1024x64 .f32) (b : FVec Ideal S64x1536 .f32) (p : Fin 1024) (c : Fin 1536) :
    matmul dot_S1024x64_S64x1536_S1024x1536_1_0_0_1_n_n none a b (constant (F := Ideal) S1024x1536 .f32 0x00000000#32) (ix2 p c)
      = ∑ k : Fin 64, a (ix2 p k) * b (ix2 k c) := by
  refine (Ideal.matmul_constant_zero_apply dot_S1024x64_S64x1536_S1024x1536_1_0_0_1_n_n none a b (ix2 p c)).trans ?_
  rw [← Equiv.sum_comp (ValueIdx.contrEquiv1 dot_S1024x64_S64x1536_S1024x1536_1_0_0_1_n_n 64 rfl rfl).symm]
  refine Finset.sum_congr rfl fun k _ => ?_
  have hk := ValueIdx.contrEquiv1_symm_val dot_S1024x64_S64x1536_S1024x1536_1_0_0_1_n_n 64 rfl rfl k
  have el : dot_S1024x64_S64x1536_S1024x1536_1_0_0_1_n_n.lhsIdx (ix2 p c) ((ValueIdx.contrEquiv1 dot_S1024x64_S64x1536_S1024x1536_1_0_0_1_n_n 64 rfl rfl).symm k) = ix2 p k := funext fun a => Fin.ext (by
    match a with
    | ⟨0, _⟩ => exact lhs_mmX_0 _ _
    | ⟨1, _⟩ => exact (lhs_mmX_1 _ _).trans hk)
  have er : dot_S1024x64_S64x1536_S1024x1536_1_0_0_1_n_n.rhsIdx (ix2 p c) ((ValueIdx.contrEquiv1 dot_S1024x64_S64x1536_S1024x1536_1_0_0_1_n_n 64 rfl rfl).symm k) = ix2 k c := funext fun a => Fin.ext (by
    match a with
    | ⟨0, _⟩ => exact (rhs_mmX_0 _ _).trans hk
    | ⟨1, _⟩ => exact rhs_mmX_1 _ _)
  rw [el, er]

theorem lhs_mmH_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_mmH_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_mmH_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_mmH_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The state-side product of the update and reset gates: entry (p, c) is the sum over the 512 state columns. -/
theorem mmH_apply (a : FVec Ideal S1024x512 .f32) (b : FVec Ideal S512x1024 .f32) (p : Fin 1024) (c : Fin 1024) :
    matmul dot_S1024x512_S512x1024_S1024x1024_1_0_0_1_n_n none a b (constant (F := Ideal) S1024x1024 .f32 0x00000000#32) (ix2 p c)
      = ∑ k : Fin 512, a (ix2 p k) * b (ix2 k c) := by
  refine (Ideal.matmul_constant_zero_apply dot_S1024x512_S512x1024_S1024x1024_1_0_0_1_n_n none a b (ix2 p c)).trans ?_
  rw [← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p c) ((ValueIdx.contrEquiv1 dot_S1024x512_S512x1024_S1024x1024_1_0_0_1_n_n 512 rfl rfl).symm k) = ix2 p k := funext fun a => Fin.ext (by
    match a with
    | ⟨0, _⟩ => exact lhs_mmH_0 _ _
    | ⟨1, _⟩ => exact (lhs_mmH_1 _ _).trans hk)
  have er : dot_S1024x512_S512x1024_S1024x1024_1_0_0_1_n_n.rhsIdx (ix2 p c) ((ValueIdx.contrEquiv1 dot_S1024x512_S512x1024_S1024x1024_1_0_0_1_n_n 512 rfl rfl).symm k) = ix2 k c := funext fun a => Fin.ext (by
    match a with
    | ⟨0, _⟩ => exact (rhs_mmH_0 _ _).trans hk
    | ⟨1, _⟩ => exact rhs_mmH_1 _ _)
  rw [el, er]

theorem lhs_mmN_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_mmN_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_mmN_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_mmN_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The candidate's state-side product: entry (p, j) is the sum over the 512 state columns. -/
theorem mmN_apply (a : FVec Ideal S1024x512 .f32) (b : FVec Ideal S512x512 .f32) (p : Fin 1024) (j : Fin 512) :
    matmul dot_S1024x512_S512x512_S1024x512_1_0_0_1_n_n none a b (constant (F := Ideal) S1024x512 .f32 0x00000000#32) (ix2 p j)
      = ∑ k : Fin 512, a (ix2 p k) * b (ix2 k j) := by
  refine (Ideal.matmul_constant_zero_apply dot_S1024x512_S512x512_S1024x512_1_0_0_1_n_n none a b (ix2 p j)).trans ?_
  rw [← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p j) ((ValueIdx.contrEquiv1 dot_S1024x512_S512x512_S1024x512_1_0_0_1_n_n 512 rfl rfl).symm k) = ix2 p k := funext fun a => Fin.ext (by
    match a with
    | ⟨0, _⟩ => exact lhs_mmN_0 _ _
    | ⟨1, _⟩ => exact (lhs_mmN_1 _ _).trans hk)
  have er : dot_S1024x512_S512x512_S1024x512_1_0_0_1_n_n.rhsIdx (ix2 p j) ((ValueIdx.contrEquiv1 dot_S1024x512_S512x512_S1024x512_1_0_0_1_n_n 512 rfl rfl).symm k) = ix2 k j := funext fun a => Fin.ext (by
    match a with
    | ⟨0, _⟩ => exact (rhs_mmN_0 _ _).trans hk
    | ⟨1, _⟩ => exact rhs_mmN_1 _ _)
  rw [el, er]

/-- A one-row matrix broadcast down 1024 rows reads its column. -/
theorem bcast1536_apply (v : FVec Ideal S1x1536 .f32) (p : Fin 1024) (c : Fin 1536) :
    broadcastTo S1024x1536 v broadcasts_S1x1536_S1024x1536 (ix2 p c) = v (ix2 (0 : Fin 1) c) :=
  broadcastTo_apply v broadcasts_S1x1536_S1024x1536 (ix2 p c) (ix2 (0 : Fin 1) c) (fun a => match a with
    | ⟨0, _⟩ => by show (0 : ℕ) = if (1 : ℕ) = 1 then 0 else _; rw [if_pos rfl]
    | ⟨1, _⟩ => by show c.val = if (1536 : ℕ) = 1 then 0 else c.val; rw [if_neg (by decide)])

/-- The input's part of the generator's three gates at (p, c): the sample row times row c of the input weights, plus the bias. -/
theorem xa_k (p : Fin 1024) (c : Fin 1536) :
    k0_pay15 (F := Ideal) x2 (kZ x0 x1 x7 x8 x9 x10) (kN x0 x1 x7 x8 x9 x10) (kZH x0 x1 x7 x8 x9 x10) x12 x13 x3 x4 (ix2 p c)
      = xaG (wOfBlocks x3 x4 x5 x6 x7 x8 x9 x10 x11 x12 x13) (row x0 p) (row x1 p) (row x2 p) c := by
  unfold k0_pay15 xaG
  refine congrArg₂ (· + ·) ?_ ?_
  · refine (mmX_apply _ _ p c).trans (Finset.sum_congr rfl fun k _ => ?_)
    refine congrArg₂ (· * ·) (genIn_k x0 x1 x2 x3 x4 x5 x6 x7 x8 x9 x10 x11 x12 x13 p k) ?_
    exact transpose_apply [1, 0] x3 transposes_S1536x64_p1_0_S64x1536 (ix2 k c) (ix2 c k) (fun b => match b with
      | ⟨0, _⟩ => rfl
      | ⟨1, _⟩ => rfl)
  · refine (bcast1536_apply _ p c).trans ?_
    exact congrFun (shapeCast_self x4 shapeCasts_S1x1536_S1x1536) (ix2 (0 : Fin 1) c)

/-! ## The three column bands of the input's part -/

/-- The update gate's band: columns 0 … 511. -/
theorem xz_k (p : Fin 1024) (j : Fin 512) :
    kXz x0 x1 x2 x3 x4 x7 x8 x9 x10 x12 x13 (ix2 p j)
      = xaG (wOfBlocks x3 x4 x5 x6 x7 x8 x9 x10 x11 x12 x13) (row x0 p) (row x1 p) (row x2 p) ⟨j.val, by omega⟩ := by
  show k0_pay16 (F := Ideal) x2 (kZ x0 x1 x7 x8 x9 x10) (kN x0 x1 x7 x8 x9 x10) (kZH x0 x1 x7 x8 x9 x10) x12 x13 x3 x4 (ix2 p j) = _
  unfold k0_pay16
  refine (extractStridedSlice_apply ![0, 0] _ slices_S1024x1536_o0_0_S1024x512 (ix2 p j) (ix2 p (⟨j.val, by omega⟩ : Fin 1536)) (fun a => match a with
    | ⟨0, _⟩ => by show p.val = 0 + p.val; omega
    | ⟨1, _⟩ => by show j.val = 0 + j.val; omega)).trans ?_
  exact xa_k x0 x1 x2 x3 x4 x5 x6 x7 x8 x9 x10 x11 x12 x13 p ⟨j.val, by omega⟩

/-- The reset gate's band: columns 512 … 1023. -/
theorem xr_k (p : Fin 1024) (j : Fin 512) :
    kXr x0 x1 x2 x3 x4 x7 x8 x9 x10 x12 x13 (ix2 p j)
      = xaG (wOfBlocks x3 x4 x5 x6 x7 x8 x9 x10 x11 x12 x13) (row x0 p) (row x1 p) (row x2 p) ⟨512 + j.val, by omega⟩ := by
  show k0_pay17 (F := Ideal) x2 (kZ x0 x1 x7 x8 x9 x10) (kN x0 x1 x7 x8 x9 x10) (kZH x0 x1 x7 x8 x9 x10) x12 x13 x3 x4 (ix2 p j) = _
  unfold k0_pay17
  refine (extractStridedSlice_apply ![0, 512] _ slices_S1024x1536_o0_512_S1024x512 (ix2 p j) (ix2 p (⟨512 + j.val, by omega⟩ : Fin 1536)) (fun a => match a with
    | ⟨0, _⟩ => by show p.val = 0 + p.val; omega
    | ⟨1, _⟩ => by show 512 + j.val = 512 + j.val; omega)).trans ?_
  exact xa_k x0 x1 x2 x3 x4 x5 x6 x7 x8 x9 x10 x11 x12 x13 p ⟨512 + j.val, by omega⟩

/-- The candidate's band: columns 1024 … 1535. -/
theorem xn_k (p : Fin 1024) (j : Fin 512) :
    kXn x0 x1 x2 x3 x4 x7 x8 x9 x10 x12 x13 (ix2 p j)
      = xaG (wOfBlocks x3 x4 x5 x6 x7 x8 x9 x10 x11 x12 x13) (row x0 p) (row x1 p) (row x2 p) ⟨1024 + j.val, by omega⟩ := by
  show k0_pay18 (F := Ideal) x2 (kZ x0 x1 x7 x8 x9 x10) (kN x0 x1 x7 x8 x9 x10) (kZH x0 x1 x7 x8 x9 x10) x12 x13 x3 x4 (ix2 p j) = _
  unfold k0_pay18
  refine (extractStridedSlice_apply ![0, 1024] _ slices_S1024x1536_o0_1024_S1024x512 (ix2 p j) (ix2 p (⟨1024 + j.val, by omega⟩ : Fin 1536)) (fun a => match a with
    | ⟨0, _⟩ => by show p.val = 0 + p.val; omega
    | ⟨1, _⟩ => by show 1024 + j.val = 1024 + j.val; omega)).trans ?_
  exact xa_k x0 x1 x2 x3 x4 x5 x6 x7 x8 x9 x10 x11 x12 x13 p ⟨1024 + j.val, by omega⟩

/-! ## The state's part of the update and reset gates -/

/-- A one-row matrix broadcast down 1024 rows reads its column (1024 columns). -/
theorem bcast1024_apply (v : FVec Ideal S1x1024 .f32) (p : Fin 1024) (c : Fin 1024) :
    broadcastTo S1024x1024 v broadcasts_S1x1024_S1024x1024 (ix2 p c) = v (ix2 (0 : Fin 1) c) :=
  broadcastTo_apply v broadcasts_S1x1024_S1024x1024 (ix2 p c) (ix2 (0 : Fin 1) c) (fun a => match a with
    | ⟨0, _⟩ => by show (0 : ℕ) = if (1 : ℕ) = 1 then 0 else _; rw [if_pos rfl]
    | ⟨1, _⟩ => by show c.val = if (1024 : ℕ) = 1 then 0 else c.val; rw [if_neg (by decide)])

/-- Entry (p, c): the generator band of row p times row c of the state weights, plus the state bias at c. -/
theorem ha_k (p : Fin 1024) (c : Fin 1024) :
    kHa x1 x5 x6 (ix2 p c) = haG (wOfBlocks x3 x4 x5 x6 x7 x8 x9 x10 x11 x12 x13) (row x1 p) c := by
  show k0_pay19 (F := Ideal) (kHg x1) x5 x6 (ix2 p c) = _
  unfold k0_pay19 haG
  refine congrArg₂ (· + ·) ?_ ?_
  · refine (mmH_apply _ _ p c).trans (Finset.sum_congr rfl fun k _ => ?_)
    refine congrArg₂ (· * ·) (hg_k x1 p k) ?_
    refine (transpose_apply [1, 0] _ transposes_S1024x512_p1_0_S512x1024 (ix2 k c) (ix2 c k) (fun b => match b with
      | ⟨0, _⟩ => rfl
      | ⟨1, _⟩ => rfl)).trans ?_
    exact extractStridedSlice_apply ![0, 0] x5 slices_S1536x512_o0_0_S1024x512 (ix2 c k) (ix2 (⟨c.val, by omega⟩ : Fin 1536) k) (fun a => match a with
      | ⟨0, _⟩ => by show c.val = 0 + c.val; omega
      | ⟨1, _⟩ => by show k.val = 0 + k.val; omega)
  · refine (bcast1024_apply _ p c).trans ?_
    refine (extractStridedSlice_apply ![0, 0] _ slices_S1x1536_o0_0_S1x1024 (ix2 (0 : Fin 1) c) (ix2 (0 : Fin 1) (⟨c.val, by omega⟩ : Fin 1536)) (fun a => match a with
      | ⟨0, _⟩ => by show (0 : ℕ) = 0 + 0; omega
      | ⟨1, _⟩ => by show c.val = 0 + c.val; omega)).trans ?_
    exact congrFun (shapeCast_self x6 shapeCasts_S1x1536_S1x1536) _

/-! ## The gates, the candidate and the clipped state -/

/-- The left half of the state's part. -/
theorem haLo_apply (v : FVec Ideal S1024x1024 .f32) (p : Fin 1024) (j : Fin 512) :
    extractStridedSlice S1024x512 ![0, 0] v slices_S1024x1024_o0_0_S1024x512 (ix2 p j) = v (ix2 p (⟨j.val, by omega⟩ : Fin 1024)) :=
  extractStridedSlice_apply ![0, 0] v slices_S1024x1024_o0_0_S1024x512 (ix2 p j) (ix2 p (⟨j.val, by omega⟩ : Fin 1024)) (fun a => match a with
    | ⟨0, _⟩ => by show p.val = 0 + p.val; omega
    | ⟨1, _⟩ => by show j.val = 0 + j.val; omega)

/-- The right half of the state's part. -/
theorem haHi_apply (v : FVec Ideal S1024x1024 .f32) (p : Fin 1024) (j : Fin 512) :
    extractStridedSlice S1024x512 ![0, 512] v slices_S1024x1024_o0_512_S1024x512 (ix2 p j) = v (ix2 p (⟨512 + j.val, by omega⟩ : Fin 1024)) :=
  extractStridedSlice_apply ![0, 512] v slices_S1024x1024_o0_512_S1024x512 (ix2 p j) (ix2 p (⟨512 + j.val, by omega⟩ : Fin 1024)) (fun a => match a with
    | ⟨0, _⟩ => by show p.val = 0 + p.val; omega
    | ⟨1, _⟩ => by show 512 + j.val = 512 + j.val; omega)

/-- The update gate at (p, j). -/
theorem z_k (p : Fin 1024) (j : Fin 512) :
    logistic (addf (kXz x0 x1 x2 x3 x4 x7 x8 x9 x10 x12 x13)
        (extractStridedSlice S1024x512 ![0, 0] (kHa x1 x5 x6) slices_S1024x1024_o0_0_S1024x512)) (ix2 p j)
      = zG (wOfBlocks x3 x4 x5 x6 x7 x8 x9 x10 x11 x12 x13) (row x0 p) (row x1 p) (row x2 p) j := by
  unfold zG
  show Ideal.logistic (kXz x0 x1 x2 x3 x4 x7 x8 x9 x10 x12 x13 (ix2 p j)
      + extractStridedSlice S1024x512 ![0, 0] (kHa x1 x5 x6) slices_S1024x1024_o0_0_S1024x512 (ix2 p j)) = _
  refine congrArg Ideal.logistic (congrArg₂ (· + ·) (xz_k x0 x1 x2 x3 x4 x5 x6 x7 x8 x9 x10 x11 x12 x13 p j) ?_)
  exact (haLo_apply _ p j).trans (ha_k x1 x3 x4 x5 x6 x7 x8 x9 x10 x11 x12 x13 p ⟨j.val, by omega⟩)

/-- The reset gate at (p, j). -/
theorem r_k (p : Fin 1024) (j : Fin 512) :
    logistic (addf (kXr x0 x1 x2 x3 x4 x7 x8 x9 x10 x12 x13)
        (extractStridedSlice S1024x512 ![0, 512] (kHa x1 x5 x6) slices_S1024x1024_o0_512_S1024x512)) (ix2 p j)
      = rG (wOfBlocks x3 x4 x5 x6 x7 x8 x9 x10 x11 x12 x13) (row x0 p) (row x1 p) (row x2 p) j := by
  unfold rG
  show Ideal.logistic (kXr x0 x1 x2 x3 x4 x7 x8 x9 x10 x12 x13 (ix2 p j)
      + extractStridedSlice S1024x512 ![0, 512] (kHa x1 x5 x6) slices_S1024x1024_o0_512_S1024x512 (ix2 p j)) = _
  refine congrArg Ideal.logistic (congrArg₂ (· + ·) (xr_k x0 x1 x2 x3 x4 x5 x6 x7 x8 x9 x10 x11 x12 x13 p j) ?_)
  exact (haHi_apply _ p j).trans (ha_k x1 x3 x4 x5 x6 x7 x8 x9 x10 x11 x12 x13 p ⟨512 + j.val, by omega⟩)

/-- A one-row matrix broadcast down 1024 rows reads its column (512 columns). -/
theorem bcast512_apply (v : FVec Ideal S1x512 .f32) (p : Fin 1024) (j : Fin 512) :
    broadcastTo S1024x512 v broadcasts_S1x512_S1024x512 (ix2 p j) = v (ix2 (0 : Fin 1) j) :=
  broadcastTo_apply v broadcasts_S1x512_S1024x512 (ix2 p j) (ix2 (0 : Fin 1) j) (fun a => match a with
    | ⟨0, _⟩ => by show (0 : ℕ) = if (1 : ℕ) = 1 then 0 else _; rw [if_pos rfl]
    | ⟨1, _⟩ => by show j.val = if (512 : ℕ) = 1 then 0 else j.val; rw [if_neg (by decide)])

/-- The state's part of the candidate at (p, j): the reset state of row p times row 1024 + j of the state weights, plus the bias there. -/
theorem hn_k (p : Fin 1024) (j : Fin 512) :
    addf (matmul dot_S1024x512_S512x512_S1024x512_1_0_0_1_n_n none
          (mulf (logistic (addf (kXr x0 x1 x2 x3 x4 x7 x8 x9 x10 x12 x13)
              (extractStridedSlice S1024x512 ![0, 512] (kHa x1 x5 x6) slices_S1024x1024_o0_512_S1024x512))) (kHg x1))
          (transpose S512x512 [1, 0] (extractStridedSlice S512x512 ![1024, 0] x5 slices_S1536x512_o1024_0_S512x512) transposes_S512x512_p1_0_S512x512)
          (constant (F := Ideal) S1024x512 .f32 0x00000000#32))
        (broadcastTo S1024x512 (extractStridedSlice S1x512 ![0, 1024] (kBh x6) slices_S1x1536_o0_1024_S1x512) broadcasts_S1x512_S1024x512) (ix2 p j)
      = hnG (wOfBlocks x3 x4 x5 x6 x7 x8 x9 x10 x11 x12 x13) (row x0 p) (row x1 p) (row x2 p) j := by
  unfold hnG
  refine congrArg₂ (· + ·) ?_ ?_
  · refine (mmN_apply _ _ p j).trans (Finset.sum_congr rfl fun k _ => ?_)
    refine congrArg₂ (· * ·) (congrArg₂ (· * ·) (r_k x0 x1 x2 x3 x4 x5 x6 x7 x8 x9 x10 x11 x12 x13 p k) (hg_k x1 p k)) ?_
    refine (transpose_apply [1, 0] _ transposes_S512x512_p1_0_S512x512 (ix2 k j) (ix2 j k) (fun b => match b with
      | ⟨0, _⟩ => rfl
      | ⟨1, _⟩ => rfl)).trans ?_
    exact extractStridedSlice_apply ![1024, 0] x5 slices_S1536x512_o1024_0_S512x512 (ix2 j k) (ix2 (⟨1024 + j.val, by omega⟩ : Fin 1536) k) (fun a => match a with
      | ⟨0, _⟩ => by show 1024 + j.val = 1024 + j.val; omega
      | ⟨1, _⟩ => by show k.val = 0 + k.val; omega)
  · refine (bcast512_apply _ p j).trans ?_
    refine (extractStridedSlice_apply ![0, 1024] _ slices_S1x1536_o0_1024_S1x512 (ix2 (0 : Fin 1) j) (ix2 (0 : Fin 1) (⟨1024 + j.val, by omega⟩ : Fin 1536)) (fun a => match a with
      | ⟨0, _⟩ => by show (0 : ℕ) = 0 + 0; omega
      | ⟨1, _⟩ => by show 1024 + j.val = 1024 + j.val; omega)).trans ?_
    exact congrFun (bh_k x6) _

end GenStep

open GenStep

/-- Entry (p, j) of the body's new generator state. -/
theorem genNew_k (p : Fin 1024) (j : Fin 512) :
    kGen x0 x1 x2 x3 x4 x5 x6 x7 x8 x9 x10 x12 x13 (ix2 p j) = genNew (wOfBlocks x3 x4 x5 x6 x7 x8 x9 x10 x11 x12 x13) (row x0 p) (row x1 p) (row x2 p) j := by
  show k0_pay20 (F := Ideal) (kHg x1) x5 (kBh x6) (kXz x0 x1 x2 x3 x4 x7 x8 x9 x10 x12 x13) (kXr x0 x1 x2 x3 x4 x7 x8 x9 x10 x12 x13)
    (kXn x0 x1 x2 x3 x4 x7 x8 x9 x10 x12 x13) (kHa x1 x5 x6) (ix2 p j) = _
  unfold k0_pay20 genNew nG
  have hz := z_k x0 x1 x2 x3 x4 x5 x6 x7 x8 x9 x10 x11 x12 x13 p j
  refine congrArg₂ min rfl (congrArg₂ max rfl (congrArg₂ (· + ·) (congrArg₂ (· * ·) hz (hg_k x1 p j)) (congrArg₂ (· * ·) (congrArg₂ (· - ·) rfl hz) ?_)))
  exact congrArg Ideal.tanh (congrArg₂ (· + ·) (xn_k x0 x1 x2 x3 x4 x5 x6 x7 x8 x9 x10 x11 x12 x13 p j) (hn_k x0 x1 x2 x3 x4 x5 x6 x7 x8 x9 x10 x11 x12 x13 p j))

end Cert.KernelIdeal.KValue

end
-- ==== Proof.KFac.lean ====
/-
  The kernel's factors, read at a row.
-/
import proofs.«136152_j3272765080211_1_alg».proof.Proof.KGen
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KValue

open Cert.KernelIdeal Cert.KernelIdeal.Gen Idealize.ShloMosaic Idealize.ShloMosaic.ValueIdx Cert.Decoder

variable (x0 : FVec Ideal S1024x256 .f32) (x1 : FVec Ideal S1024x1088 .f32) (x2 : FVec Ideal S1024x64 .f32)
  (x3 : FVec Ideal S1536x64 .f32) (x4 : FVec Ideal S1x1536 .f32) (x5 : FVec Ideal S1536x512 .f32) (x6 : FVec Ideal S1x1536 .f32)
  (x7 : FVec Ideal S768x384 .f32) (x8 : FVec Ideal S1x768 .f32) (x9 : FVec Ideal S768x256 .f32) (x10 : FVec Ideal S1x768 .f32)
  (x11 : FVec Ideal S128x512 .f32) (x12 : FVec Ideal S128x256 .f32) (x13 : FVec Ideal S1x128 .f32)

/-! ## The product with the transposed unit-length factor matrix, and the rows' lengths -/

namespace Fac

/-- The left operand's row coordinate is the result's row coordinate. -/
theorem lhs_0 (i : S1024x128.Idx) (q : dot_S1024x512_S512x128_S1024x128_1_0_0_1_n_n.contr.Idx) :
    (dot_S1024x512_S512x128_S1024x128_1_0_0_1_n_n.lhsIdx i q 0).val = (i 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl
/-- The left operand's column coordinate is the contraction coordinate. -/
theorem lhs_1 (i : S1024x128.Idx) (q : dot_S1024x512_S512x128_S1024x128_1_0_0_1_n_n.contr.Idx) :
    (dot_S1024x512_S512x128_S1024x128_1_0_0_1_n_n.lhsIdx i q 1).val = (q ⟨0, by decide⟩).val :=
  dot_S1024x512_S512x128_S1024x128_1_0_0_1_n_n.lhsIdx_val_of_single rfl i q
/-- The right operand's row coordinate is the contraction coordinate. -/
theorem rhs_0 (i : S1024x128.Idx) (q : dot_S1024x512_S512x128_S1024x128_1_0_0_1_n_n.contr.Idx) :
    (dot_S1024x512_S512x128_S1024x128_1_0_0_1_n_n.rhsIdx i q 0).val = (q ⟨0, by decide⟩).val :=
  dot_S1024x512_S512x128_S1024x128_1_0_0_1_n_n.rhsIdx_val_of_single rfl i q
/-- The right operand's column coordinate is the result's column coordinate. -/
theorem rhs_1 (i : S1024x128.Idx) (q : dot_S1024x512_S512x128_S1024x128_1_0_0_1_n_n.contr.Idx) :
    (dot_S1024x512_S512x128_S1024x128_1_0_0_1_n_n.rhsIdx i q 1).val = (i 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl

/-- A [1024, 512] × [512, 128] product into the zero block, at (p, j): the sum over k of a (p, k) * b (k, j). -/
theorem mm_apply (a : FVec Ideal S1024x512 .f32) (b : FVec Ideal S512x128 .f32) (p : Fin 1024) (j : Fin 128) :
    matmul dot_S1024x512_S512x128_S1024x128_1_0_0_1_n_n none a b (constant (F := Ideal) S1024x128 .f32 0x00000000#32) (ix2 p j)
      = ∑ k : Fin 512, a (ix2 p k) * b (ix2 k j) := by
  refine (Ideal.matmul_constant_zero_apply dot_S1024x512_S512x128_S1024x128_1_0_0_1_n_n none a b (ix2 p j)).trans ?_
  rw [← Equiv.sum_comp (ValueIdx.contrEquiv1 dot_S1024x512_S512x128_S1024x128_1_0_0_1_n_n 512 rfl rfl).symm]
  refine Finset.sum_congr rfl fun k _ => ?_
  have hk := ValueIdx.contrEquiv1_symm_val dot_S1024x512_S512x128_S1024x128_1_0_0_1_n_n 512 rfl rfl k
  have el : dot_S1024x512_S512x128_S1024x128_1_0_0_1_n_n.lhsIdx (ix2 p j) ((ValueIdx.contrEquiv1 dot_S1024x512_S512x128_S1024x128_1_0_0_1_n_n 512 rfl rfl).symm k) = ix2 p k := funext fun a => Fin.ext (by
    match a with
    | ⟨0, _⟩ => exact lhs_0 _ _
    | ⟨1, _⟩ => exact (lhs_1 _ _).trans hk)
  have er : dot_S1024x512_S512x128_S1024x128_1_0_0_1_n_n.rhsIdx (ix2 p j) ((ValueIdx.contrEquiv1 dot_S1024x512_S512x128_S1024x128_1_0_0_1_n_n 512 rfl rfl).symm k) = ix2 k j := funext fun a => Fin.ext (by
    match a with
    | ⟨0, _⟩ => exact (rhs_0 _ _).trans hk
    | ⟨1, _⟩ => exact rhs_1 _ _)
  rw [el, er]

/-- The sum along the columns of a [128, 512] block, at row r: the sum over k of the block at (r, k). -/
theorem rowSum_apply (v : FVec Ideal S128x512 .f32) (r : Fin 128) :
    multiReduction (F := Ideal) .add [1] S128 v 0x00000000#32 reduces_S128x512_S128 (.inl rfl) rfl (ix1 r)
      = ∑ k : Fin 512, v (ix2 r k) := by
  refine (Ideal.multiReduction_add_single v 0x00000000#32 reduces_S128x512_S128 _ _ (ix1 r)).trans ?_
  refine Finset.sum_congr rfl fun k _ => congrArg v ?_
  exact funext fun a => Fin.ext (by match a with | ⟨0, _⟩ => rfl | ⟨1, _⟩ => rfl)

/-- A [128] vector cast to the column [128, 1] reads, at (r, u), the vector at r. -/
theorem castCol_apply (v : FVec Ideal S128 .f32) (r : Fin 128) (u : Fin 1) :
    shapeCast S128x1 v shapeCasts_S128_S128x1 (ix2 r u) = v (ix1 r) :=
  shapeCast_apply v shapeCasts_S128_S128x1 _ _ (by
    have hu : u.val = 0 := by omega
    rw [Shape.rowMajor_val_two, Shape.rowMajor_val_one]
    show r.val = r.val * 1 + u.val
    rw [hu, Nat.mul_one, Nat.add_zero])

/-- A column [128, 1] repeated along the columns to [128, 512] reads, at (r, k), the column at r. -/
theorem bcastCol_apply (v : FVec Ideal S128x1 .f32) (r : Fin 128) (k : Fin 512) :
    broadcastTo S128x512 v broadcasts_S128x1_S128x512 (ix2 r k) = v (ix2 r (0 : Fin 1)) := by
  refine broadcastTo_apply v broadcasts_S128x1_S128x512 (ix2 r k) (ix2 r (0 : Fin 1)) fun ax => ?_
  match ax with
  | ⟨0, _⟩ =>
    show r.val = if (128 : ℕ) = 1 then 0 else r.val
    rw [if_neg (by decide)]
  | ⟨1, _⟩ =>
    show (0 : ℕ) = if (1 : ℕ) = 1 then 0 else k.val
    rw [if_pos rfl]

end Fac

/-- Entry (p, j) of the body's factors. -/
theorem facNew_k (p : Fin 1024) (j : Fin 128) :
    kFac x0 x1 x2 x3 x4 x5 x6 x7 x8 x9 x10 x11 x12 x13 (ix2 p j) = facNew (wOfBlocks x3 x4 x5 x6 x7 x8 x9 x10 x11 x12 x13) (row x0 p) (row x1 p) (row x2 p) j := by
  unfold kFac k0_pay21
  refine (Fac.mm_apply _ _ p j).trans ?_
  unfold facNew
  refine Finset.sum_congr rfl fun k _ => ?_
  refine congrArg₂ (· * ·) (genNew_k x0 x1 x2 x3 x4 x5 x6 x7 x8 x9 x10 x11 x12 x13 p k) ?_
  -- entry (k, j) of the transposed matrix is entry (j, k) of the quotient
  refine (transpose_ix2_apply _ transposes_S128x512_p1_0_S512x128 k j).trans ?_
  unfold facUnit facLen
  refine congrArg (Ideal.div (x11 (ix2 j k))) ?_
  -- the divisor at (j, k) is the floored length of row j
  refine (Fac.bcastCol_apply _ j k).trans ?_
  refine congrArg (fun t => max (Ideal.sqrt t) cFloor) ?_
  refine (Fac.castCol_apply _ j (0 : Fin 1)).trans ?_
  exact Fac.rowSum_apply (mulf x11 x11) j

end Cert.KernelIdeal.KValue

end
-- ==== Proof.KBlock.lean ====
/-
  What the kernel's body leaves in the result's staging buffer at one grid point: the six bands the body stores,
  read back as one function of the blocks it loaded. Band by band that function is the row formula of
  Proof/RowSpec.lean at the block's rows, so the whole buffer is `blkOut`: entry (p, c) is `Decoder.rowOut` of
  row p of the three batch blocks at column c.
-/
import proofs.«136152_j3272765080211_1_alg».proof.Proof.Gen.KernelIdeal.Frame
import proofs.«136152_j3272765080211_1_alg».proof.Proof.KFac
import Idealize.ShloMosaic.Lib.Pipeline.Value
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.ShloMosaic.Tactic
open Idealize.ShloMosaic.ValueIdx Cert.Decoder Idealize.SL Idealize.SL.Sem

variable (x0 : FVec Ideal S1024x256 .f32) (x1 : FVec Ideal S1024x1088 .f32) (x2 : FVec Ideal S1024x64 .f32)
  (x3 : FVec Ideal S1536x64 .f32) (x4 : FVec Ideal S1x1536 .f32) (x5 : FVec Ideal S1536x512 .f32) (x6 : FVec Ideal S1x1536 .f32)
  (x7 : FVec Ideal S768x384 .f32) (x8 : FVec Ideal S1x768 .f32) (x9 : FVec Ideal S768x256 .f32) (x10 : FVec Ideal S1x768 .f32)
  (x11 : FVec Ideal S128x512 .f32) (x12 : FVec Ideal S128x256 .f32) (x13 : FVec Ideal S1x128 .f32)

theorem hz : (![0, 0] : Fin 2 → Nat) = fun _ => 0 := funext fun a => by fin_cases a <;> rfl

/-- The stores of the body, last first: the factors (columns 960 …), the sample (896 …), the deviation (832 …),
    the mean (768 …), the new controller state (512 …) and the new generator state (0 …), each the body's own
    term of the loaded blocks. -/
theorem pieces_eq (c : Dev nD) (i : grid0.Coords) (arg1 : Memref sig .tc .vmem S1024x256 .f32) (harg1 : arg1.IsWhole) (arg2 : Memref sig .tc .vmem S1024x1088 .f32) (harg2 : arg2.IsWhole) (arg3 : Memref sig .tc .vmem S1024x64 .f32) (harg3 : arg3.IsWhole) (arg4 : Memref sig .tc .vmem S1536x64 .f32) (harg4 : arg4.IsWhole) (arg5 : Memref sig .tc .vmem S1x1536 .f32) (harg5 : arg5.IsWhole) (arg6 : Memref sig .tc .vmem S1536x512 .f32) (harg6 : arg6.IsWhole) (arg7 : Memref sig .tc .vmem S1x1536 .f32) (harg7 : arg7.IsWhole) (arg8 : Memref sig .tc .vmem S768x384 .f32) (harg8 : arg8.IsWhole) (arg9 : Memref sig .tc .vmem S1x768 .f32) (harg9 : arg9.IsWhole) (arg10 : Memref sig .tc .vmem S768x256 .f32) (harg10 : arg10.IsWhole) (arg11 : Memref sig .tc .vmem S1x768 .f32) (harg11 : arg11.IsWhole) (arg12 : Memref sig .tc .vmem S128x512 .f32) (harg12 : arg12.IsWhole) (arg13 : Memref sig .tc .vmem S128x256 .f32) (harg13 : arg13.IsWhole) (arg14 : Memref sig .tc .vmem S1x128 .f32) (harg14 : arg14.IsWhole) (arg15 : Memref sig .tc .vmem S1024x1088 .f32) (harg15 : arg15.IsWhole) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13).1 =
      [⟨Rect.unit ![0, 960] ![1024, 128] inb_S1024x1088_S1024x128_0_960, kFac x0 x1 x2 x3 x4 x5 x6 x7 x8 x9 x10 x11 x12 x13⟩,
       ⟨Rect.unit ![0, 896] ![1024, 64] inb_S1024x1088_S1024x64_0_896, kIn x0 x1 x2 x7 x8 x9 x10 x12 x13⟩,
       ⟨Rect.unit ![0, 832] ![1024, 64] inb_S1024x1088_S1024x64_0_832, kStd x0 x1 x7 x8 x9 x10 x12 x13⟩,
       ⟨Rect.unit ![0, 768] ![1024, 64] inb_S1024x1088_S1024x64_0_768, kMean x0 x1 x7 x8 x9 x10 x12 x13⟩,
       ⟨Rect.unit ![0, 512] ![1024, 256] inb_S1024x1088_S1024x256_0_512, kCon x0 x1 x7 x8 x9 x10⟩,
       ⟨Rect.unit ![0, 0] ![1024, 512] inb_S1024x1088_S1024x512_0_0, kGen x0 x1 x2 x3 x4 x5 x6 x7 x8 x9 x10 x12 x13⟩] := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x256) hz, View.ld_unit_zero (S := S1024x1088) hz, View.ld_unit_zero (S := S1024x64) hz, View.ld_unit_zero (S := S1536x64) hz, View.ld_unit_zero (S := S1x1536) hz, View.ld_unit_zero (S := S1536x512) hz, View.ld_unit_zero (S := S768x384) hz, View.ld_unit_zero (S := S1x768) hz, View.ld_unit_zero (S := S768x256) hz, View.ld_unit_zero (S := S128x512) hz, View.ld_unit_zero (S := S128x256) hz, View.ld_unit_zero (S := S1x128) hz]

/-- The staging buffer as one function of the loaded blocks: entry (p, c) is the row formula of row p at column c. -/
def blkOut : S1024x1088.Idx → EReal := fun y =>
  rowOut (wOfBlocks x3 x4 x5 x6 x7 x8 x9 x10 x11 x12 x13) (row x0 ⟨(y 0).val, (y 0).isLt⟩) (row x1 ⟨(y 0).val, (y 0).isLt⟩) (row x2 ⟨(y 0).val, (y 0).isLt⟩)
    ⟨(y 1).val, (y 1).isLt⟩

theorem blkOut_apply (p : Fin 1024) (cc : Fin 1088) :
    blkOut x0 x1 x2 x3 x4 x5 x6 x7 x8 x9 x10 x11 x12 x13 (ix2 p cc) = rowOut (wOfBlocks x3 x4 x5 x6 x7 x8 x9 x10 x11 x12 x13) (row x0 p) (row x1 p) (row x2 p) cc := rfl

/-- A band's local entry (p, j) sits at entry (p, o + j) of the buffer. -/
theorem emb_band (o n : ℕ) (inb : ∀ a, (![0, o] : Fin 2 → ℕ) a + (![1024, n] : Fin 2 → ℕ) a ≤ S1024x1088.size a)
    (p : Fin 1024) (j : Fin n) (h : o + j.val < 1088) :
    (Rect.unit (s := S1024x1088) ![0, o] ![1024, n] inb).emb (ix2 p j) = ix2 p ⟨o + j.val, h⟩ :=
  Shape.idx_ext₂ (by show 0 + 1 * p.val = p.val; omega) (by show o + 1 * j.val = o + j.val; omega)

/-! The row formula at a column of each band. -/

theorem rowOut_gen (w : Weights) (x : Fin 256 → EReal) (h : Fin 1088 → EReal) (e : Fin 64 → EReal) (j : Fin 512) :
    rowOut w x h e ⟨0 + j.val, by omega⟩ = genNew w x h e j := by
  unfold rowOut
  rw [dif_pos (show (0 + j.val) < 512 by omega)]
  exact congrArg _ (Fin.ext (by show 0 + j.val = j.val; omega))

theorem rowOut_con (w : Weights) (x : Fin 256 → EReal) (h : Fin 1088 → EReal) (e : Fin 64 → EReal) (j : Fin 256) :
    rowOut w x h e ⟨512 + j.val, by omega⟩ = conNew w x h j := by
  unfold rowOut
  rw [dif_neg (show ¬ (512 + j.val) < 512 by omega), dif_pos (show (512 + j.val) < 768 by omega)]
  exact congrArg _ (Fin.ext (by show 512 + j.val - 512 = j.val; omega))

theorem rowOut_mean (w : Weights) (x : Fin 256 → EReal) (h : Fin 1088 → EReal) (e : Fin 64 → EReal) (j : Fin 64) :
    rowOut w x h e ⟨768 + j.val, by omega⟩ = coMean w x h j := by
  unfold rowOut
  rw [dif_neg (show ¬ (768 + j.val) < 512 by omega), dif_neg (show ¬ (768 + j.val) < 768 by omega),
    dif_pos (show (768 + j.val) < 832 by omega)]
  exact congrArg _ (Fin.ext (by show 768 + j.val - 768 = j.val; omega))

theorem rowOut_std (w : Weights) (x : Fin 256 → EReal) (h : Fin 1088 → EReal) (e : Fin 64 → EReal) (j : Fin 64) :
    rowOut w x h e ⟨832 + j.val, by omega⟩ = coStd w x h j := by
  unfold rowOut
  rw [dif_neg (show ¬ (832 + j.val) < 512 by omega), dif_neg (show ¬ (832 + j.val) < 768 by omega),
    dif_neg (show ¬ (832 + j.val) < 832 by omega), dif_pos (show (832 + j.val) < 896 by omega)]
  exact congrArg _ (Fin.ext (by show 832 + j.val - 832 = j.val; omega))

theorem rowOut_in (w : Weights) (x : Fin 256 → EReal) (h : Fin 1088 → EReal) (e : Fin 64 → EReal) (j : Fin 64) :
    rowOut w x h e ⟨896 + j.val, by omega⟩ = genIn w x h e j := by
  unfold rowOut
  rw [dif_neg (show ¬ (896 + j.val) < 512 by omega), dif_neg (show ¬ (896 + j.val) < 768 by omega),
    dif_neg (show ¬ (896 + j.val) < 832 by omega), dif_neg (show ¬ (896 + j.val) < 896 by omega),
    dif_pos (show (896 + j.val) < 960 by omega)]
  exact congrArg _ (Fin.ext (by show 896 + j.val - 896 = j.val; omega))

theorem rowOut_fac (w : Weights) (x : Fin 256 → EReal) (h : Fin 1088 → EReal) (e : Fin 64 → EReal) (j : Fin 128) :
    rowOut w x h e ⟨960 + j.val, by omega⟩ = facNew w x h e j := by
  unfold rowOut
  rw [dif_neg (show ¬ (960 + j.val) < 512 by omega), dif_neg (show ¬ (960 + j.val) < 768 by omega),
    dif_neg (show ¬ (960 + j.val) < 832 by omega), dif_neg (show ¬ (960 + j.val) < 896 by omega),
    dif_neg (show ¬ (960 + j.val) < 960 by omega)]
  exact congrArg _ (Fin.ext (by show 960 + j.val - 960 = j.val; omega))

/-- What the body leaves in the result's staging buffer is `blkOut` of the blocks it loaded: every entry lies in
    one of the six bands, and on each band the stored term is the band's row formula. -/
theorem block_eq (c : Dev nD) (i : grid0.Coords) (arg1 : Memref sig .tc .vmem S1024x256 .f32) (harg1 : arg1.IsWhole) (arg2 : Memref sig .tc .vmem S1024x1088 .f32) (harg2 : arg2.IsWhole) (arg3 : Memref sig .tc .vmem S1024x64 .f32) (harg3 : arg3.IsWhole) (arg4 : Memref sig .tc .vmem S1536x64 .f32) (harg4 : arg4.IsWhole) (arg5 : Memref sig .tc .vmem S1x1536 .f32) (harg5 : arg5.IsWhole) (arg6 : Memref sig .tc .vmem S1536x512 .f32) (harg6 : arg6.IsWhole) (arg7 : Memref sig .tc .vmem S1x1536 .f32) (harg7 : arg7.IsWhole) (arg8 : Memref sig .tc .vmem S768x384 .f32) (harg8 : arg8.IsWhole) (arg9 : Memref sig .tc .vmem S1x768 .f32) (harg9 : arg9.IsWhole) (arg10 : Memref sig .tc .vmem S768x256 .f32) (harg10 : arg10.IsWhole) (arg11 : Memref sig .tc .vmem S1x768 .f32) (harg11 : arg11.IsWhole) (arg12 : Memref sig .tc .vmem S128x512 .f32) (harg12 : arg12.IsWhole) (arg13 : Memref sig .tc .vmem S128x256 .f32) (harg13 : arg13.IsWhole) (arg14 : Memref sig .tc .vmem S1x128 .f32) (harg14 : arg14.IsWhole) (arg15 : Memref sig .tc .vmem S1024x1088 .f32) (harg15 : arg15.IsWhole) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 = blkOut x0 x1 x2 x3 x4 x5 x6 x7 x8 x9 x10 x11 x12 x13 := by
  funext y
  unfold out0_A_14
  rw [View.read_writes_eq_canon _ _ _ (cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13)]
  refine View.canon_apply_of_pieces (blkOut x0 x1 x2 x3 x4 x5 x6 x7 x8 x9 x10 x11 x12 x13) _ ?_ y (cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 y)
  rw [pieces_eq]
  intro q hq z
  simp only [List.mem_cons, List.not_mem_nil, or_false] at hq
  rcases hq with rfl | rfl | rfl | rfl | rfl | rfl
  · obtain ⟨p, j, rfl⟩ : ∃ (p : Fin 1024) (j : Fin 128), z = ix2 p j := ⟨z 0, z 1, eq_ix2 z⟩
    show kFac x0 x1 x2 x3 x4 x5 x6 x7 x8 x9 x10 x11 x12 x13 (ix2 p j) = blkOut x0 x1 x2 x3 x4 x5 x6 x7 x8 x9 x10 x11 x12 x13 _
    rw [emb_band 960 128 _ p j (by omega), blkOut_apply, rowOut_fac, facNew_k]
  · obtain ⟨p, j, rfl⟩ : ∃ (p : Fin 1024) (j : Fin 64), z = ix2 p j := ⟨z 0, z 1, eq_ix2 z⟩
    show kIn x0 x1 x2 x7 x8 x9 x10 x12 x13 (ix2 p j) = blkOut x0 x1 x2 x3 x4 x5 x6 x7 x8 x9 x10 x11 x12 x13 _
    rw [emb_band 896 64 _ p j (by omega), blkOut_apply, rowOut_in, genIn_k]
  · obtain ⟨p, j, rfl⟩ : ∃ (p : Fin 1024) (j : Fin 64), z = ix2 p j := ⟨z 0, z 1, eq_ix2 z⟩
    show kStd x0 x1 x7 x8 x9 x10 x12 x13 (ix2 p j) = blkOut x0 x1 x2 x3 x4 x5 x6 x7 x8 x9 x10 x11 x12 x13 _
    rw [emb_band 832 64 _ p j (by omega), blkOut_apply, rowOut_std, coStd_k]
  · obtain ⟨p, j, rfl⟩ : ∃ (p : Fin 1024) (j : Fin 64), z = ix2 p j := ⟨z 0, z 1, eq_ix2 z⟩
    show kMean x0 x1 x7 x8 x9 x10 x12 x13 (ix2 p j) = blkOut x0 x1 x2 x3 x4 x5 x6 x7 x8 x9 x10 x11 x12 x13 _
    rw [emb_band 768 64 _ p j (by omega), blkOut_apply, rowOut_mean, coMean_k]
  · obtain ⟨p, j, rfl⟩ : ∃ (p : Fin 1024) (j : Fin 256), z = ix2 p j := ⟨z 0, z 1, eq_ix2 z⟩
    show kCon x0 x1 x7 x8 x9 x10 (ix2 p j) = blkOut x0 x1 x2 x3 x4 x5 x6 x7 x8 x9 x10 x11 x12 x13 _
    rw [emb_band 512 256 _ p j (by omega), blkOut_apply, rowOut_con, conNew_k]
  · obtain ⟨p, j, rfl⟩ : ∃ (p : Fin 1024) (j : Fin 512), z = ix2 p j := ⟨z 0, z 1, eq_ix2 z⟩
    show kGen x0 x1 x2 x3 x4 x5 x6 x7 x8 x9 x10 x12 x13 (ix2 p j) = blkOut x0 x1 x2 x3 x4 x5 x6 x7 x8 x9 x10 x11 x12 x13 _
    rw [emb_band 0 512 _ p j (by omega), blkOut_apply, rowOut_gen, genNew_k]

end Cert.KernelIdeal.KValue

end
-- ==== Proof.KArray.lean ====
/-
  From blocks to the array. The grid has 32 points; point `t` loads rows 1024·t … 1024·t + 1023 of the three batch
  arrays and the whole of every weight array (the biases through their one-row reshapes), and writes rows
  1024·t … of the result. What it writes is `blkOut` of what it loads (Proof/KBlock.lean), which is the row
  formula at those rows; the 32 blocks cover the result array, so after the run the array is `Decoder.outArr` of
  the arguments.
-/
import proofs.«136152_j3272765080211_1_alg».proof.Proof.Gen.KernelIdeal.Value
import proofs.«136152_j3272765080211_1_alg».proof.Proof.KBlock
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe
open Idealize.ShloMosaic.ValueIdx Cert.Decoder Idealize.SL Idealize.SL.Sem
open Idealize.ShloMosaic.Pipeline (Dat)

variable (m : (ℓ : Loc nD τ sig) → Buf (Elt Ideal) ℓ) (ρ : Dev nD → PrngReg)

/-- Each window's block at a point, at its literal shape. -/
abbrev b0 (c : Dev nD) (t : Fin cfg0.N) : FVec Ideal S1024x256 .f32 := iblk m c 0 t
abbrev b1 (c : Dev nD) (t : Fin cfg0.N) : FVec Ideal S1024x1088 .f32 := iblk m c 1 t
abbrev b2 (c : Dev nD) (t : Fin cfg0.N) : FVec Ideal S1024x64 .f32 := iblk m c 2 t
abbrev b3 (c : Dev nD) (t : Fin cfg0.N) : FVec Ideal S1536x64 .f32 := iblk m c 3 t
abbrev b4 (c : Dev nD) (t : Fin cfg0.N) : FVec Ideal S1x1536 .f32 := iblk m c 4 t
abbrev b5 (c : Dev nD) (t : Fin cfg0.N) : FVec Ideal S1536x512 .f32 := iblk m c 5 t
abbrev b6 (c : Dev nD) (t : Fin cfg0.N) : FVec Ideal S1x1536 .f32 := iblk m c 6 t
abbrev b7 (c : Dev nD) (t : Fin cfg0.N) : FVec Ideal S768x384 .f32 := iblk m c 7 t
abbrev b8 (c : Dev nD) (t : Fin cfg0.N) : FVec Ideal S1x768 .f32 := iblk m c 8 t
abbrev b9 (c : Dev nD) (t : Fin cfg0.N) : FVec Ideal S768x256 .f32 := iblk m c 9 t
abbrev b10 (c : Dev nD) (t : Fin cfg0.N) : FVec Ideal S1x768 .f32 := iblk m c 10 t
abbrev b11 (c : Dev nD) (t : Fin cfg0.N) : FVec Ideal S128x512 .f32 := iblk m c 11 t
abbrev b12 (c : Dev nD) (t : Fin cfg0.N) : FVec Ideal S128x256 .f32 := iblk m c 12 t
abbrev b13 (c : Dev nD) (t : Fin cfg0.N) : FVec Ideal S1x128 .f32 := iblk m c 13 t

/-- The printed index maps over the 32 points: the three batch windows and the result window move one block of rows
    per point; every weight window stays on its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_14.index t (0 : Fin 2) = t.val ∧ win0_14.index t (1 : Fin 2) = 0 :=
  (by decide +kernel : ∀ t : Fin grid0.N, _)

theorem idx_facts_w : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-! ## Row p of a batch block at point t is row 1024·t + p of its array -/

theorem b0_row (c : Dev nD) (t : Fin cfg0.N) (p : Fin 1024) (h : t.val * 1024 + p.val < 32768) :
    row (b0 m c t) p = row (m ((c : Thread nD τ).loc main_arg0)) ⟨t.val * 1024 + p.val, h⟩ := by
  funext k
  obtain ⟨e00, e01, e10, e11, e20, e21, -⟩ := idx_facts t
  show V m c main_arg0 (((cfg0.win 0).blk t).view.emb (ix2 p k)) = _
  rw [V_main_arg0]
  refine congrArg _ (Shape.idx_ext₂ ?_ ?_)
  · show win0_0.index t (0 : Fin 2) * 1024 + 1 * p.val = t.val * 1024 + p.val; omega
  · show win0_0.index t (1 : Fin 2) * 256 + 1 * k.val = k.val; omega

theorem b1_row (c : Dev nD) (t : Fin cfg0.N) (p : Fin 1024) (h : t.val * 1024 + p.val < 32768) :
    row (b1 m c t) p = row (m ((c : Thread nD τ).loc main_arg1)) ⟨t.val * 1024 + p.val, h⟩ := by
  funext k
  obtain ⟨e00, e01, e10, e11, e20, e21, -⟩ := idx_facts t
  show V m c main_arg1 (((cfg0.win 1).blk t).view.emb (ix2 p k)) = _
  rw [V_main_arg1]
  refine congrArg _ (Shape.idx_ext₂ ?_ ?_)
  · show win0_1.index t (0 : Fin 2) * 1024 + 1 * p.val = t.val * 1024 + p.val; omega
  · show win0_1.index t (1 : Fin 2) * 1088 + 1 * k.val = k.val; omega

theorem b2_row (c : Dev nD) (t : Fin cfg0.N) (p : Fin 1024) (h : t.val * 1024 + p.val < 32768) :
    row (b2 m c t) p = row (m ((c : Thread nD τ).loc main_arg2)) ⟨t.val * 1024 + p.val, h⟩ := by
  funext k
  obtain ⟨e00, e01, e10, e11, e20, e21, -⟩ := idx_facts t
  show V m c main_arg2 (((cfg0.win 2).blk t).view.emb (ix2 p k)) = _
  rw [V_main_arg2]
  refine congrArg _ (Shape.idx_ext₂ ?_ ?_)
  · show win0_2.index t (0 : Fin 2) * 1024 + 1 * p.val = t.val * 1024 + p.val; omega
  · show win0_2.index t (1 : Fin 2) * 64 + 1 * k.val = k.val; omega

/-! ## A weight block is the whole weight array, at every point -/

theorem b3_mat (c : Dev nD) (t : Fin cfg0.N) : mat (b3 m c t) = mat (m ((c : Thread nD τ).loc main_arg3)) := by
  funext j k
  obtain ⟨⟨e0, e1⟩, -, -, -, -, -, -, -, -, -, -⟩ := idx_facts_w t
  show V m c main_arg3 (((cfg0.win 3).blk t).view.emb (ix2 j k)) = _
  rw [V_main_arg3]
  refine congrArg _ (Shape.idx_ext₂ ?_ ?_)
  · show win0_3.index t (0 : Fin 2) * 1536 + 1 * j.val = j.val; omega
  · show win0_3.index t (1 : Fin 2) * 64 + 1 * k.val = k.val; omega

theorem b5_mat (c : Dev nD) (t : Fin cfg0.N) : mat (b5 m c t) = mat (m ((c : Thread nD τ).loc main_arg5)) := by
  funext j k
  obtain ⟨-, -, ⟨e0, e1⟩, -, -, -, -, -, -, -, -⟩ := idx_facts_w t
  show V m c main_arg5 (((cfg0.win 5).blk t).view.emb (ix2 j k)) = _
  rw [V_main_arg5]
  refine congrArg _ (Shape.idx_ext₂ ?_ ?_)
  · show win0_5.index t (0 : Fin 2) * 1536 + 1 * j.val = j.val; omega
  · show win0_5.index t (1 : Fin 2) * 512 + 1 * k.val = k.val; omega

theorem b7_mat (c : Dev nD) (t : Fin cfg0.N) : mat (b7 m c t) = mat (m ((c : Thread nD τ).loc main_arg7)) := by
  funext j k
  obtain ⟨-, -, -, -, ⟨e0, e1⟩, -, -, -, -, -, -⟩ := idx_facts_w t
  show V m c main_arg7 (((cfg0.win 7).blk t).view.emb (ix2 j k)) = _
  rw [V_main_arg7]
  refine congrArg _ (Shape.idx_ext₂ ?_ ?_)
  · show win0_7.index t (0 : Fin 2) * 768 + 1 * j.val = j.val; omega
  · show win0_7.index t (1 : Fin 2) * 384 + 1 * k.val = k.val; omega

theorem b9_mat (c : Dev nD) (t : Fin cfg0.N) : mat (b9 m c t) = mat (m ((c : Thread nD τ).loc main_arg9)) := by
  funext j k
  obtain ⟨-, -, -, -, -, -, ⟨e0, e1⟩, -, -, -, -⟩ := idx_facts_w t
  show V m c main_arg9 (((cfg0.win 9).blk t).view.emb (ix2 j k)) = _
  rw [V_main_arg9]
  refine congrArg _ (Shape.idx_ext₂ ?_ ?_)
  · show win0_9.index t (0 : Fin 2) * 768 + 1 * j.val = j.val; omega
  · show win0_9.index t (1 : Fin 2) * 256 + 1 * k.val = k.val; omega

theorem b11_mat (c : Dev nD) (t : Fin cfg0.N) : mat (b11 m c t) = mat (m ((c : Thread nD τ).loc main_arg11)) := by
  funext j k
  obtain ⟨-, -, -, -, -, -, -, -, ⟨e0, e1⟩, -, -⟩ := idx_facts_w t
  show V m c main_arg11 (((cfg0.win 11).blk t).view.emb (ix2 j k)) = _
  rw [V_main_arg11]
  refine congrArg _ (Shape.idx_ext₂ ?_ ?_)
  · show win0_11.index t (0 : Fin 2) * 128 + 1 * j.val = j.val; omega
  · show win0_11.index t (1 : Fin 2) * 512 + 1 * k.val = k.val; omega

theorem b12_mat (c : Dev nD) (t : Fin cfg0.N) : mat (b12 m c t) = mat (m ((c : Thread nD τ).loc main_arg12)) := by
  funext j k
  obtain ⟨-, -, -, -, -, -, -, -, -, ⟨e0, e1⟩, -⟩ := idx_facts_w t
  show V m c main_arg12 (((cfg0.win 12).blk t).view.emb (ix2 j k)) = _
  rw [V_main_arg12]
  refine congrArg _ (Shape.idx_ext₂ ?_ ?_)
  · show win0_12.index t (0 : Fin 2) * 128 + 1 * j.val = j.val; omega
  · show win0_12.index t (1 : Fin 2) * 256 + 1 * k.val = k.val; omega

/-! ## A bias block's one row is the bias vector -/

/-- The one-row array window 4 stages is the reshape of argument 4. -/
theorem V_v0 (c : Dev nD) : (V m c main_v0 : S1x1536.Idx → EReal) = shapeCast S1x1536 (m ((c : Thread nD τ).loc main_arg4)) shapeCasts_S1536_S1x1536 := by
  dsimp only [V, hostOps0]; after_results; rfl

theorem b4_vec (c : Dev nD) (t : Fin cfg0.N) : row (b4 m c t) 0 = vec (m ((c : Thread nD τ).loc main_arg4)) := by
  funext k
  obtain ⟨-, ⟨e0, e1⟩, -, -, -, -, -, -, -, -, -⟩ := idx_facts_w t
  show V m c main_v0 (((cfg0.win 4).blk t).view.emb (ix2 (0 : Fin 1) k)) = _
  rw [V_v0]
  have he : ((cfg0.win 4).blk t).view.emb (ix2 (0 : Fin 1) k) = ix2 (0 : Fin 1) k := Shape.idx_ext₂
    (by show win0_4.index t (0 : Fin 2) * 1 + 1 * 0 = 0; omega)
    (by show win0_4.index t (1 : Fin 2) * 1536 + 1 * k.val = k.val; omega)
  rw [he]
  exact shapeCast_a_1a_apply _ _ (0 : Fin 1) k

/-- The one-row array window 6 stages is the reshape of argument 6. -/
theorem V_v1 (c : Dev nD) : (V m c main_v1 : S1x1536.Idx → EReal) = shapeCast S1x1536 (m ((c : Thread nD τ).loc main_arg6)) shapeCasts_S1536_S1x1536 := by
  dsimp only [V, hostOps0]; after_results; rfl

theorem b6_vec (c : Dev nD) (t : Fin cfg0.N) : row (b6 m c t) 0 = vec (m ((c : Thread nD τ).loc main_arg6)) := by
  funext k
  obtain ⟨-, -, -, ⟨e0, e1⟩, -, -, -, -, -, -, -⟩ := idx_facts_w t
  show V m c main_v1 (((cfg0.win 6).blk t).view.emb (ix2 (0 : Fin 1) k)) = _
  rw [V_v1]
  have he : ((cfg0.win 6).blk t).view.emb (ix2 (0 : Fin 1) k) = ix2 (0 : Fin 1) k := Shape.idx_ext₂
    (by show win0_6.index t (0 : Fin 2) * 1 + 1 * 0 = 0; omega)
    (by show win0_6.index t (1 : Fin 2) * 1536 + 1 * k.val = k.val; omega)
  rw [he]
  exact shapeCast_a_1a_apply _ _ (0 : Fin 1) k

/-- The one-row array window 8 stages is the reshape of argument 8. -/
theorem V_v2 (c : Dev nD) : (V m c main_v2 : S1x768.Idx → EReal) = shapeCast S1x768 (m ((c : Thread nD τ).loc main_arg8)) shapeCasts_S768_S1x768 := by
  dsimp only [V, hostOps0]; after_results; rfl

theorem b8_vec (c : Dev nD) (t : Fin cfg0.N) : row (b8 m c t) 0 = vec (m ((c : Thread nD τ).loc main_arg8)) := by
  funext k
  obtain ⟨-, -, -, -, -, ⟨e0, e1⟩, -, -, -, -, -⟩ := idx_facts_w t
  show V m c main_v2 (((cfg0.win 8).blk t).view.emb (ix2 (0 : Fin 1) k)) = _
  rw [V_v2]
  have he : ((cfg0.win 8).blk t).view.emb (ix2 (0 : Fin 1) k) = ix2 (0 : Fin 1) k := Shape.idx_ext₂
    (by show win0_8.index t (0 : Fin 2) * 1 + 1 * 0 = 0; omega)
    (by show win0_8.index t (1 : Fin 2) * 768 + 1 * k.val = k.val; omega)
  rw [he]
  exact shapeCast_a_1a_apply _ _ (0 : Fin 1) k

/-- The one-row array window 10 stages is the reshape of argument 10. -/
theorem V_v3 (c : Dev nD) : (V m c main_v3 : S1x768.Idx → EReal) = shapeCast S1x768 (m ((c : Thread nD τ).loc main_arg10)) shapeCasts_S768_S1x768 := by
  dsimp only [V, hostOps0]; after_results; rfl

theorem b10_vec (c : Dev nD) (t : Fin cfg0.N) : row (b10 m c t) 0 = vec (m ((c : Thread nD τ).loc main_arg10)) := by
  funext k
  obtain ⟨-, -, -, -, -, -, -, ⟨e0, e1⟩, -, -, -⟩ := idx_facts_w t
  show V m c main_v3 (((cfg0.win 10).blk t).view.emb (ix2 (0 : Fin 1) k)) = _
  rw [V_v3]
  have he : ((cfg0.win 10).blk t).view.emb (ix2 (0 : Fin 1) k) = ix2 (0 : Fin 1) k := Shape.idx_ext₂
    (by show win0_10.index t (0 : Fin 2) * 1 + 1 * 0 = 0; omega)
    (by show win0_10.index t (1 : Fin 2) * 768 + 1 * k.val = k.val; omega)
  rw [he]
  exact shapeCast_a_1a_apply _ _ (0 : Fin 1) k

/-- The one-row array window 13 stages is the reshape of argument 13. -/
theorem V_v4 (c : Dev nD) : (V m c main_v4 : S1x128.Idx → EReal) = shapeCast S1x128 (m ((c : Thread nD τ).loc main_arg13)) shapeCasts_S128_S1x128 := by
  dsimp only [V, hostOps0]; after_results; rfl

theorem b13_vec (c : Dev nD) (t : Fin cfg0.N) : row (b13 m c t) 0 = vec (m ((c : Thread nD τ).loc main_arg13)) := by
  funext k
  obtain ⟨-, -, -, -, -, -, -, -, -, -, ⟨e0, e1⟩⟩ := idx_facts_w t
  show V m c main_v4 (((cfg0.win 13).blk t).view.emb (ix2 (0 : Fin 1) k)) = _
  rw [V_v4]
  have he : ((cfg0.win 13).blk t).view.emb (ix2 (0 : Fin 1) k) = ix2 (0 : Fin 1) k := Shape.idx_ext₂
    (by show win0_13.index t (0 : Fin 2) * 1 + 1 * 0 = 0; omega)
    (by show win0_13.index t (1 : Fin 2) * 128 + 1 * k.val = k.val; omega)
  rw [he]
  exact shapeCast_a_1a_apply _ _ (0 : Fin 1) k

/-- So the weights the body sees at any point are the weights of the arguments. -/
theorem weights_eq (c : Dev nD) (t : Fin cfg0.N) :
    wOfBlocks (b3 m c t) (b4 m c t) (b5 m c t) (b6 m c t) (b7 m c t) (b8 m c t) (b9 m c t) (b10 m c t) (b11 m c t) (b12 m c t) (b13 m c t)
      = wOfArrays (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  unfold wOfBlocks wOfArrays
  rw [b3_mat, b4_vec, b5_mat, b6_vec, b7_mat, b8_vec, b9_mat, b10_vec, b11_mat, b12_mat, b13_vec]

/-! ## What each point writes back, the cover, and the array after the run -/

/-- The result array the run should leave: the decoder step of the arguments, row by row. -/
abbrev G (c : Dev nD) : S32768x1088.Idx → EReal := outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- WHAT POINT t WRITES BACK is block t of `G`: the body's buffer is `blkOut` of the blocks it loaded, whose rows
    are rows 1024·t … of the arguments and whose weights are the arguments' weights. -/
theorem flushed_eq (c : Dev nD) (t : Fin cfg0.N) :
    (dats m 0 c).flushed 14 t = ((cfg0.win 14).blk t).view.read (Elt Ideal) (G m c) := by
  rw [Value.flushed14_A]
  have hb := block_eq (b0 m c t) (b1 m c t) (b2 m c t) (b3 m c t) (b4 m c t) (b5 m c t) (b6 m c t) (b7 m c t) (b8 m c t) (b9 m c t) (b10 m c t) (b11 m c t) (b12 m c t) (b13 m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t)
  funext y
  show out0_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (b0 m c t) (b1 m c t) (b2 m c t) (b3 m c t) (b4 m c t) (b5 m c t) (b6 m c t) (b7 m c t) (b8 m c t) (b9 m c t) (b10 m c t) (b11 m c t) (b12 m c t) (b13 m c t) y = G m c (((cfg0.win 14).blk t).view.emb y)
  rw [hb]
  obtain ⟨p, cc, rfl⟩ : ∃ (p : Fin 1024) (cc : Fin 1088), y = ix2 p cc := ⟨y 0, y 1, eq_ix2 y⟩
  obtain ⟨-, -, -, -, -, -, e0, e1⟩ := idx_facts t
  have ht : t.val < 32 := t.isLt
  have hrow : t.val * 1024 + p.val < 32768 := by have := p.isLt; omega
  have he : ((cfg0.win 14).blk t).view.emb (ix2 p cc) = ix2 (⟨t.val * 1024 + p.val, hrow⟩ : Fin 32768) cc := Shape.idx_ext₂
    (by show win0_14.index t (0 : Fin 2) * 1024 + 1 * p.val = t.val * 1024 + p.val; omega)
    (by show win0_14.index t (1 : Fin 2) * 1088 + 1 * cc.val = cc.val; omega)
  rw [he, blkOut_apply]
  show _ = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix2 (⟨t.val * 1024 + p.val, hrow⟩ : Fin 32768) cc)
  rw [outArr_apply, weights_eq m c t, b0_row m c t p hrow, b1_row m c t p hrow, b2_row m c t p hrow]

/-- An index of the result array is in point t's block iff its row is among rows 1024·t … 1024·t + 1023. -/
theorem mem_blk (t : Fin cfg0.N) (i : S32768x1088.Idx) :
    i ∈ ((cfg0.win 14).blk t).view.set ↔ ∀ a : Fin 2, win0_14.index t a * S1024x1088.size a ≤ (i a).val ∧ (i a).val < win0_14.index t a * S1024x1088.size a + S1024x1088.size a := by
  show i ∈ ((View.whole main_v5).slice (win0_14.rect t)).set ↔ _
  rw [View.set_slice_whole, Rect.mem_set_unit]
  exact Iff.rfl

/-- The 32 blocks cover the result array: row r lies in the block of point r / 1024. -/
theorem cover (i : S32768x1088.Idx) : ∃ t : Fin cfg0.N, (cfg0.win 14).flush t = true ∧ i ∈ ((cfg0.win 14).blk t).view.set := by
  have hi0 : (i 0).val < 32768 := (i 0).isLt
  have hi1 : (i 1).val < 1088 := (i 1).isLt
  let t : Fin cfg0.N := ⟨(i 0).val / 1024, by show (i 0).val / 1024 < 32; omega⟩
  obtain ⟨-, -, -, -, -, -, e0, e1⟩ := idx_facts t
  have tv : t.val = (i 0).val / 1024 := rfl
  refine ⟨t, flush0_14 t, ?_⟩
  rw [mem_blk]
  intro a
  match a with
  | ⟨0, _⟩ => show win0_14.index t (0 : Fin 2) * 1024 ≤ (i 0).val ∧ (i 0).val < win0_14.index t (0 : Fin 2) * 1024 + 1024; omega
  | ⟨1, _⟩ => show win0_14.index t (1 : Fin 2) * 1088 ≤ (i 1).val ∧ (i 1).val < win0_14.index t (1 : Fin 2) * 1088 + 1088; omega

/-- THE ARRAY after the run is `G`. -/
theorem final (c : Dev nD) : (dats m 0 c).arrAt 14 cfg0.N = G m c :=
  (dats m 0 c).arrAt_eq_of_cover 14 (G m c) (fun t _ => flushed_eq m c t) (cover)

/-- The kernel's run, read: the result buffer ends at the decoder step of the arguments, the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.KValue

end
-- ==== Proof.RefCon.lean ====
/-
  The reference's controller step, read at a row: entry (b, j) of its new controller state is the row formula
  `Decoder.conNew` of row b of the observations and of the state.

  One lemma per row formula, in the order of the step: the joined input, the input's and the state's parts of the
  gates (each a product with a transposed weight matrix, read as a sum over the contracted column, plus a bias read
  through its two broadcasts), the two gates, the candidate, and the clipped new state. Every slice, transpose and
  broadcast is read at an index, and the index it reads is met coordinate by coordinate (`ix2_ext`, `ix1_ext`).
  The three general facts at the top (`ix2_ext`, `ix1_ext`, `logistic_spelt`) do not depend on the sizes; they are
  private to this module, so a module that states them again under the same names does not collide with it.
-/
import proofs.«136152_j3272765080211_1_alg».proof.Proof.Gen.ReferenceIdeal.Read
import proofs.«136152_j3272765080211_1_alg».proof.Proof.ArraySpec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefValue

open Cert.ReferenceIdeal Cert.ReferenceIdeal.Read Idealize.ShloMosaic Idealize.ShloMosaic.ValueIdx Cert.Decoder

variable (x0 : FVec Ideal S32768x256 .f32) (x1 : FVec Ideal S32768x1088 .f32) (x2 : FVec Ideal S32768x64 .f32)
  (x3 : FVec Ideal S1536x64 .f32) (x4 : FVec Ideal S1536 .f32) (x5 : FVec Ideal S1536x512 .f32) (x6 : FVec Ideal S1536 .f32)
  (x7 : FVec Ideal S768x384 .f32) (x8 : FVec Ideal S768 .f32) (x9 : FVec Ideal S768x256 .f32) (x10 : FVec Ideal S768 .f32)
  (x11 : FVec Ideal S128x512 .f32) (x12 : FVec Ideal S128x256 .f32) (x13 : FVec Ideal S128 .f32)

/-! ## General facts -/

/-- Two rank-2 indices with the same coordinates are equal. -/
private theorem ix2_ext {n0 n1 : Nat} (i j : (⟨2, ![n0, n1]⟩ : Shape).Idx) (h0 : (i 0).val = (j 0).val) (h1 : (i 1).val = (j 1).val) : i = j :=
  funext fun a => Fin.ext (by match a with | ⟨0, _⟩ => exact h0 | ⟨1, _⟩ => exact h1)

/-- Two rank-1 indices with the same coordinate are equal. -/
private theorem ix1_ext {n : Nat} (i j : (⟨1, ![n]⟩ : Shape).Idx) (h0 : (i 0).val = (j 0).val) : i = j :=
  funext fun a => Fin.ext (by match a with | ⟨0, _⟩ => exact h0)

/-- The sigmoid as the reference spells it, one over one plus the exponential of the negation, is the logistic
    function: the word 0x3F800000 is 1. -/
private theorem logistic_spelt (t : EReal) :
    FloatOps.hostDivf (F := Ideal) (φ := .f32) (FloatOps.ofBits .f32 0x3F800000#32)
      (FloatOps.addf (FloatOps.ofBits .f32 0x3F800000#32) (FloatOps.hostUnary .exp (FloatOps.hostNegf t))) = Ideal.logistic t := by
  show Ideal.div (Ideal.ofBits .f32 0x3F800000#32) (Ideal.ofBits .f32 0x3F800000#32 + Ideal.exp (-t)) = Ideal.div 1 (1 + Ideal.exp (-t))
  rw [Ideal.ofBits_one_f32]

/-! ## The controller's step, formula by formula -/

/-- The joined input of the controller at (b, k): the observation for k < 256, else the factor band of the state. -/
theorem conIn_ref (b : Fin 32768) (k : Fin 384) :
    val_main_v6 (F := Ideal) x0 x1 (ix2 b k) = conIn (row x0 b) (row x1 b) k := by
  unfold val_main_v6 conIn
  by_cases hk : k.val < 256
  · rw [dif_pos hk]
    exact concatenate_pair_apply_left _ x0 (val_main_v5 (F := Ideal) x1) _ (ix2 b k) rfl (ix2 b ⟨k.val, hk⟩)
      (fun a => match a with | ⟨0, _⟩ => rfl | ⟨1, _⟩ => rfl)
  · rw [dif_neg hk]
    have hk' : k.val - 256 < 128 := by have := k.isLt; omega
    refine (concatenate_pair_apply_right _ x0 (val_main_v5 (F := Ideal) x1) _ (ix2 b k) rfl rfl (ix2 b ⟨k.val - 256, hk'⟩)
      (fun a => match a with | ⟨0, _⟩ => fun _ => rfl | ⟨1, _⟩ => fun h => absurd rfl h)
      (by show (k.val - 256) + 256 = k.val; omega)).trans ?_
    rw [val_main_v5_apply]
    exact congrArg x1 (ix2_ext _ _ rfl rfl)

/-- The input's part of the controller's gates at (b, j): the joined input times the transposed input weights, plus the bias. -/
theorem xaC_ref (b : Fin 32768) (j : Fin 768) :
    val_main_v11 (F := Ideal) x0 x1 x7 x8 (ix2 b j)
      = xaC (wOfArrays x3 x4 x5 x6 x7 x8 x9 x10 x11 x12 x13) (row x0 b) (row x1 b) j := by
  rw [val_main_v11_apply, val_main_v8_apply, val_main_v10_apply, val_main_v9_apply]
  refine congrArg₂ (· + ·) (Finset.sum_congr rfl fun k _ => congrArg₂ (· * ·) ?_ ?_) ?_
  · exact (congrArg (val_main_v6 (F := Ideal) x0 x1) (ix2_ext (lidx_main_v8 (ix2 b j) k) (ix2 b k) rfl rfl)).trans (conIn_ref x0 x1 b k)
  · rw [val_main_v7_apply]; exact congrArg x7 (ix2_ext _ _ rfl rfl)
  · exact congrArg x8 (ix1_ext _ _ rfl)

/-- The state's part of the update and reset gates at (b, j). -/
theorem haC_ref (b : Fin 32768) (j : Fin 512) :
    val_main_v21 (F := Ideal) x1 x9 x10 (ix2 b j)
      = haC (wOfArrays x3 x4 x5 x6 x7 x8 x9 x10 x11 x12 x13) (row x1 b) j := by
  rw [val_main_v21_apply, val_main_v17_apply, val_main_v20_apply, val_main_v19_apply, val_main_v18_apply]
  refine congrArg₂ (· + ·) (Finset.sum_congr rfl fun k _ => congrArg₂ (· * ·) ?_ ?_) ?_
  · rw [val_main_v1_apply]; exact congrArg x1 (ix2_ext _ _ rfl rfl)
  · rw [val_main_v16_apply, val_main_v15_apply]; exact congrArg x9 (ix2_ext _ _ rfl rfl)
  · exact congrArg x10 (ix1_ext _ _ rfl)

/-- The update gate at (b, j). -/
theorem zC_ref (b : Fin 32768) (j : Fin 256) :
    val_main_v30 (F := Ideal) x0 x1 x7 x8 x9 x10 (ix2 b j)
      = zC (wOfArrays x3 x4 x5 x6 x7 x8 x9 x10 x11 x12 x13) (row x0 b) (row x1 b) j := by
  rw [val_main_v30_apply, val_main_v29_apply, val_main_cst_0_apply, val_main_v28_apply, val_main_v27_apply,
    val_main_cst_apply, val_main_v26_apply, val_main_v25_apply, val_main_v24_apply]
  refine (logistic_spelt _).trans (congrArg Ideal.logistic (congrArg₂ (· + ·) ?_ ?_))
  · rw [val_main_v12_apply]
    exact (congrArg (val_main_v11 (F := Ideal) x0 x1 x7 x8) (ix2_ext (idx_main_v12 (ix2 b j)) (ix2 b ⟨j.val, by omega⟩) rfl rfl)).trans
      (xaC_ref x0 x1 x3 x4 x5 x6 x7 x8 x9 x10 x11 x12 x13 b _)
  · rw [val_main_v22_apply]
    exact (congrArg (val_main_v21 (F := Ideal) x1 x9 x10) (ix2_ext (idx_main_v22 (ix2 b j)) (ix2 b ⟨j.val, by omega⟩) rfl rfl)).trans
      (haC_ref x1 x3 x4 x5 x6 x7 x8 x9 x10 x11 x12 x13 b _)

/-- The reset gate at (b, j). -/
theorem rC_ref (b : Fin 32768) (j : Fin 256) :
    val_main_v37 (F := Ideal) x0 x1 x7 x8 x9 x10 (ix2 b j)
      = rC (wOfArrays x3 x4 x5 x6 x7 x8 x9 x10 x11 x12 x13) (row x0 b) (row x1 b) j := by
  rw [val_main_v37_apply, val_main_v36_apply, val_main_cst_2_apply, val_main_v35_apply, val_main_v34_apply,
    val_main_cst_1_apply, val_main_v33_apply, val_main_v32_apply, val_main_v31_apply]
  refine (logistic_spelt _).trans (congrArg Ideal.logistic (congrArg₂ (· + ·) ?_ ?_))
  · rw [val_main_v13_apply]
    exact (congrArg (val_main_v11 (F := Ideal) x0 x1 x7 x8) (ix2_ext (idx_main_v13 (ix2 b j)) (ix2 b ⟨256 + j.val, by omega⟩) rfl rfl)).trans
      (xaC_ref x0 x1 x3 x4 x5 x6 x7 x8 x9 x10 x11 x12 x13 b _)
  · rw [val_main_v23_apply]
    exact (congrArg (val_main_v21 (F := Ideal) x1 x9 x10) (ix2_ext (idx_main_v23 (ix2 b j)) (ix2 b ⟨256 + j.val, by omega⟩) rfl rfl)).trans
      (haC_ref x1 x3 x4 x5 x6 x7 x8 x9 x10 x11 x12 x13 b _)

/-- The state's part of the candidate at (b, j): the reset state times the transposed candidate rows, plus the bias. -/
theorem hnC_ref (b : Fin 32768) (j : Fin 256) :
    val_main_v45 (F := Ideal) x0 x1 x7 x8 x9 x10 (ix2 b j)
      = hnC (wOfArrays x3 x4 x5 x6 x7 x8 x9 x10 x11 x12 x13) (row x0 b) (row x1 b) j := by
  rw [val_main_v45_apply, val_main_v41_apply, val_main_v44_apply, val_main_v43_apply, val_main_v42_apply]
  refine congrArg₂ (· + ·) (Finset.sum_congr rfl fun k _ => congrArg₂ (· * ·) ?_ ?_) ?_
  · rw [show lidx_main_v41 (ix2 b j) k = ix2 b k from ix2_ext _ _ rfl rfl, val_main_v38_apply]
    refine congrArg₂ (· * ·) (rC_ref x0 x1 x3 x4 x5 x6 x7 x8 x9 x10 x11 x12 x13 b k) ?_
    rw [val_main_v1_apply]; exact congrArg x1 (ix2_ext _ _ rfl rfl)
  · rw [val_main_v40_apply, val_main_v39_apply]; exact congrArg x9 (ix2_ext _ _ rfl rfl)
  · exact congrArg x10 (ix1_ext _ _ rfl)

/-- The candidate at (b, j). -/
theorem nC_ref (b : Fin 32768) (j : Fin 256) :
    val_main_v47 (F := Ideal) x0 x1 x7 x8 x9 x10 (ix2 b j)
      = nC (wOfArrays x3 x4 x5 x6 x7 x8 x9 x10 x11 x12 x13) (row x0 b) (row x1 b) j := by
  rw [val_main_v47_apply, val_main_v46_apply]
  refine congrArg Ideal.tanh (congrArg₂ (· + ·) ?_ (hnC_ref x0 x1 x3 x4 x5 x6 x7 x8 x9 x10 x11 x12 x13 b j))
  rw [val_main_v14_apply]
  exact (congrArg (val_main_v11 (F := Ideal) x0 x1 x7 x8) (ix2_ext (idx_main_v14 (ix2 b j)) (ix2 b ⟨512 + j.val, by omega⟩) rfl rfl)).trans
    (xaC_ref x0 x1 x3 x4 x5 x6 x7 x8 x9 x10 x11 x12 x13 b _)

/-- Entry (b, j) of the reference's new controller state. -/
theorem conNew_ref (b : Fin 32768) (j : Fin 256) :
    val_main_v53 (F := Ideal) x0 x1 x7 x8 x9 x10 (ix2 b j) = conNew (wOfArrays x3 x4 x5 x6 x7 x8 x9 x10 x11 x12 x13) (row x0 b) (row x1 b) j := by
  rw [val_main_v53_apply, val_main_call0_v4_apply, val_main_call0_v3_apply, val_main_cst_5_apply,
    val_main_call0_v2_apply, val_main_call0_v1_apply, val_main_call0_v0_apply, val_main_cst_4_apply,
    val_main_v52_apply, val_main_v48_apply, val_main_v51_apply, val_main_v50_apply, val_main_v49_apply, val_main_cst_3_apply,
    zC_ref x0 x1 x3 x4 x5 x6 x7 x8 x9 x10 x11 x12 x13 b j, nC_ref x0 x1 x3 x4 x5 x6 x7 x8 x9 x10 x11 x12 x13 b j,
    val_main_v1_apply, show idx_main_v1 (ix2 b j) = ix2 b (⟨512 + j.val, by omega⟩ : Fin 1088) from ix2_ext _ _ rfl rfl]
  rfl

end Cert.ReferenceIdeal.RefValue

end
-- ==== Proof.RefPost.lean ====
/-
  The reference's posterior parameters and sample, read at a row.
-/
import proofs.«136152_j3272765080211_1_alg».proof.Proof.RefCon
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefValue

open Cert.ReferenceIdeal Cert.ReferenceIdeal.Read Idealize.ShloMosaic Idealize.ShloMosaic.ValueIdx Cert.Decoder

variable (x0 : FVec Ideal S32768x256 .f32) (x1 : FVec Ideal S32768x1088 .f32) (x2 : FVec Ideal S32768x64 .f32)
  (x3 : FVec Ideal S1536x64 .f32) (x4 : FVec Ideal S1536 .f32) (x5 : FVec Ideal S1536x512 .f32) (x6 : FVec Ideal S1536 .f32)
  (x7 : FVec Ideal S768x384 .f32) (x8 : FVec Ideal S768 .f32) (x9 : FVec Ideal S768x256 .f32) (x10 : FVec Ideal S768 .f32)
  (x11 : FVec Ideal S128x512 .f32) (x12 : FVec Ideal S128x256 .f32) (x13 : FVec Ideal S128 .f32)

/-- Entry (b, j) of the reference's stacked posterior parameters: the new controller state times the
    transposed posterior matrix, plus the bias. -/
theorem coP_ref (b : Fin 32768) (j : Fin 128) :
    val_main_v58 (F := Ideal) x0 x1 x7 x8 x9 x10 x12 x13 (ix2 b j) = coP (wOfArrays x3 x4 x5 x6 x7 x8 x9 x10 x11 x12 x13) (row x0 b) (row x1 b) j := by
  rw [val_main_v58_apply, val_main_v55_apply, val_main_v57_apply, val_main_v56_apply, Ideal.addf_def]
  unfold coP
  refine congrArg₂ (· + ·) (Finset.sum_congr rfl fun k _ => ?_) ?_
  · -- the left factor is the controller state at (b, k); the right one is the matrix at (j, k), read
    -- through the transposition
    have e1 : lidx_main_v55 (ix2 b j) k = ix2 b k :=
      funext fun a => Fin.ext (by match a with | ⟨0, _⟩ => rfl | ⟨1, _⟩ => rfl)
    have e2 : idx_main_v54 (ridx_main_v55 (ix2 b j) k) = ix2 j k :=
      funext fun a => Fin.ext (by match a with | ⟨0, _⟩ => rfl | ⟨1, _⟩ => rfl)
    rw [val_main_v54_apply, e1, e2, conNew_ref x0 x1 x3 x4 x5 x6 x7 x8 x9 x10 x11 x12 x13 b k]
    rfl
  · -- the bias, broadcast along the rows
    have e3 : idx_main_v56 (idx_main_v57 (ix2 b j)) = ix1 j :=
      funext fun a => Fin.ext (by match a with | ⟨0, _⟩ => rfl)
    rw [e3]
    rfl

/-- Entry (b, j) of the reference's posterior mean. -/
theorem coMean_ref (b : Fin 32768) (j : Fin 64) :
    val_main_v59 (F := Ideal) x0 x1 x7 x8 x9 x10 x12 x13 (ix2 b j) = coMean (wOfArrays x3 x4 x5 x6 x7 x8 x9 x10 x11 x12 x13) (row x0 b) (row x1 b) j := by
  have e : idx_main_v59 (ix2 b j) = ix2 b (⟨j.val, by omega⟩ : Fin 128) :=
    funext fun a => Fin.ext (by match a with | ⟨0, _⟩ => rfl | ⟨1, _⟩ => rfl)
  rw [val_main_v59_apply, e, coP_ref x0 x1 x3 x4 x5 x6 x7 x8 x9 x10 x11 x12 x13]
  rfl

/-- Entry (b, j) of the reference's log-variance band: columns 64 … 127 of the stacked parameters. -/
theorem coLogvar_ref (b : Fin 32768) (j : Fin 64) :
    val_main_v60 (F := Ideal) x0 x1 x7 x8 x9 x10 x12 x13 (ix2 b j)
      = coP (wOfArrays x3 x4 x5 x6 x7 x8 x9 x10 x11 x12 x13) (row x0 b) (row x1 b) ⟨64 + j.val, by omega⟩ := by
  have e : idx_main_v60 (ix2 b j) = ix2 b (⟨64 + j.val, by omega⟩ : Fin 128) :=
    funext fun a => Fin.ext (by match a with | ⟨0, _⟩ => rfl | ⟨1, _⟩ => rfl)
  rw [val_main_v60_apply, e, coP_ref x0 x1 x3 x4 x5 x6 x7 x8 x9 x10 x11 x12 x13]

/-- Entry (b, j) of the reference's posterior deviation. -/
theorem coStd_ref (b : Fin 32768) (j : Fin 64) :
    val_main_v63 (F := Ideal) x0 x1 x7 x8 x9 x10 x12 x13 (ix2 b j) = coStd (wOfArrays x3 x4 x5 x6 x7 x8 x9 x10 x11 x12 x13) (row x0 b) (row x1 b) j := by
  rw [val_main_v63_apply, val_main_v62_apply, val_main_v61_apply, val_main_cst_6_apply,
    coLogvar_ref x0 x1 x3 x4 x5 x6 x7 x8 x9 x10 x11 x12 x13]
  rfl

/-- Entry (b, j) of the reference's sample. -/
theorem genIn_ref (b : Fin 32768) (j : Fin 64) :
    val_main_v65 (F := Ideal) x0 x1 x2 x7 x8 x9 x10 x12 x13 (ix2 b j) = genIn (wOfArrays x3 x4 x5 x6 x7 x8 x9 x10 x11 x12 x13) (row x0 b) (row x1 b) (row x2 b) j := by
  rw [val_main_v65_apply, val_main_v64_apply, coMean_ref x0 x1 x3 x4 x5 x6 x7 x8 x9 x10 x11 x12 x13,
    coStd_ref x0 x1 x3 x4 x5 x6 x7 x8 x9 x10 x11 x12 x13]
  rfl

end Cert.ReferenceIdeal.RefValue

end
-- ==== Proof.RefGen.lean ====
/-
  The reference's generator step, read at a row: entry (b, j) of its new generator state is the row formula
  `Decoder.genNew` of row b of the observations, of the state and of the noise.

  Each lemma reads one stage of the step at the index (b, j): an elementwise stage from its operands at the same
  index, a slice, a transpose or a broadcast from its operand at the moved index, a matrix product as the sum
  over the contracted axis. The gates are spelt 1 / (1 + exp (−t)), which is the logistic function once the word
  0x3F800000 is read as 1.
-/
import proofs.«136152_j3272765080211_1_alg».proof.Proof.RefPost
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefValue

open Cert.ReferenceIdeal Cert.ReferenceIdeal.Read Idealize.ShloMosaic Idealize.ShloMosaic.ValueIdx Cert.Decoder

variable (x0 : FVec Ideal S32768x256 .f32) (x1 : FVec Ideal S32768x1088 .f32) (x2 : FVec Ideal S32768x64 .f32)
  (x3 : FVec Ideal S1536x64 .f32) (x4 : FVec Ideal S1536 .f32) (x5 : FVec Ideal S1536x512 .f32) (x6 : FVec Ideal S1536 .f32)
  (x7 : FVec Ideal S768x384 .f32) (x8 : FVec Ideal S768 .f32) (x9 : FVec Ideal S768x256 .f32) (x10 : FVec Ideal S768 .f32)
  (x11 : FVec Ideal S128x512 .f32) (x12 : FVec Ideal S128x256 .f32) (x13 : FVec Ideal S128 .f32)

/-- The input's part of the generator's three gates: entry (b, j) of the sample times the transposed input weights, plus the bias. -/
theorem xaG_ref (b : Fin 32768) (j : Fin 1536) :
    val_main_v70 (F := Ideal) x0 x1 x2 x3 x4 x7 x8 x9 x10 x12 x13 (ix2 b j) = xaG (wOfArrays x3 x4 x5 x6 x7 x8 x9 x10 x11 x12 x13) (row x0 b) (row x1 b) (row x2 b) j := by
  rw [val_main_v70_apply]
  show val_main_v67 (F := Ideal) x0 x1 x2 x3 x7 x8 x9 x10 x12 x13 (ix2 b j) + val_main_v69 (F := Ideal) x4 (ix2 b j) = _
  unfold xaG
  congr 1
  · rw [val_main_v67_apply]
    refine Finset.sum_congr rfl fun k _ => ?_
    have e1 : lidx_main_v67 (ix2 b j) k = ix2 b k := funext fun a => Fin.ext (by match a with | ⟨0, _⟩ => rfl | ⟨1, _⟩ => rfl)
    rw [e1, genIn_ref x0 x1 x2 x3 x4 x5 x6 x7 x8 x9 x10 x11 x12 x13 b k, val_main_v66_apply]
    have e2 : idx_main_v66 (ridx_main_v67 (ix2 b j) k) = ix2 j k := funext fun a => Fin.ext (by match a with | ⟨0, _⟩ => rfl | ⟨1, _⟩ => rfl)
    rw [e2]
    rfl
  · rw [val_main_v69_apply, val_main_v68_apply]
    have e3 : idx_main_v68 (idx_main_v69 (ix2 b j)) = ix1 j := funext fun a => Fin.ext (by match a with | ⟨0, _⟩ => rfl)
    rw [e3]
    rfl

/-- The state's part of the generator's update and reset gates: entry (b, j) of the generator band times the
    transposed first 1024 rows of the recurrent weights, plus the bias. -/
theorem haG_ref (b : Fin 32768) (j : Fin 1024) :
    val_main_v80 (F := Ideal) x1 x5 x6 (ix2 b j) = haG (wOfArrays x3 x4 x5 x6 x7 x8 x9 x10 x11 x12 x13) (row x1 b) j := by
  rw [val_main_v80_apply]
  show val_main_v76 (F := Ideal) x1 x5 (ix2 b j) + val_main_v79 (F := Ideal) x6 (ix2 b j) = _
  unfold haG
  congr 1
  · rw [val_main_v76_apply]
    refine Finset.sum_congr rfl fun k _ => ?_
    rw [val_main_v0_apply, val_main_v75_apply, val_main_v74_apply]
    have e1 : idx_main_v0 (lidx_main_v76 (ix2 b j) k) = ix2 b (⟨k.val, by omega⟩ : Fin 1088) := funext fun a => Fin.ext (by match a with | ⟨0, _⟩ => rfl | ⟨1, _⟩ => rfl)
    have e2 : idx_main_v74 (idx_main_v75 (ridx_main_v76 (ix2 b j) k)) = ix2 (⟨j.val, by omega⟩ : Fin 1536) k := funext fun a => Fin.ext (by match a with | ⟨0, _⟩ => rfl | ⟨1, _⟩ => rfl)
    rw [e1, e2]
    rfl
  · rw [val_main_v79_apply, val_main_v78_apply, val_main_v77_apply]
    have e3 : idx_main_v77 (idx_main_v78 (idx_main_v79 (ix2 b j))) = ix1 (⟨j.val, by omega⟩ : Fin 1536) := funext fun a => Fin.ext (by match a with | ⟨0, _⟩ => rfl)
    rw [e3]
    rfl

/-- The generator's update gate: the reference spells the logistic function as 1 / (1 + exp (−t)). -/
theorem zG_ref (b : Fin 32768) (j : Fin 512) :
    val_main_v89 (F := Ideal) x0 x1 x2 x3 x4 x5 x6 x7 x8 x9 x10 x12 x13 (ix2 b j) = zG (wOfArrays x3 x4 x5 x6 x7 x8 x9 x10 x11 x12 x13) (row x0 b) (row x1 b) (row x2 b) j := by
  rw [val_main_v89_apply, val_main_v88_apply, val_main_cst_8_apply, val_main_v87_apply, val_main_v86_apply,
    val_main_cst_7_apply, val_main_v85_apply, val_main_v84_apply, val_main_v83_apply, val_main_v71_apply,
    val_main_v81_apply]
  have e1 : idx_main_v71 (ix2 b j) = ix2 b (⟨j.val, by omega⟩ : Fin 1536) := funext fun a => Fin.ext (by match a with | ⟨0, _⟩ => rfl | ⟨1, _⟩ => rfl)
  have e2 : idx_main_v81 (ix2 b j) = ix2 b (⟨j.val, by omega⟩ : Fin 1024) := funext fun a => Fin.ext (by match a with | ⟨0, _⟩ => rfl | ⟨1, _⟩ => rfl)
  rw [e1, e2, xaG_ref x0 x1 x2 x3 x4 x5 x6 x7 x8 x9 x10 x11 x12 x13, haG_ref x1 x3 x4 x5 x6 x7 x8 x9 x10 x11 x12 x13]
  show Ideal.div (Ideal.ofBits .f32 0x3F800000#32) (Ideal.ofBits .f32 0x3F800000#32 + Ideal.exp (-(_ + _))) = _
  rw [Ideal.ofBits_one_f32]
  rfl

/-- The generator's reset gate. -/
theorem rG_ref (b : Fin 32768) (j : Fin 512) :
    val_main_v96 (F := Ideal) x0 x1 x2 x3 x4 x5 x6 x7 x8 x9 x10 x12 x13 (ix2 b j) = rG (wOfArrays x3 x4 x5 x6 x7 x8 x9 x10 x11 x12 x13) (row x0 b) (row x1 b) (row x2 b) j := by
  rw [val_main_v96_apply, val_main_v95_apply, val_main_cst_10_apply, val_main_v94_apply, val_main_v93_apply,
    val_main_cst_9_apply, val_main_v92_apply, val_main_v91_apply, val_main_v90_apply, val_main_v72_apply,
    val_main_v82_apply]
  have e1 : idx_main_v72 (ix2 b j) = ix2 b (⟨512 + j.val, by omega⟩ : Fin 1536) := funext fun a => Fin.ext (by match a with | ⟨0, _⟩ => rfl | ⟨1, _⟩ => rfl)
  have e2 : idx_main_v82 (ix2 b j) = ix2 b (⟨512 + j.val, by omega⟩ : Fin 1024) := funext fun a => Fin.ext (by match a with | ⟨0, _⟩ => rfl | ⟨1, _⟩ => rfl)
  rw [e1, e2, xaG_ref x0 x1 x2 x3 x4 x5 x6 x7 x8 x9 x10 x11 x12 x13, haG_ref x1 x3 x4 x5 x6 x7 x8 x9 x10 x11 x12 x13]
  show Ideal.div (Ideal.ofBits .f32 0x3F800000#32) (Ideal.ofBits .f32 0x3F800000#32 + Ideal.exp (-(_ + _))) = _
  rw [Ideal.ofBits_one_f32]
  rfl

/-- The state's part of the generator's candidate: the reset gate times the generator band, times the
    transposed last 512 rows of the recurrent weights, plus the bias. -/
theorem hnG_ref (b : Fin 32768) (j : Fin 512) :
    val_main_v104 (F := Ideal) x0 x1 x2 x3 x4 x5 x6 x7 x8 x9 x10 x12 x13 (ix2 b j) = hnG (wOfArrays x3 x4 x5 x6 x7 x8 x9 x10 x11 x12 x13) (row x0 b) (row x1 b) (row x2 b) j := by
  rw [val_main_v104_apply]
  show val_main_v100 (F := Ideal) x0 x1 x2 x3 x4 x5 x6 x7 x8 x9 x10 x12 x13 (ix2 b j) + val_main_v103 (F := Ideal) x6 (ix2 b j) = _
  unfold hnG
  congr 1
  · rw [val_main_v100_apply]
    refine Finset.sum_congr rfl fun k _ => ?_
    have e0 : lidx_main_v100 (ix2 b j) k = ix2 b k := funext fun a => Fin.ext (by match a with | ⟨0, _⟩ => rfl | ⟨1, _⟩ => rfl)
    rw [e0, val_main_v97_apply, rG_ref x0 x1 x2 x3 x4 x5 x6 x7 x8 x9 x10 x11 x12 x13, val_main_v0_apply, val_main_v99_apply, val_main_v98_apply]
    have e1 : idx_main_v0 (ix2 b k) = ix2 b (⟨k.val, by omega⟩ : Fin 1088) := funext fun a => Fin.ext (by match a with | ⟨0, _⟩ => rfl | ⟨1, _⟩ => rfl)
    have e2 : idx_main_v98 (idx_main_v99 (ridx_main_v100 (ix2 b j) k)) = ix2 (⟨1024 + j.val, by omega⟩ : Fin 1536) k := funext fun a => Fin.ext (by match a with | ⟨0, _⟩ => rfl | ⟨1, _⟩ => rfl)
    rw [e1, e2]
    rfl
  · rw [val_main_v103_apply, val_main_v102_apply, val_main_v101_apply]
    have e3 : idx_main_v101 (idx_main_v102 (idx_main_v103 (ix2 b j))) = ix1 (⟨1024 + j.val, by omega⟩ : Fin 1536) := funext fun a => Fin.ext (by match a with | ⟨0, _⟩ => rfl)
    rw [e3]
    rfl

/-- The generator's candidate. -/
theorem nG_ref (b : Fin 32768) (j : Fin 512) :
    val_main_v106 (F := Ideal) x0 x1 x2 x3 x4 x5 x6 x7 x8 x9 x10 x12 x13 (ix2 b j) = nG (wOfArrays x3 x4 x5 x6 x7 x8 x9 x10 x11 x12 x13) (row x0 b) (row x1 b) (row x2 b) j := by
  rw [val_main_v106_apply, val_main_v105_apply, val_main_v73_apply]
  have e1 : idx_main_v73 (ix2 b j) = ix2 b (⟨1024 + j.val, by omega⟩ : Fin 1536) := funext fun a => Fin.ext (by match a with | ⟨0, _⟩ => rfl | ⟨1, _⟩ => rfl)
  rw [e1, xaG_ref x0 x1 x2 x3 x4 x5 x6 x7 x8 x9 x10 x11 x12 x13, hnG_ref x0 x1 x2 x3 x4 x5 x6 x7 x8 x9 x10 x11 x12 x13]
  rfl

/-- Entry (b, j) of the reference's new generator state. -/
theorem genNew_ref (b : Fin 32768) (j : Fin 512) :
    val_main_v112 (F := Ideal) x0 x1 x2 x3 x4 x5 x6 x7 x8 x9 x10 x12 x13 (ix2 b j) = genNew (wOfArrays x3 x4 x5 x6 x7 x8 x9 x10 x11 x12 x13) (row x0 b) (row x1 b) (row x2 b) j := by
  rw [val_main_v112_apply, val_main_call1_v4_apply, val_main_call1_v3_apply, val_main_cst_13_apply,
    val_main_call1_v2_apply, val_main_call1_v1_apply, val_main_call1_v0_apply, val_main_cst_12_apply,
    val_main_v111_apply, val_main_v107_apply, val_main_v110_apply, val_main_v109_apply, val_main_v108_apply,
    val_main_cst_11_apply, zG_ref x0 x1 x2 x3 x4 x5 x6 x7 x8 x9 x10 x11 x12 x13, nG_ref x0 x1 x2 x3 x4 x5 x6 x7 x8 x9 x10 x11 x12 x13, val_main_v0_apply]
  have e1 : idx_main_v0 (ix2 b j) = ix2 b (⟨j.val, by omega⟩ : Fin 1088) := funext fun a => Fin.ext (by match a with | ⟨0, _⟩ => rfl | ⟨1, _⟩ => rfl)
  rw [e1]
  rfl

end Cert.ReferenceIdeal.RefValue

end
-- ==== Proof.RefFac.lean ====
/-
  The reference's factors, read at a row.
-/
import proofs.«136152_j3272765080211_1_alg».proof.Proof.RefGen
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefValue

open Cert.ReferenceIdeal Cert.ReferenceIdeal.Read Idealize.ShloMosaic Idealize.ShloMosaic.ValueIdx Cert.Decoder

variable (x0 : FVec Ideal S32768x256 .f32) (x1 : FVec Ideal S32768x1088 .f32) (x2 : FVec Ideal S32768x64 .f32)
  (x3 : FVec Ideal S1536x64 .f32) (x4 : FVec Ideal S1536 .f32) (x5 : FVec Ideal S1536x512 .f32) (x6 : FVec Ideal S1536 .f32)
  (x7 : FVec Ideal S768x384 .f32) (x8 : FVec Ideal S768 .f32) (x9 : FVec Ideal S768x256 .f32) (x10 : FVec Ideal S768 .f32)
  (x11 : FVec Ideal S128x512 .f32) (x12 : FVec Ideal S128x256 .f32) (x13 : FVec Ideal S128 .f32)

/-- The floored length of row j of the factor matrix, as the reference computes it: the square root of the sum
    of squares (the sum starts from zero), floored. -/
theorem facLen_ref (j : Fin 128) (k : Fin 512) :
    val_main_v119 (F := Ideal) x11 (ix2 j k) = facLen (wOfArrays x3 x4 x5 x6 x7 x8 x9 x10 x11 x12 x13) j := by
  rw [val_main_v119_apply, val_main_v118_apply, val_main_v117_apply, val_main_cst_15_apply, val_main_v116_apply,
    val_main_v115_apply, val_main_v114_apply, val_main_cst_14_apply, Ideal.ofBits_def, Ideal.ofBits_zero_f32, zero_add]
  unfold facLen
  refine congrArg₂ max (congrArg Ideal.sqrt (Finset.sum_congr rfl fun q _ => ?_)) rfl
  have e : idx_main_v114 (idx_main_v115 (idx_main_v119 (ix2 j k))) q = ix2 j q :=
    funext fun a => Fin.ext (by match a with | ⟨0, _⟩ => rfl | ⟨1, _⟩ => rfl)
  rw [val_main_v113_apply, e]
  rfl

/-- Entry (j, k) of the factor matrix with its rows scaled to unit length. -/
theorem facUnit_ref (j : Fin 128) (k : Fin 512) :
    val_main_v120 (F := Ideal) x11 (ix2 j k) = facUnit (wOfArrays x3 x4 x5 x6 x7 x8 x9 x10 x11 x12 x13) j k := by
  rw [val_main_v120_apply, facLen_ref x3 x4 x5 x6 x7 x8 x9 x10 x11 x12 x13]
  rfl

/-- Entry (b, j) of the reference's factors. -/
theorem facNew_ref (b : Fin 32768) (j : Fin 128) :
    val_main_v122 (F := Ideal) x0 x1 x2 x3 x4 x5 x6 x7 x8 x9 x10 x11 x12 x13 (ix2 b j) = facNew (wOfArrays x3 x4 x5 x6 x7 x8 x9 x10 x11 x12 x13) (row x0 b) (row x1 b) (row x2 b) j := by
  rw [val_main_v122_apply]
  unfold facNew
  refine Finset.sum_congr rfl fun k _ => ?_
  -- the left factor is the new generator state at (b, k); the right one is the unit row j at k, read
  -- through the transposition
  have e1 : lidx_main_v122 (ix2 b j) k = ix2 b k :=
    funext fun a => Fin.ext (by match a with | ⟨0, _⟩ => rfl | ⟨1, _⟩ => rfl)
  have e2 : idx_main_v121 (ridx_main_v122 (ix2 b j) k) = ix2 j k :=
    funext fun a => Fin.ext (by match a with | ⟨0, _⟩ => rfl | ⟨1, _⟩ => rfl)
  rw [val_main_v121_apply, e1, e2, genNew_ref x0 x1 x2 x3 x4 x5 x6 x7 x8 x9 x10 x11 x12 x13 b k,
    facUnit_ref x3 x4 x5 x6 x7 x8 x9 x10 x11 x12 x13 j k]

end Cert.ReferenceIdeal.RefValue

end
-- ==== Proof.RefOut.lean ====
/-
  The reference's result: the six bands joined, so the whole array is `Decoder.outArr` of the arguments.
-/
import proofs.«136152_j3272765080211_1_alg».proof.Proof.RefFac
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefValue

open Cert.ReferenceIdeal Cert.ReferenceIdeal.Read Idealize.ShloMosaic Idealize.ShloMosaic.ValueIdx Cert.Decoder

variable (x0 : FVec Ideal S32768x256 .f32) (x1 : FVec Ideal S32768x1088 .f32) (x2 : FVec Ideal S32768x64 .f32)
  (x3 : FVec Ideal S1536x64 .f32) (x4 : FVec Ideal S1536 .f32) (x5 : FVec Ideal S1536x512 .f32) (x6 : FVec Ideal S1536 .f32)
  (x7 : FVec Ideal S768x384 .f32) (x8 : FVec Ideal S768 .f32) (x9 : FVec Ideal S768x256 .f32) (x10 : FVec Ideal S768 .f32)
  (x11 : FVec Ideal S128x512 .f32) (x12 : FVec Ideal S128x256 .f32) (x13 : FVec Ideal S128 .f32)

/-- The reference's result array is the decoder step of its arguments, row by row. -/
theorem out_ref :
    val_main_v123 (F := Ideal) x0 x1 x2 x3 x4 x5 x6 x7 x8 x9 x10 x11 x12 x13 = outArr x0 x1 x2 x3 x4 x5 x6 x7 x8 x9 x10 x11 x12 x13 := by
  funext i
  obtain ⟨b, c, rfl⟩ : ∃ (b : Fin 32768) (c : Fin 1088), i = ix2 b c :=
    ⟨⟨(i 0).val, (i 0).isLt⟩, ⟨(i 1).val, (i 1).isLt⟩, eq_ix2 i⟩
  rw [outArr_apply]
  unfold val_main_v123
  -- the six joined pieces start at columns 0, 512, 768, 832, 896 and 960
  by_cases h0 : c.val < 512
  · refine (concatenate_apply_piece _ _ _ (ix2 b c) 0 (by show (0 : Nat) < 6; omega) S32768x512 _ rfl rfl 0 rfl
      (ix2 b (⟨c.val, h0⟩ : Fin 512)) (fun d hd => by match d with | ⟨0, _⟩ => rfl | ⟨1, _⟩ => exact absurd rfl hd) (by show 0 + c.val = c.val; omega)).trans ?_
    rw [genNew_ref x0 x1 x2 x3 x4 x5 x6 x7 x8 x9 x10 x11 x12 x13]
    simp only [rowOut, dif_pos h0]
  by_cases h1 : c.val < 768
  · refine (concatenate_apply_piece _ _ _ (ix2 b c) 1 (by show (1 : Nat) < 6; omega) S32768x256 _ rfl rfl 512 rfl
      (ix2 b (⟨c.val - 512, by omega⟩ : Fin 256)) (fun d hd => by match d with | ⟨0, _⟩ => rfl | ⟨1, _⟩ => exact absurd rfl hd) (by show 512 + (c.val - 512) = c.val; omega)).trans ?_
    rw [conNew_ref x0 x1 x3 x4 x5 x6 x7 x8 x9 x10 x11 x12 x13]
    simp only [rowOut, dif_neg h0, dif_pos h1]
  by_cases h2 : c.val < 832
  · refine (concatenate_apply_piece _ _ _ (ix2 b c) 2 (by show (2 : Nat) < 6; omega) S32768x64 _ rfl rfl 768 rfl
      (ix2 b (⟨c.val - 768, by omega⟩ : Fin 64)) (fun d hd => by match d with | ⟨0, _⟩ => rfl | ⟨1, _⟩ => exact absurd rfl hd) (by show 768 + (c.val - 768) = c.val; omega)).trans ?_
    rw [coMean_ref x0 x1 x3 x4 x5 x6 x7 x8 x9 x10 x11 x12 x13]
    simp only [rowOut, dif_neg h0, dif_neg h1, dif_pos h2]
  by_cases h3 : c.val < 896
  · refine (concatenate_apply_piece _ _ _ (ix2 b c) 3 (by show (3 : Nat) < 6; omega) S32768x64 _ rfl rfl 832 rfl
      (ix2 b (⟨c.val - 832, by omega⟩ : Fin 64)) (fun d hd => by match d with | ⟨0, _⟩ => rfl | ⟨1, _⟩ => exact absurd rfl hd) (by show 832 + (c.val - 832) = c.val; omega)).trans ?_
    rw [coStd_ref x0 x1 x3 x4 x5 x6 x7 x8 x9 x10 x11 x12 x13]
    simp only [rowOut, dif_neg h0, dif_neg h1, dif_neg h2, dif_pos h3]
  by_cases h4 : c.val < 960
  · refine (concatenate_apply_piece _ _ _ (ix2 b c) 4 (by show (4 : Nat) < 6; omega) S32768x64 _ rfl rfl 896 rfl
      (ix2 b (⟨c.val - 896, by omega⟩ : Fin 64)) (fun d hd => by match d with | ⟨0, _⟩ => rfl | ⟨1, _⟩ => exact absurd rfl hd) (by show 896 + (c.val - 896) = c.val; omega)).trans ?_
    rw [genIn_ref x0 x1 x2 x3 x4 x5 x6 x7 x8 x9 x10 x11 x12 x13]
    simp only [rowOut, dif_neg h0, dif_neg h1, dif_neg h2, dif_neg h3, dif_pos h4]
  · have hc : c.val < 1088 := c.isLt
    refine (concatenate_apply_piece _ _ _ (ix2 b c) 5 (by show (5 : Nat) < 6; omega) S32768x128 _ rfl rfl 960 rfl
      (ix2 b (⟨c.val - 960, by omega⟩ : Fin 128)) (fun d hd => by match d with | ⟨0, _⟩ => rfl | ⟨1, _⟩ => exact absurd rfl hd) (by show 960 + (c.val - 960) = c.val; omega)).trans ?_
    rw [facNew_ref x0 x1 x2 x3 x4 x5 x6 x7 x8 x9 x10 x11 x12 x13]
    simp only [rowOut, dif_neg h0, dif_neg h1, dif_neg h2, dif_neg h3, dif_neg h4]

end Cert.ReferenceIdeal.RefValue

end
-- ==== Proof.lean ====
/-
  One decoder step, the kernel against its reference, over the extended reals.

  Both programs compute, for each of the 32768 batch rows independently, the same function of that row of the
  observations, of the carried state and of the noise, and of the weights (Proof/RowSpec.lean, `Decoder.rowOut`):
  a GRU step for the controller on the observation joined with the factor band of the state; a linear layer that
  gives the posterior's mean and log-variance, the deviation `exp (logvar / 2)` and the sample
  `mean + deviation * noise`; a GRU step for the generator on the sample; and the new generator state times the
  factor matrix with every row scaled to unit length. The result row is the six bands
  [generator state | controller state | mean | deviation | sample | factors].

  The kernel works on 32 blocks of 1024 rows with every weight whole in each block; its body's six stores are the
  six bands, and each stored term, read at a row, is the band's formula (Proof/KCon.lean, KPost.lean, KGen.lean,
  KFac.lean, KBlock.lean); the blocks cover the result array (Proof/KArray.lean). The reference is one straight
  line of array operations whose stages, read at a row, are the same formulas (Proof/RefCon.lean, RefPost.lean,
  RefGen.lean, RefFac.lean), joined into the result (Proof/RefOut.lean). The two differ only in spelling: the
  kernel's sigmoid is one operation where the reference writes 1 / (1 + exp (−t)), which is that operation's
  definition on the extended reals; the kernel's products are matrix products into a zero accumulator where the
  reference contracts directly; the kernel's row sum of squares has no initial value where the reference's starts
  from zero. Every literal (1, −5, 5, 1/2, the floor of a factor row's length) is the same word on both sides.
  No law used needs the inputs to be finite, so the precondition is never opened.
-/
import proofs.«136152_j3272765080211_1_alg».proof.Defs
import proofs.«136152_j3272765080211_1_alg».proof.Proof.Gen.Kernel
import proofs.«136152_j3272765080211_1_alg».proof.Proof.Gen.Kernel.Skeleton
import proofs.«136152_j3272765080211_1_alg».proof.Proof.Gen.Kernel.Launch
import proofs.«136152_j3272765080211_1_alg».proof.Proof.Gen.Kernel.Points
import proofs.«136152_j3272765080211_1_alg».proof.Proof.Gen.Kernel.Frame
import proofs.«136152_j3272765080211_1_alg».proof.Proof.Gen.KernelIdeal
import proofs.«136152_j3272765080211_1_alg».proof.Proof.Gen.KernelIdeal.Skeleton
import proofs.«136152_j3272765080211_1_alg».proof.Proof.Gen.KernelIdeal.Launch
import proofs.«136152_j3272765080211_1_alg».proof.Proof.Gen.KernelIdeal.Points
import proofs.«136152_j3272765080211_1_alg».proof.Proof.Gen.KernelIdeal.Frame
import proofs.«136152_j3272765080211_1_alg».proof.Proof.Gen.ReferenceIdeal
import proofs.«136152_j3272765080211_1_alg».proof.Proof.Gen.Pre_finite_inputs
import proofs.«136152_j3272765080211_1_alg».proof.Proof.Gen.KernelIdeal.Value
import proofs.«136152_j3272765080211_1_alg».proof.Proof.Gen.ReferenceIdeal.Run
import proofs.«136152_j3272765080211_1_alg».proof.Proof.Gen.ReferenceIdeal.Read
import proofs.«136152_j3272765080211_1_alg».proof.Proof.KArray
import proofs.«136152_j3272765080211_1_alg».proof.Proof.RefOut
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs end with the same result array: the kernel's is the decoder step of its
    arguments row by row (the 32 blocks of 1024 rows cover the array), the reference's is the same function of its
    arguments (its six bands joined), and the arguments agree. -/
theorem algebraic : Cert.algebraic_KernelIdeal_ReferenceIdeal := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v123_eq, Cert.ReferenceIdeal.RefValue.out_ref, h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
